-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S67584 : Shape := ⟨1, ![67584]⟩
abbrev S_ : Shape := ⟨0, ![]⟩
abbrev S16384 : Shape := ⟨1, ![16384]⟩
abbrev S2048 : Shape := ⟨1, ![2048]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S67584 : S_.BroadcastsInDim S67584 (![] : Fin 0 → Fin S67584.rank)
  reducesTo_S67584_S_d0 : S67584.ReducesTo [0] S_
  slices_S67584_S16384_0 : S67584.Slices ![0] S16384
  bcast_S_S16384 : S_.BroadcastsInDim S16384 (![] : Fin 0 → Fin S16384.rank)
  reducesTo_S16384_S_d0 : S16384.ReducesTo [0] S_
  slices_S67584_S16384_16384 : S67584.Slices ![16384] S16384
  slices_S67584_S16384_32768 : S67584.Slices ![32768] S16384
  slices_S67584_S16384_49152 : S67584.Slices ![49152] S16384
  slices_S67584_S2048_65536 : S67584.Slices ![65536] S2048
  bcast_S_S2048 : S_.BroadcastsInDim S2048 (![] : Fin 0 → Fin S2048.rank)
  reducesTo_S2048_S_d0 : S2048.ReducesTo [0] S_

variable [Facts]

def fn_part3 {F : FTy → Type} [FloatOps F] (main_v44 : IVec S_ 1) (main_v52 : IVec S_ 1) : IVec S_ 1 :=
  let main_v53 : IVec S_ 1 := andi main_v44 main_v52
  main_v53

def fn_part2 {F : FTy → Type} [FloatOps F] (main_arg2 : IVec S67584 32) (main_v26 : IVec S_ 1) (main_v34 : IVec S_ 1) : IVec S_ 1 :=
  let main_v35 : IVec S_ 1 := andi main_v26 main_v34
  let main_v36 : IVec S16384 32 := (extractStridedSlice S16384 ![49152] · slices_S67584_S16384_49152) main_arg2
  let main_c_11 : IVec S_ 32 := constantI S_ 32 1280#32
  let main_v37 : IVec S16384 32 := broadcastInDim S16384 ![] bcast_S_S16384 main_c_11
  let main_v38 : IVec S16384 1 := cmpi .sge main_v36 main_v37
  let main_v39 : IVec S16384 32 := (extractStridedSlice S16384 ![49152] · slices_S67584_S16384_49152) main_arg2
  let main_c_12 : IVec S_ 32 := constantI S_ 32 1792#32
  let main_v40 : IVec S16384 32 := broadcastInDim S16384 ![] bcast_S_S16384 main_c_12
  let main_v41 : IVec S16384 1 := cmpi .slt main_v39 main_v40
  let main_v42 : IVec S16384 1 := andi main_v38 main_v41
  let main_c_13 : IVec S_ 1 := constantI S_ 1 1#1
  let main_v43 : IVec S_ 1 := (fun x v => Host.reduce IntOp.andi x v reducesTo_S16384_S_d0 h_S_) main_v42 main_c_13
  let main_v44 : IVec S_ 1 := andi main_v35 main_v43
  let main_v45 : IVec S2048 32 := (extractStridedSlice S2048 ![65536] · slices_S67584_S2048_65536) main_arg2
  let main_c_14 : IVec S_ 32 := constantI S_ 32 1792#32
  let main_v46 : IVec S2048 32 := broadcastInDim S2048 ![] bcast_S_S2048 main_c_14
  let main_v47 : IVec S2048 1 := cmpi .sge main_v45 main_v46
  let main_v48 : IVec S2048 32 := (extractStridedSlice S2048 ![65536] · slices_S67584_S2048_65536) main_arg2
  let main_c_15 : IVec S_ 32 := constantI S_ 32 2304#32
  let main_v49 : IVec S2048 32 := broadcastInDim S2048 ![] bcast_S_S2048 main_c_15
  let main_v50 : IVec S2048 1 := cmpi .slt main_v48 main_v49
  let main_v51 : IVec S2048 1 := andi main_v47 main_v50
  let main_c_16 : IVec S_ 1 := constantI S_ 1 1#1
  let main_v52 : IVec S_ 1 := (fun x v => Host.reduce IntOp.andi x v reducesTo_S2048_S_d0 h_S_) main_v51 main_c_16
  fn_part3 (F := F) main_v44 main_v52

def fn_part1 {F : FTy → Type} [FloatOps F] (main_arg2 : IVec S67584 32) (main_v8 : IVec S_ 1) (main_v16 : IVec S_ 1) : IVec S_ 1 :=
  let main_v17 : IVec S_ 1 := andi main_v8 main_v16
  let main_v18 : IVec S16384 32 := (extractStridedSlice S16384 ![16384] · slices_S67584_S16384_16384) main_arg2
  let main_c_5 : IVec S_ 32 := constantI S_ 32 256#32
  let main_v19 : IVec S16384 32 := broadcastInDim S16384 ![] bcast_S_S16384 main_c_5
  let main_v20 : IVec S16384 1 := cmpi .sge main_v18 main_v19
  let main_v21 : IVec S16384 32 := (extractStridedSlice S16384 ![16384] · slices_S67584_S16384_16384) main_arg2
  let main_c_6 : IVec S_ 32 := constantI S_ 32 768#32
  let main_v22 : IVec S16384 32 := broadcastInDim S16384 ![] bcast_S_S16384 main_c_6
  let main_v23 : IVec S16384 1 := cmpi .slt main_v21 main_v22
  let main_v24 : IVec S16384 1 := andi main_v20 main_v23
  let main_c_7 : IVec S_ 1 := constantI S_ 1 1#1
  let main_v25 : IVec S_ 1 := (fun x v => Host.reduce IntOp.andi x v reducesTo_S16384_S_d0 h_S_) main_v24 main_c_7
  let main_v26 : IVec S_ 1 := andi main_v17 main_v25
  let main_v27 : IVec S16384 32 := (extractStridedSlice S16384 ![32768] · slices_S67584_S16384_32768) main_arg2
  let main_c_8 : IVec S_ 32 := constantI S_ 32 768#32
  let main_v28 : IVec S16384 32 := broadcastInDim S16384 ![] bcast_S_S16384 main_c_8
  let main_v29 : IVec S16384 1 := cmpi .sge main_v27 main_v28
  let main_v30 : IVec S16384 32 := (extractStridedSlice S16384 ![32768] · slices_S67584_S16384_32768) main_arg2
  let main_c_9 : IVec S_ 32 := constantI S_ 32 1280#32
  let main_v31 : IVec S16384 32 := broadcastInDim S16384 ![] bcast_S_S16384 main_c_9
  let main_v32 : IVec S16384 1 := cmpi .slt main_v30 main_v31
  let main_v33 : IVec S16384 1 := andi main_v29 main_v32
  let main_c_10 : IVec S_ 1 := constantI S_ 1 1#1
  let main_v34 : IVec S_ 1 := (fun x v => Host.reduce IntOp.andi x v reducesTo_S16384_S_d0 h_S_) main_v33 main_c_10
  fn_part2 (F := F) main_arg2 main_v26 main_v34

def fn {F : FTy → Type} [FloatOps F] (main_arg0 : FVec F S2048x256 .f32) (main_arg1 : FVec F S67584 .f32) (main_arg2 : IVec S67584 32) (main_arg3 : IVec S67584 32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S67584 .f32 := Host.absf main_arg1
  let main_cst_0 : FVec F S_ .f32 := constant S_ .f32 0x7F800000#32
  let main_v5 : FVec F S67584 .f32 := broadcastInDim S67584 ![] bcast_S_S67584 main_cst_0
  let main_v6 : IVec S67584 1 := cmpf .olt main_v4 main_v5
  let main_c_1 : IVec S_ 1 := constantI S_ 1 1#1
  let main_v7 : IVec S_ 1 := (fun x v => Host.reduce IntOp.andi x v reducesTo_S67584_S_d0 h_S_) main_v6 main_c_1
  let main_v8 : IVec S_ 1 := andi main_v3 main_v7
  let main_v9 : IVec S16384 32 := (extractStridedSlice S16384 ![0] · slices_S67584_S16384_0) main_arg2
  let main_c_2 : IVec S_ 32 := constantI S_ 32 0#32
  let main_v10 : IVec S16384 32 := broadcastInDim S16384 ![] bcast_S_S16384 main_c_2
  let main_v11 : IVec S16384 1 := cmpi .sge main_v9 main_v10
  let main_v12 : IVec S16384 32 := (extractStridedSlice S16384 ![0] · slices_S67584_S16384_0) main_arg2
  let main_c_3 : IVec S_ 32 := constantI S_ 32 256#32
  let main_v13 : IVec S16384 32 := broadcastInDim S16384 ![] bcast_S_S16384 main_c_3
  let main_v14 : IVec S16384 1 := cmpi .slt main_v12 main_v13
  let main_v15 : IVec S16384 1 := andi main_v11 main_v14
  let main_c_4 : IVec S_ 1 := constantI S_ 1 1#1
  let main_v16 : IVec S_ 1 := (fun x v => Host.reduce IntOp.andi x v reducesTo_S16384_S_d0 h_S_) main_v15 main_c_4
  fn_part1 (F := F) main_arg2 main_v8 main_v16
-- ==== Kernel.lean ====
abbrev S2048x256 : Shape := ⟨2, ![2048, 256]⟩
abbrev S67584 : Shape := ⟨1, ![67584]⟩
abbrev S16384 : Shape := ⟨1, ![16384]⟩
abbrev S_ : Shape := ⟨0, ![]⟩
abbrev S256x512 : Shape := ⟨2, ![256, 512]⟩
abbrev S16384x1 : Shape := ⟨2, ![16384, 1]⟩
abbrev S16384x2 : Shape := ⟨2, ![16384, 2]⟩
abbrev S512x512 : Shape := ⟨2, ![512, 512]⟩
abbrev S2048 : Shape := ⟨1, ![2048]⟩
abbrev S512x64 : Shape := ⟨2, ![512, 64]⟩
abbrev S2048x1 : Shape := ⟨2, ![2048, 1]⟩
abbrev S2048x2 : Shape := ⟨2, ![2048, 2]⟩
abbrev S2048x64 : Shape := ⟨2, ![2048, 64]⟩
abbrev S1024x256 : Shape := ⟨2, ![1024, 256]⟩
abbrev S1024x64 : Shape := ⟨2, ![1024, 64]⟩
abbrev S1024x512 : Shape := ⟨2, ![1024, 512]⟩

abbrev nBuf : Space → Nat
  | .hbm => 150
  | .vmem => 9
  | .smem => 0
  | _ => 0

abbrev hbmTy0_0 (i : Nat) : BufTy := match i % 128 with
  | 0 => ⟨S2048x256, .f32⟩
  | 1 => ⟨S67584, .f32⟩
  | 2 => ⟨S67584, .i32⟩
  | 3 => ⟨S67584, .i32⟩
  | 4 => ⟨S16384, .i32⟩
  | 5 => ⟨S_, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i32⟩
  | 12 => ⟨S16384, .f32⟩
  | 13 => ⟨S_, .f32⟩
  | 14 => ⟨S256x512, .f32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S16384x1, .i32⟩
  | 31 => ⟨S16384x2, .i32⟩
  | 32 => ⟨S256x512, .f32⟩
  | 33 => ⟨S16384, .i32⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i32⟩
  | 41 => ⟨S16384, .f32⟩
  | 42 => ⟨S_, .f32⟩
  | 43 => ⟨S512x512, .f32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S16384x1, .i32⟩
  | 60 => ⟨S16384x2, .i32⟩
  | 61 => ⟨S512x512, .f32⟩
  | 62 => ⟨S16384, .i32⟩
  | 63 => ⟨S_, .i32⟩
  | 64 => ⟨S16384, .i32⟩
  | 65 => ⟨S16384, .i32⟩
  | 66 => ⟨S16384, .i32⟩
  | 67 => ⟨S_, .i32⟩
  | 68 => ⟨S16384, .i32⟩
  | 69 => ⟨S16384, .i32⟩
  | 70 => ⟨S16384, .f32⟩
  | 71 => ⟨S_, .f32⟩
  | 72 => ⟨S512x512, .f32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S_, .i32⟩
  | 81 => ⟨S16384, .i32⟩
  | 82 => ⟨S16384, .i1⟩
  | 83 => ⟨S_, .i32⟩
  | 84 => ⟨S16384, .i32⟩
  | 85 => ⟨S16384, .i32⟩
  | 86 => ⟨S16384, .i32⟩
  | 87 => ⟨S16384x1, .i32⟩
  | 88 => ⟨S16384x1, .i32⟩
  | 89 => ⟨S16384x2, .i32⟩
  | 90 => ⟨S512x512, .f32⟩
  | 91 => ⟨S16384, .i32⟩
  | 92 => ⟨S_, .i32⟩
  | 93 => ⟨S16384, .i32⟩
  | 94 => ⟨S16384, .i32⟩
  | 95 => ⟨S16384, .i32⟩
  | 96 => ⟨S_, .i32⟩
  | 97 => ⟨S16384, .i32⟩
  | 98 => ⟨S16384, .i32⟩
  | 99 => ⟨S16384, .f32⟩
  | 100 => ⟨S_, .f32⟩
  | 101 => ⟨S512x512, .f32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S16384x1, .i32⟩
  | 118 => ⟨S16384x2, .i32⟩
  | 119 => ⟨S512x512, .f32⟩
  | 120 => ⟨S2048, .i32⟩
  | 121 => ⟨S_, .i32⟩
  | 122 => ⟨S2048, .i32⟩
  | 123 => ⟨S2048, .i32⟩
  | 124 => ⟨S2048, .i32⟩
  | 125 => ⟨S_, .i32⟩
  | 126 => ⟨S2048, .i32⟩
  | 127 => ⟨S2048, .i32⟩
  | _ => ⟨S2048x256, .f32⟩

abbrev hbmTy0_1 (i : Nat) : BufTy := match i % 128 with
  | 0 => ⟨S2048, .f32⟩
  | 1 => ⟨S_, .f32⟩
  | 2 => ⟨S512x64, .f32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S_, .i32⟩
  | 11 => ⟨S2048, .i32⟩
  | 12 => ⟨S2048, .i1⟩
  | 13 => ⟨S_, .i32⟩
  | 14 => ⟨S2048, .i32⟩
  | 15 => ⟨S2048, .i32⟩
  | 16 => ⟨S2048, .i32⟩
  | 17 => ⟨S2048x1, .i32⟩
  | 18 => ⟨S2048x1, .i32⟩
  | 19 => ⟨S2048x2, .i32⟩
  | 20 => ⟨S512x64, .f32⟩
  | 21 => ⟨S2048x64, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x64, .f32⟩
  | .local _ .vmem, ⟨7, _⟩ => ⟨S1024x64, .f32⟩
  | .local _ .vmem, ⟨8, _⟩ => ⟨S1024x64, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_c_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_c_15 : Ref sig .tc := ⟨.hbm, 73, rfl⟩
abbrev main_v52 : Ref sig .tc := ⟨.hbm, 74, rfl⟩
abbrev main_v53 : Ref sig .tc := ⟨.hbm, 75, rfl⟩
abbrev main_c_16 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_17 : Ref sig .tc := ⟨.hbm, 80, rfl⟩
abbrev main_v57 : Ref sig .tc := ⟨.hbm, 81, rfl⟩
abbrev main_v58 : Ref sig .tc := ⟨.hbm, 82, rfl⟩
abbrev main_c_18 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_20 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_21 : Ref sig .tc := ⟨.hbm, 100, rfl⟩
abbrev main_v73 : Ref sig .tc := ⟨.hbm, 101, rfl⟩
abbrev main_c_22 : Ref sig .tc := ⟨.hbm, 102, rfl⟩
abbrev main_v74 : Ref sig .tc := ⟨.hbm, 103, rfl⟩
abbrev main_v75 : Ref sig .tc := ⟨.hbm, 104, rfl⟩
abbrev main_c_23 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_24 : Ref sig .tc := ⟨.hbm, 109, rfl⟩
abbrev main_v79 : Ref sig .tc := ⟨.hbm, 110, rfl⟩
abbrev main_v80 : Ref sig .tc := ⟨.hbm, 111, rfl⟩
abbrev main_c_25 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_26 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_27 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_28 : Ref sig .tc := ⟨.hbm, 129, rfl⟩
abbrev main_v95 : Ref sig .tc := ⟨.hbm, 130, rfl⟩
abbrev main_c_29 : Ref sig .tc := ⟨.hbm, 131, rfl⟩
abbrev main_v96 : Ref sig .tc := ⟨.hbm, 132, rfl⟩
abbrev main_v97 : Ref sig .tc := ⟨.hbm, 133, rfl⟩
abbrev main_c_30 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_31 : Ref sig .tc := ⟨.hbm, 138, rfl⟩
abbrev main_v101 : Ref sig .tc := ⟨.hbm, 139, rfl⟩
abbrev main_v102 : Ref sig .tc := ⟨.hbm, 140, rfl⟩
abbrev main_c_32 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S67584_S16384_0 : S67584.Slices ![0] S16384
  bcast_S_S16384 : S_.BroadcastsInDim S16384 (![] : Fin 0 → Fin S16384.rank)
  bcast_S_S256x512 : S_.BroadcastsInDim S256x512 (![] : Fin 0 → Fin S256x512.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  slices_S67584_S16384_16384 : S67584.Slices ![16384] S16384
  bcast_S_S512x512 : S_.BroadcastsInDim S512x512 (![] : Fin 0 → Fin S512x512.rank)
  slices_S67584_S16384_32768 : S67584.Slices ![32768] S16384
  slices_S67584_S16384_49152 : S67584.Slices ![49152] S16384
  slices_S67584_S2048_65536 : S67584.Slices ![65536] S2048
  bcast_S_S2048 : S_.BroadcastsInDim S2048 (![] : Fin 0 → Fin S2048.rank)
  bcast_S_S512x64 : S_.BroadcastsInDim S512x64 (![] : Fin 0 → Fin S512x64.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  scatter_S256x512_S16384x2_S16384_n_01_01_1_wf : ScatterDims.WF S256x512 S16384x2 S16384 [] [0, 1] [0, 1] 1
  scatter_S512x512_S16384x2_S16384_n_01_01_1_wf : ScatterDims.WF S512x512 S16384x2 S16384 [] [0, 1] [0, 1] 1
  scatter_S512x64_S2048x2_S2048_n_01_01_1_wf : ScatterDims.WF S512x64 S2048x2 S2048 [] [0, 1] [0, 1] 1
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x256.size a
  hwx0_0 : ∀ i : grid0.Coords, EltTy.bits .f32 = 32 ∨ (Rect.block (s := S2048x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S2048x64.size a
  hwx0_6 : ∀ i : grid0.Coords, EltTy.bits .f32 = 32 ∨ (Rect.block (s := S2048x64) S1024x64.size (cc0_transform_6 i) (hinb0_6 i)).WholeWords (EltTy.packing .f32)

variable [Facts₀]

def scatter_S256x512_S16384x2_S16384_n_01_01_1 : ScatterDims S256x512 S16384x2 S16384 where
  updateWindowDims := []
  insertedWindowDims := [0, 1]
  scatterDimsToOperandDims := [0, 1]
  indexVectorDim := 1
  wf := scatter_S256x512_S16384x2_S16384_n_01_01_1_wf
def scatter_S512x512_S16384x2_S16384_n_01_01_1 : ScatterDims S512x512 S16384x2 S16384 where
  updateWindowDims := []
  insertedWindowDims := [0, 1]
  scatterDimsToOperandDims := [0, 1]
  indexVectorDim := 1
  wf := scatter_S512x512_S16384x2_S16384_n_01_01_1_wf
def scatter_S512x64_S2048x2_S2048_n_01_01_1 : ScatterDims S512x64 S2048x2 S2048 where
  updateWindowDims := []
  insertedWindowDims := [0, 1]
  scatterDimsToOperandDims := [0, 1]
  indexVectorDim := 1
  wf := scatter_S512x64_S2048x2_S2048_n_01_01_1_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v87) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v109) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v110) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x256 : Shape := ⟨2, ![2048, 256]⟩
abbrev S67584 : Shape := ⟨1, ![67584]⟩
abbrev S_ : Shape := ⟨0, ![]⟩
abbrev S2048x2368 : Shape := ⟨2, ![2048, 2368]⟩
abbrev S1 : Shape := ⟨1, ![1]⟩
abbrev S16384 : Shape := ⟨1, ![16384]⟩
abbrev S16384x1 : Shape := ⟨2, ![16384, 1]⟩
abbrev S2048x16384 : Shape := ⟨2, ![2048, 16384]⟩
abbrev S1x16384 : Shape := ⟨2, ![1, 16384]⟩
abbrev S2048x512 : Shape := ⟨2, ![2048, 512]⟩
abbrev S2048 : Shape := ⟨1, ![2048]⟩
abbrev S2048x1 : Shape := ⟨2, ![2048, 1]⟩
abbrev S2048x2048 : Shape := ⟨2, ![2048, 2048]⟩
abbrev S1x2048 : Shape := ⟨2, ![1, 2048]⟩
abbrev S2048x64 : Shape := ⟨2, ![2048, 64]⟩

abbrev nBuf : Space → Nat
  | .hbm => 210
  | .vmem => 0
  | .smem => 0
  | _ => 0

abbrev hbmTy0_0 (i : Nat) : BufTy := match i % 128 with
  | 0 => ⟨S2048x256, .f32⟩
  | 1 => ⟨S67584, .f32⟩
  | 2 => ⟨S67584, .i32⟩
  | 3 => ⟨S67584, .i32⟩
  | 4 => ⟨S_, .f32⟩
  | 5 => ⟨S2048x2368, .f32⟩
  | 6 => ⟨S_, .i32⟩
  | 7 => ⟨S1, .i32⟩
  | 8 => ⟨S2048x2368, .f32⟩
  | 9 => ⟨S16384, .i32⟩
  | 10 => ⟨S16384, .i32⟩
  | 11 => ⟨S_, .i32⟩
  | 12 => ⟨S16384, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S2048x16384, .f32⟩
  | 23 => ⟨S16384, .f32⟩
  | 24 => ⟨S1x16384, .f32⟩
  | 25 => ⟨S2048x16384, .f32⟩
  | 26 => ⟨S2048x16384, .f32⟩
  | 27 => ⟨S_, .f32⟩
  | 28 => ⟨S2048x512, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S2048x512, .f32⟩
  | 38 => ⟨S2048x512, .f32⟩
  | 39 => ⟨S2048x512, .f32⟩
  | 40 => ⟨S_, .f32⟩
  | 41 => ⟨S2048x512, .f32⟩
  | 42 => ⟨S2048x512, .f32⟩
  | 43 => ⟨S_, .f32⟩
  | 44 => ⟨S2048x512, .f32⟩
  | 45 => ⟨S2048x512, .f32⟩
  | 46 => ⟨S_, .i32⟩
  | 47 => ⟨S1, .i32⟩
  | 48 => ⟨S2048x2368, .f32⟩
  | 49 => ⟨S16384, .i32⟩
  | 50 => ⟨S16384, .i32⟩
  | 51 => ⟨S_, .i32⟩
  | 52 => ⟨S16384, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S2048x16384, .f32⟩
  | 63 => ⟨S16384, .f32⟩
  | 64 => ⟨S1x16384, .f32⟩
  | 65 => ⟨S2048x16384, .f32⟩
  | 66 => ⟨S2048x16384, .f32⟩
  | 67 => ⟨S_, .f32⟩
  | 68 => ⟨S2048x512, .f32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S2048x512, .f32⟩
  | 78 => ⟨S2048x512, .f32⟩
  | 79 => ⟨S2048x512, .f32⟩
  | 80 => ⟨S_, .f32⟩
  | 81 => ⟨S2048x512, .f32⟩
  | 82 => ⟨S2048x512, .f32⟩
  | 83 => ⟨S_, .f32⟩
  | 84 => ⟨S2048x512, .f32⟩
  | 85 => ⟨S2048x512, .f32⟩
  | 86 => ⟨S_, .i32⟩
  | 87 => ⟨S1, .i32⟩
  | 88 => ⟨S2048x2368, .f32⟩
  | 89 => ⟨S16384, .i32⟩
  | 90 => ⟨S16384, .i32⟩
  | 91 => ⟨S_, .i32⟩
  | 92 => ⟨S16384, .i32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S2048x16384, .f32⟩
  | 103 => ⟨S16384, .f32⟩
  | 104 => ⟨S1x16384, .f32⟩
  | 105 => ⟨S2048x16384, .f32⟩
  | 106 => ⟨S2048x16384, .f32⟩
  | 107 => ⟨S_, .f32⟩
  | 108 => ⟨S2048x512, .f32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S2048x512, .f32⟩
  | 118 => ⟨S2048x512, .f32⟩
  | 119 => ⟨S2048x512, .f32⟩
  | 120 => ⟨S_, .f32⟩
  | 121 => ⟨S2048x512, .f32⟩
  | 122 => ⟨S2048x512, .f32⟩
  | 123 => ⟨S_, .f32⟩
  | 124 => ⟨S2048x512, .f32⟩
  | 125 => ⟨S2048x512, .f32⟩
  | 126 => ⟨S_, .i32⟩
  | 127 => ⟨S1, .i32⟩
  | _ => ⟨S2048x256, .f32⟩

abbrev hbmTy0_1 (i : Nat) : BufTy := match i % 128 with
  | 0 => ⟨S2048x2368, .f32⟩
  | 1 => ⟨S16384, .i32⟩
  | 2 => ⟨S16384, .i32⟩
  | 3 => ⟨S_, .i32⟩
  | 4 => ⟨S16384, .i32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S2048x16384, .f32⟩
  | 15 => ⟨S16384, .f32⟩
  | 16 => ⟨S1x16384, .f32⟩
  | 17 => ⟨S2048x16384, .f32⟩
  | 18 => ⟨S2048x16384, .f32⟩
  | 19 => ⟨S_, .f32⟩
  | 20 => ⟨S2048x512, .f32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S2048x512, .f32⟩
  | 30 => ⟨S2048x512, .f32⟩
  | 31 => ⟨S2048x512, .f32⟩
  | 32 => ⟨S_, .f32⟩
  | 33 => ⟨S2048x512, .f32⟩
  | 34 => ⟨S2048x512, .f32⟩
  | 35 => ⟨S_, .f32⟩
  | 36 => ⟨S2048x512, .f32⟩
  | 37 => ⟨S2048x512, .f32⟩
  | 38 => ⟨S_, .i32⟩
  | 39 => ⟨S1, .i32⟩
  | 40 => ⟨S2048x2368, .f32⟩
  | 41 => ⟨S2048, .i32⟩
  | 42 => ⟨S2048, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i1⟩
  | 49 => ⟨S_, .i32⟩
  | 50 => ⟨S2048, .i32⟩
  | 51 => ⟨S2048, .i32⟩
  | 52 => ⟨S2048, .i32⟩
  | 53 => ⟨S2048x1, .i32⟩
  | 54 => ⟨S2048x2048, .f32⟩
  | 55 => ⟨S2048, .f32⟩
  | 56 => ⟨S1x2048, .f32⟩
  | 57 => ⟨S2048x2048, .f32⟩
  | 58 => ⟨S2048x2048, .f32⟩
  | 59 => ⟨S_, .f32⟩
  | 60 => ⟨S2048x64, .f32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S2048x1, .i32⟩
  | 69 => ⟨S2048x64, .f32⟩
  | 70 => ⟨S2048x64, .f32⟩
  | 71 => ⟨S2048x64, .f32⟩
  | 72 => ⟨S_, .f32⟩
  | 73 => ⟨S2048x64, .f32⟩
  | 74 => ⟨S2048x64, .f32⟩
  | 75 => ⟨S_, .f32⟩
  | 76 => ⟨S2048x64, .f32⟩
  | 77 => ⟨S2048x64, .f32⟩
  | 78 => ⟨S_, .i32⟩
  | 79 => ⟨S1, .i32⟩
  | 80 => ⟨S2048x2368, .f32⟩
  | 81 => ⟨S2048x64, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_c_13 : Ref sig .tc := ⟨.hbm, 69, rfl⟩
abbrev main_v50 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_c_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_18 : Ref sig .tc := ⟨.hbm, 91, rfl⟩
abbrev main_v67 : Ref sig .tc := ⟨.hbm, 92, rfl⟩
abbrev main_v68 : Ref sig .tc := ⟨.hbm, 93, rfl⟩
abbrev main_c_19 : Ref sig .tc := ⟨.hbm, 94, rfl⟩
abbrev main_v69 : Ref sig .tc := ⟨.hbm, 95, rfl⟩
abbrev main_v70 : Ref sig .tc := ⟨.hbm, 96, rfl⟩
abbrev main_c_20 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_21 : Ref sig .tc := ⟨.hbm, 107, rfl⟩
abbrev main_v80 : Ref sig .tc := ⟨.hbm, 108, rfl⟩
abbrev main_c_22 : Ref sig .tc := ⟨.hbm, 109, rfl⟩
abbrev main_v81 : Ref sig .tc := ⟨.hbm, 110, rfl⟩
abbrev main_v82 : Ref sig .tc := ⟨.hbm, 111, rfl⟩
abbrev main_c_23 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_24 : Ref sig .tc := ⟨.hbm, 120, rfl⟩
abbrev main_v90 : Ref sig .tc := ⟨.hbm, 121, rfl⟩
abbrev main_v91 : Ref sig .tc := ⟨.hbm, 122, rfl⟩
abbrev main_cst_25 : Ref sig .tc := ⟨.hbm, 123, rfl⟩
abbrev main_v92 : Ref sig .tc := ⟨.hbm, 124, rfl⟩
abbrev main_v93 : Ref sig .tc := ⟨.hbm, 125, rfl⟩
abbrev main_c_26 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_27 : Ref sig .tc := ⟨.hbm, 131, rfl⟩
abbrev main_v98 : Ref sig .tc := ⟨.hbm, 132, rfl⟩
abbrev main_v99 : Ref sig .tc := ⟨.hbm, 133, rfl⟩
abbrev main_c_28 : Ref sig .tc := ⟨.hbm, 134, rfl⟩
abbrev main_v100 : Ref sig .tc := ⟨.hbm, 135, rfl⟩
abbrev main_v101 : Ref sig .tc := ⟨.hbm, 136, rfl⟩
abbrev main_c_29 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_30 : Ref sig .tc := ⟨.hbm, 147, rfl⟩
abbrev main_v111 : Ref sig .tc := ⟨.hbm, 148, rfl⟩
abbrev main_c_31 : Ref sig .tc := ⟨.hbm, 149, rfl⟩
abbrev main_v112 : Ref sig .tc := ⟨.hbm, 150, rfl⟩
abbrev main_v113 : Ref sig .tc := ⟨.hbm, 151, rfl⟩
abbrev main_c_32 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_33 : Ref sig .tc := ⟨.hbm, 160, rfl⟩
abbrev main_v121 : Ref sig .tc := ⟨.hbm, 161, rfl⟩
abbrev main_v122 : Ref sig .tc := ⟨.hbm, 162, rfl⟩
abbrev main_cst_34 : Ref sig .tc := ⟨.hbm, 163, rfl⟩
abbrev main_v123 : Ref sig .tc := ⟨.hbm, 164, rfl⟩
abbrev main_v124 : Ref sig .tc := ⟨.hbm, 165, rfl⟩
abbrev main_c_35 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_36 : Ref sig .tc := ⟨.hbm, 171, rfl⟩
abbrev main_v129 : Ref sig .tc := ⟨.hbm, 172, rfl⟩
abbrev main_v130 : Ref sig .tc := ⟨.hbm, 173, rfl⟩
abbrev main_c_37 : Ref sig .tc := ⟨.hbm, 174, rfl⟩
abbrev main_v131 : Ref sig .tc := ⟨.hbm, 175, rfl⟩
abbrev main_v132 : Ref sig .tc := ⟨.hbm, 176, rfl⟩
abbrev main_c_38 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_39 : Ref sig .tc := ⟨.hbm, 187, rfl⟩
abbrev main_v142 : Ref sig .tc := ⟨.hbm, 188, rfl⟩
abbrev main_c_40 : Ref sig .tc := ⟨.hbm, 189, rfl⟩
abbrev main_v143 : Ref sig .tc := ⟨.hbm, 190, rfl⟩
abbrev main_v144 : Ref sig .tc := ⟨.hbm, 191, rfl⟩
abbrev main_c_41 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_42 : Ref sig .tc := ⟨.hbm, 200, rfl⟩
abbrev main_v152 : Ref sig .tc := ⟨.hbm, 201, rfl⟩
abbrev main_v153 : Ref sig .tc := ⟨.hbm, 202, rfl⟩
abbrev main_cst_43 : Ref sig .tc := ⟨.hbm, 203, rfl⟩
abbrev main_v154 : Ref sig .tc := ⟨.hbm, 204, rfl⟩
abbrev main_v155 : Ref sig .tc := ⟨.hbm, 205, rfl⟩
abbrev main_c_44 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩

abbrev nD : Nat := 1
abbrev τ : Topo := Topo.v7x

variable {F : FTy → Type} [FloatOps F]

class Facts₀ : Prop where
  bcast_S_S2048x2368 : S_.BroadcastsInDim S2048x2368 (![] : Fin 0 → Fin S2048x2368.rank)
  bcast_S_S1 : S_.BroadcastsInDim S1 (![] : Fin 0 → Fin S1.rank)
  slices_S67584_S16384_0 : S67584.Slices ![0] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  bcast_S_S2048x512 : S_.BroadcastsInDim S2048x512 (![] : Fin 0 → Fin S2048x512.rank)
  slices_S67584_S16384_16384 : S67584.Slices ![16384] S16384
  slices_S67584_S16384_32768 : S67584.Slices ![32768] S16384
  slices_S67584_S16384_49152 : S67584.Slices ![49152] S16384
  slices_S67584_S2048_65536 : S67584.Slices ![65536] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x64 : S_.BroadcastsInDim S2048x64 (![] : Fin 0 → Fin S2048x64.rank)
  slices_S2048x2368_S2048x64_0_2304 : S2048x2368.Slices ![0, 2304] S2048x64
  scatter_S2048x2368_S1_S2048x256_01_n_1_0_wf : ScatterDims.WF S2048x2368 S1 S2048x256 [0, 1] [] [1] 0
  gather_S2048x2368_S16384x1_S2048x16384_0_1_n_n_1_1_20481_wf : GatherDims.WF S2048x2368 S16384x1 S2048x16384 [0] [1] [] [1] [] 1 ![2048, 1]
  scatter_S2048x512_S16384x1_S2048x16384_0_1_1_1_wf : ScatterDims.WF S2048x512 S16384x1 S2048x16384 [0] [1] [1] 1
  scatter_S2048x2368_S1_S2048x512_01_n_1_0_wf : ScatterDims.WF S2048x2368 S1 S2048x512 [0, 1] [] [1] 0
  gather_S2048x2368_S2048x1_S2048x2048_0_1_n_n_1_1_20481_wf : GatherDims.WF S2048x2368 S2048x1 S2048x2048 [0] [1] [] [1] [] 1 ![2048, 1]
  scatter_S2048x64_S2048x1_S2048x2048_0_1_1_1_wf : ScatterDims.WF S2048x64 S2048x1 S2048x2048 [0] [1] [1] 1
  scatter_S2048x2368_S1_S2048x64_01_n_1_0_wf : ScatterDims.WF S2048x2368 S1 S2048x64 [0, 1] [] [1] 0

variable [Facts₀]

def scatter_S2048x2368_S1_S2048x256_01_n_1_0 : ScatterDims S2048x2368 S1 S2048x256 where
  updateWindowDims := [0, 1]
  insertedWindowDims := []
  scatterDimsToOperandDims := [1]
  indexVectorDim := 0
  wf := scatter_S2048x2368_S1_S2048x256_01_n_1_0_wf
def gather_S2048x2368_S16384x1_S2048x16384_0_1_n_n_1_1_20481 : GatherDims S2048x2368 S16384x1 S2048x16384 where
  offsetDims := [0]
  collapsedSliceDims := [1]
  operandBatchingDims := []
  startIndicesBatchingDims := []
  startIndexMap := [1]
  indexVectorDim := 1
  sliceSizes := ![2048, 1]
  wf := gather_S2048x2368_S16384x1_S2048x16384_0_1_n_n_1_1_20481_wf
def scatter_S2048x512_S16384x1_S2048x16384_0_1_1_1 : ScatterDims S2048x512 S16384x1 S2048x16384 where
  updateWindowDims := [0]
  insertedWindowDims := [1]
  scatterDimsToOperandDims := [1]
  indexVectorDim := 1
  wf := scatter_S2048x512_S16384x1_S2048x16384_0_1_1_1_wf
def scatter_S2048x2368_S1_S2048x512_01_n_1_0 : ScatterDims S2048x2368 S1 S2048x512 where
  updateWindowDims := [0, 1]
  insertedWindowDims := []
  scatterDimsToOperandDims := [1]
  indexVectorDim := 0
  wf := scatter_S2048x2368_S1_S2048x512_01_n_1_0_wf
def gather_S2048x2368_S2048x1_S2048x2048_0_1_n_n_1_1_20481 : GatherDims S2048x2368 S2048x1 S2048x2048 where
  offsetDims := [0]
  collapsedSliceDims := [1]
  operandBatchingDims := []
  startIndicesBatchingDims := []
  startIndexMap := [1]
  indexVectorDim := 1
  sliceSizes := ![2048, 1]
  wf := gather_S2048x2368_S2048x1_S2048x2048_0_1_n_n_1_1_20481_wf
def scatter_S2048x64_S2048x1_S2048x2048_0_1_1_1 : ScatterDims S2048x64 S2048x1 S2048x2048 where
  updateWindowDims := [0]
  insertedWindowDims := [1]
  scatterDimsToOperandDims := [1]
  indexVectorDim := 1
  wf := scatter_S2048x64_S2048x1_S2048x2048_0_1_1_1_wf
def scatter_S2048x2368_S1_S2048x64_01_n_1_0 : ScatterDims S2048x2368 S1 S2048x64 where
  updateWindowDims := [0, 1]
  insertedWindowDims := []
  scatterDimsToOperandDims := [1]
  indexVectorDim := 0
  wf := scatter_S2048x2368_S1_S2048x64_01_n_1_0_wf

class Facts : Prop extends Facts₀ where

variable [Facts]
-- ==== Proof.Spec.lean ====
/-
  The two programs as mathematics, on one batch row.

  The network has five dense layers over node ranges [0,256), [256,768), [768,1280), [1280,1792), [1792,2304),
  [2304,2368); layer l owns one block of the edge list (source node, destination node, weight).

  * The kernel first turns each layer's edges into a selector matrix `S i j = ∑ { w e | local source e = i, local
    destination e = j }` (`selMat`) and then computes, row by row, `σ (∑ₖ aₖ · S k j)` (`rlayer`), σ the logistic function.
  * The reference keeps every node's activation in one row of 2368 columns and computes, edge by edge,
    `σ (∑ { row (source e) · w e | local destination e = j })` (`elayer`), writing the result into the layer's columns.

  Index words follow the usual array-indexing convention: a negative word counts from the end of the axis, that is,
  has the axis length added once (`wrapIx`); a gather clamps the word into the axis, a scatter drops an update whose
  word is outside it.
-/
import Idealize.ShloMosaic.PureOps.Ideal
import Idealize.ShloMosaic.Lib.ValueIdx

noncomputable section

namespace Cert.Neat

open Idealize.ShloMosaic Idealize.ShloMosaic.ValueIdx

/-- A possibly negative index word read against an axis of length `n`: `v` when `v ≥ 0` (signed), `v + n` otherwise. -/
def wrapIx (v n : BitVec 32) : BitVec 32 := Scalar.select (IntOp.cmpi .slt v 0#32) (IntOp.addi v n) v

/-- One dense layer on one batch row: `σ (∑ₖ aₖ · S k j)`. -/
def rlayer {IN OUT : ℕ} (a : Fin IN → EReal) (S : Fin IN → Fin OUT → EReal) : Fin OUT → EReal :=
  fun j => Ideal.logistic (∑ k : Fin IN, a k * S k j)

/-- A layer's selector matrix: entry `(i, j)` is the sum of the weights of the edges whose source word is `i` and
    destination word is `j` (an edge with a word outside the matrix lands nowhere). -/
def selMat {IN OUT E : ℕ} (is id : Fin E → BitVec 32) (wl : Fin E → EReal) : Fin IN → Fin OUT → EReal :=
  fun i j => ∑ e ∈ Finset.univ.filter (fun e : Fin E => (is e).toInt = (i.val : ℤ) ∧ (id e).toInt = (j.val : ℤ)), wl e

/-- One layer edge by edge on one row of the activation buffer (`C` columns): output `j` sums, over the edges whose
    destination word is `j`, the row's entry at the source word clamped into the row, times the edge's weight. -/
def elayer {C OUT E : ℕ} (hC : 0 < C) (row : Fin C → EReal) (is id : Fin E → BitVec 32) (wl : Fin E → EReal) : Fin OUT → EReal :=
  fun j => Ideal.logistic (∑ e ∈ Finset.univ.filter (fun e : Fin E => (id e).toInt = (j.val : ℤ)),
    row ⟨min (is e).toInt.toNat (C - 1), by omega⟩ * wl e)

/-- Entry `e0 + e` of a vector of length `n`: edge `e` of the block of the edge list that starts at `e0`. -/
def at1 {α : Type} {n : ℕ} (v : (⟨1, ![n]⟩ : Shape).Idx → α) (e0 : ℕ) {E : ℕ} (h : e0 + E ≤ n) (e : Fin E) : α :=
  v (ix1 ⟨e0 + e.val, by have := e.isLt; omega⟩)

section Net

variable (x : (⟨2, ![2048, 256]⟩ : Shape).Idx → EReal) (w : (⟨1, ![67584]⟩ : Shape).Idx → EReal)
  (src dst : (⟨1, ![67584]⟩ : Shape).Idx → BitVec 32)

/-- The kernel's local word of an index list's block: the node id less the layer's first node id, wrapped. -/
def locIx (v : (⟨1, ![67584]⟩ : Shape).Idx → BitVec 32) (e0 : ℕ) {E : ℕ} (h : e0 + E ≤ 67584) (off n : BitVec 32) (e : Fin E) : BitVec 32 :=
  wrapIx (IntOp.subi (at1 v e0 h e) off) n

/-- The reference's source word: the node id itself, wrapped into the 2368 columns. -/
def globIx (v : (⟨1, ![67584]⟩ : Shape).Idx → BitVec 32) (e0 : ℕ) {E : ℕ} (h : e0 + E ≤ 67584) (e : Fin E) : BitVec 32 :=
  wrapIx (at1 v e0 h e) 2368#32

theorem hE1 : 0 + 16384 ≤ 67584 := by decide
theorem hE2 : 16384 + 16384 ≤ 67584 := by decide
theorem hE3 : 32768 + 16384 ≤ 67584 := by decide
theorem hE4 : 49152 + 16384 ≤ 67584 := by decide
theorem hE5 : 65536 + 2048 ≤ 67584 := by decide

/-- The five selector matrices, as the kernel's wrapper builds them. -/
def S1 : Fin 256 → Fin 512 → EReal := selMat (locIx src 0 hE1 0#32 256#32) (locIx dst 0 hE1 256#32 512#32) (at1 w 0 hE1)
def S2 : Fin 512 → Fin 512 → EReal := selMat (locIx src 16384 hE2 256#32 512#32) (locIx dst 16384 hE2 768#32 512#32) (at1 w 16384 hE2)
def S3 : Fin 512 → Fin 512 → EReal := selMat (locIx src 32768 hE3 768#32 512#32) (locIx dst 32768 hE3 1280#32 512#32) (at1 w 32768 hE3)
def S4 : Fin 512 → Fin 512 → EReal := selMat (locIx src 49152 hE4 1280#32 512#32) (locIx dst 49152 hE4 1792#32 512#32) (at1 w 49152 hE4)
def S5 : Fin 512 → Fin 64 → EReal := selMat (locIx src 65536 hE5 1792#32 512#32) (locIx dst 65536 hE5 2304#32 64#32) (at1 w 65536 hE5)

/-- The kernel's five layers on a row, over ANY five matrices. -/
def netRow (xr : Fin 256 → EReal) (s1 : Fin 256 → Fin 512 → EReal) (s2 s3 s4 : Fin 512 → Fin 512 → EReal)
    (s5 : Fin 512 → Fin 64 → EReal) : Fin 64 → EReal :=
  rlayer (rlayer (rlayer (rlayer (rlayer xr s1) s2) s3) s4) s5

/-- The kernel's result on batch row `b`. -/
def netK (b : Fin 2048) : Fin 64 → EReal :=
  netRow (fun k => x (ix2 b k)) (S1 w src dst) (S2 w src dst) (S3 w src dst) (S4 w src dst) (S5 w src dst)

/-- The activation buffer's row `b` before the first layer: the input in columns [0, 256), zero elsewhere. -/
def row0 (b : Fin 2048) : Fin 2368 → EReal := fun col => if h : col.val < 256 then x (ix2 b ⟨col.val, h⟩) else 0

/-- A row after one more layer: the layer's outputs in its columns [offD, offD + OUT), the rest as before. -/
def rowNext {OUT E : ℕ} (offD : ℕ) (prev : Fin 2368 → EReal) (is id : Fin E → BitVec 32) (wl : Fin E → EReal) :
    Fin 2368 → EReal :=
  fun col => if h : offD ≤ col.val ∧ col.val < offD + OUT
    then elayer (C := 2368) (OUT := OUT) (by decide) prev is id wl ⟨col.val - offD, by omega⟩ else prev col

def row1 (b : Fin 2048) : Fin 2368 → EReal :=
  rowNext (OUT := 512) 256 (row0 x b) (globIx src 0 hE1) (locIx dst 0 hE1 256#32 512#32) (at1 w 0 hE1)
def row2 (b : Fin 2048) : Fin 2368 → EReal :=
  rowNext (OUT := 512) 768 (row1 x w src dst b) (globIx src 16384 hE2) (locIx dst 16384 hE2 768#32 512#32) (at1 w 16384 hE2)
def row3 (b : Fin 2048) : Fin 2368 → EReal :=
  rowNext (OUT := 512) 1280 (row2 x w src dst b) (globIx src 32768 hE3) (locIx dst 32768 hE3 1280#32 512#32) (at1 w 32768 hE3)
def row4 (b : Fin 2048) : Fin 2368 → EReal :=
  rowNext (OUT := 512) 1792 (row3 x w src dst b) (globIx src 49152 hE4) (locIx dst 49152 hE4 1792#32 512#32) (at1 w 49152 hE4)

/-- The reference's result on batch row `b`: the last layer off the row the first four left. -/
def netR (b : Fin 2048) : Fin 64 → EReal :=
  elayer (C := 2368) (by decide) (row4 x w src dst b) (globIx src 65536 hE5) (locIx dst 65536 hE5 2304#32 64#32) (at1 w 65536 hE5)

end Net

end Cert.Neat

end
-- ==== Proof.PreFacts.lean ====
/-
  What the precondition says, entry by entry: every input and every weight is a real number, and every edge of layer
  l's block of the edge list has its source node id inside layer l−1's node range.
-/
import proofs.«401231_j7215545057312_2_alg».proof.Pre_finite_inputs
import proofs.«401231_j7215545057312_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate
import proofs.«401231_j7215545057312_2_alg».proof.Proof.Spec

noncomputable section

namespace Cert.Neat

open Idealize.ShloMosaic Idealize.ShloMosaic.ValueIdx

namespace PreDecode

/-- The f32 pattern 0x7F800000 (sign 0, exponent all ones, fraction 0) denotes +∞. -/
theorem inf_bits : Ideal.ofBits .f32 0x7F800000#32 = (⊤ : EReal) := by
  simp [Ideal.ofBits, Ideal.ieee]

/-- `|v| < +∞` for an extended real `v`, with `|v| = max v (−v)`, says `v` is neither infinity: `v` is a real number. -/
theorem real_of_abs_lt_inf (v : Ideal .f32)
    (h : FloatOps.cmpf (F := Ideal) (φ := .f32) .olt (FloatOps.hostAbsf v) (FloatOps.ofBits .f32 0x7F800000#32) = 1#1) :
    ∃ r : ℝ, v = (r : EReal) := by
  simp only [Ideal.hostAbsf_def, Ideal.ofBits_def, inf_bits] at h
  change Ideal.cmp .olt (max v (-v)) ⊤ = 1#1 at h
  simp only [Ideal.cmp, StableHlo.Predicate.ofBool_eq_one_iff, decide_eq_true_eq] at h
  induction v using EReal.rec with
  | bot => simp at h
  | coe r => exact ⟨r, rfl⟩
  | top => simp at h

/-- `lo ≤ a` and `a < hi`, both signed and both true, read as the two inequalities between the words' integer values. -/
theorem range_of_and (a lo hi : BitVec 32)
    (h : IntOp.andi (IntOp.cmpi .sge a lo) (IntOp.cmpi .slt a hi) = 1#1) : lo.toInt ≤ a.toInt ∧ a.toInt < hi.toInt := by
  obtain ⟨h1, h2⟩ := IntOp.andi_eq_one.1 h
  exact ⟨IntOp.cmpi_sge.1 h1, IntOp.cmpi_slt.1 h2⟩

/-- The index set of a rank-0 array has one element. -/
theorem idx0_subsingleton : Subsingleton (⟨0, ![]⟩ : Shape).Idx := ⟨fun a b => funext fun d => d.elim0⟩

/-- An elementwise `and` of two arrays of bits is 1 at an index exactly when both are. -/
theorem andi_apply_eq_one {s : Shape} (a b : IVec s 1) (i : s.Idx) : andi a b i = 1#1 ↔ a i = 1#1 ∧ b i = 1#1 :=
  IntOp.andi_eq_one

/-- Entry `e` of the length-`E` slice of a vector that starts at `e0` is the vector's entry `e0 + e`. -/
theorem slice_at1 {n E : ℕ} (v : (⟨1, ![n]⟩ : Shape).Idx → BitVec 32) (e0 : ℕ) (h : e0 + E ≤ n)
    (hs : (⟨1, ![n]⟩ : Shape).Slices ![e0] ⟨1, ![E]⟩) (e : Fin E) :
    extractStridedSlice ⟨1, ![E]⟩ ![e0] v hs (ix1 e) = at1 v e0 h e := by
  unfold extractStridedSlice at1
  refine congrArg v (funext fun a => ?_)
  match a with
  | ⟨0, _⟩ => rfl

/-- "Every entry of the block `[e0, e0 + E)` of `v` is at least `lo` and below `hi`" (signed), as it is written — the
    conjunction of the two comparisons against the broadcast bounds, all of its entries and-ed together, equal to 1 —
    gives the two inequalities at each entry of the block, the bounds read as the integers `L`, `H` they denote. -/
theorem range_of_all {n E : ℕ} (v : IVec ⟨1, ![n]⟩ 32) (e0 : ℕ) (h : e0 + E ≤ n)
    (hs : (⟨1, ![n]⟩ : Shape).Slices ![e0] ⟨1, ![E]⟩)
    (hb : (⟨0, ![]⟩ : Shape).BroadcastsInDim ⟨1, ![E]⟩ (![] : Fin 0 → Fin 1))
    (hr : (⟨1, ![E]⟩ : Shape).ReducesTo [0] ⟨0, ![]⟩) (hu : 0 < (⟨0, ![]⟩ : Shape).numel)
    (lo hi : BitVec 32) (L H : ℤ) (hL : lo.toInt = L) (hH : hi.toInt = H)
    (hall : Host.reduce IntOp.andi
      (andi (cmpi .sge (extractStridedSlice ⟨1, ![E]⟩ ![e0] v hs) (broadcastInDim ⟨1, ![E]⟩ ![] hb (constantI ⟨0, ![]⟩ 32 lo)))
        (cmpi .slt (extractStridedSlice ⟨1, ![E]⟩ ![e0] v hs) (broadcastInDim ⟨1, ![E]⟩ ![] hb (constantI ⟨0, ![]⟩ 32 hi))))
      (constantI ⟨0, ![]⟩ 1 1#1) hr hu ix0 = 1#1) (e : Fin E) :
    L ≤ (at1 v e0 h e).toInt ∧ (at1 v e0 h e).toInt < H := by
  haveI := idx0_subsingleton
  have k := Host.reduce_andi_all _ _ hr hu ix0 hall (ix1 e)
  have k' : IntOp.andi (IntOp.cmpi .sge (extractStridedSlice ⟨1, ![E]⟩ ![e0] v hs (ix1 e)) lo)
      (IntOp.cmpi .slt (extractStridedSlice ⟨1, ![E]⟩ ![e0] v hs (ix1 e)) hi) = 1#1 := k
  rw [slice_at1 v e0 h hs e] at k'
  rw [← hL, ← hH]
  exact range_of_and _ _ _ k'

end PreDecode

open PreDecode in
/-- The precondition, decoded. -/
theorem pre_facts (x : FVec Ideal ⟨2, ![2048, 256]⟩ .f32) (w : FVec Ideal ⟨1, ![67584]⟩ .f32) (src dst : IVec ⟨1, ![67584]⟩ 32)
    (h : Cert.Pre_finite_inputs.fn (F := Ideal) x w src dst = fun _ => 1#1) :
    (∀ i, ∃ r : ℝ, x i = (r : EReal)) ∧ (∀ i, ∃ r : ℝ, w i = (r : EReal))
    ∧ (∀ e : Fin 16384, (0 : ℤ) ≤ (at1 src 0 hE1 e).toInt ∧ (at1 src 0 hE1 e).toInt < 256)
    ∧ (∀ e : Fin 16384, (256 : ℤ) ≤ (at1 src 16384 hE2 e).toInt ∧ (at1 src 16384 hE2 e).toInt < 768)
    ∧ (∀ e : Fin 16384, (768 : ℤ) ≤ (at1 src 32768 hE3 e).toInt ∧ (at1 src 32768 hE3 e).toInt < 1280)
    ∧ (∀ e : Fin 16384, (1280 : ℤ) ≤ (at1 src 49152 hE4 e).toInt ∧ (at1 src 49152 hE4 e).toInt < 1792)
    ∧ (∀ e : Fin 2048, (1792 : ℤ) ≤ (at1 src 65536 hE5 e).toInt ∧ (at1 src 65536 hE5 e).toInt < 2304) := by
  haveI := idx0_subsingleton
  -- the predicate at its one index: a conjunction of seven "every entry satisfies …"
  have h0 := congrFun h ValueIdx.ix0
  dsimp only [Cert.Pre_finite_inputs.fn, Cert.Pre_finite_inputs.fn_part1, Cert.Pre_finite_inputs.fn_part2,
    Cert.Pre_finite_inputs.fn_part3] at h0
  simp only [andi_apply_eq_one] at h0
  obtain ⟨⟨⟨⟨⟨⟨hx, hw⟩, h1⟩, h2⟩, h3⟩, h4⟩, h5⟩ := h0
  refine ⟨fun i => ?_, fun i => ?_, fun e => ?_, fun e => ?_, fun e => ?_, fun e => ?_, fun e => ?_⟩
  · exact real_of_abs_lt_inf (x i) (Host.reduce_andi_all _ _ _ _ ix0 hx i)
  · exact real_of_abs_lt_inf (w i) (Host.reduce_andi_all _ _ _ _ ix0 hw i)
  · exact range_of_all src 0 hE1 _ _ _ _ 0#32 256#32 0 256 (by decide) (by decide) h1 e
  · exact range_of_all src 16384 hE2 _ _ _ _ 256#32 768#32 256 768 (by decide) (by decide) h2 e
  · exact range_of_all src 32768 hE3 _ _ _ _ 768#32 1280#32 768 1280 (by decide) (by decide) h3 e
  · exact range_of_all src 49152 hE4 _ _ _ _ 1280#32 1792#32 1280 1792 (by decide) (by decide) h4 e
  · exact range_of_all src 65536 hE5 _ _ _ _ 1792#32 2304#32 1792 2304 (by decide) (by decide) h5 e

end Cert.Neat

end
-- ==== Proof.KPayload.lean ====
/-
  The kernel body's one stored value at an entry of its block: five times "round to bf16 (the identity on the exact
  reals), multiply by the layer's matrix into a zero accumulator, apply the logistic function" — `netRow` of the
  block's row over the five matrices.
-/
import proofs.«401231_j7215545057312_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import proofs.«401231_j7215545057312_2_alg».proof.Proof.Spec

noncomputable section

namespace Cert.Neat

open Idealize.ShloMosaic Idealize.ShloMosaic.ValueIdx Cert.KernelIdeal Cert.KernelIdeal.Gen

namespace Payload

/-! ### The 256-deep contraction into 512 columns

  For each of the three contractions: the operand indices coordinate by coordinate (the left operand is read at
  (row of the result, contraction coordinate), the right one at (contraction coordinate, column of the result)), the
  product at an entry as a sum over the contraction coordinate, and one whole layer at an entry. -/

theorem lhsA_0 (j : S1024x512.Idx) (k : dot_S1024x256_S256x512_S1024x512_1_0_0_1_n_n.contr.Idx) :
    (dot_S1024x256_S256x512_S1024x512_1_0_0_1_n_n.lhsIdx j k 0 : ℕ) = j 0 := by
  simp [DotDims.lhsIdx, dot_S1024x256_S256x512_S1024x512_1_0_0_1_n_n]; rfl
theorem lhsA_1 (j : S1024x512.Idx) (k : dot_S1024x256_S256x512_S1024x512_1_0_0_1_n_n.contr.Idx) :
    (dot_S1024x256_S256x512_S1024x512_1_0_0_1_n_n.lhsIdx j k 1 : ℕ) = k ⟨0, by decide⟩ := by
  simp [DotDims.lhsIdx, dot_S1024x256_S256x512_S1024x512_1_0_0_1_n_n]; rfl
theorem rhsA_0 (j : S1024x512.Idx) (k : dot_S1024x256_S256x512_S1024x512_1_0_0_1_n_n.contr.Idx) :
    (dot_S1024x256_S256x512_S1024x512_1_0_0_1_n_n.rhsIdx j k 0 : ℕ) = k ⟨0, by decide⟩ := by
  simp [DotDims.rhsIdx, dot_S1024x256_S256x512_S1024x512_1_0_0_1_n_n]; rfl
theorem rhsA_1 (j : S1024x512.Idx) (k : dot_S1024x256_S256x512_S1024x512_1_0_0_1_n_n.contr.Idx) :
    (dot_S1024x256_S256x512_S1024x512_1_0_0_1_n_n.rhsIdx j k 1 : ℕ) = j 1 := by
  simp [DotDims.rhsIdx, dot_S1024x256_S256x512_S1024x512_1_0_0_1_n_n]; rfl

/-- The product into a zero accumulator at `(p, q)`: row `p` of the left operand against column `q` of the right. -/
theorem matmulA_apply (a : FVec Ideal S1024x256 .bf16) (b : FVec Ideal S256x512 .bf16) (p : Fin 1024) (q : Fin 512) :
    matmul dot_S1024x256_S256x512_S1024x512_1_0_0_1_n_n none a b (constant (F := Ideal) S1024x512 .f32 0x00000000#32) (ix2 p q)
      = ∑ k : Fin 256, a (ix2 p k) * b (ix2 k q) := by
  refine (Ideal.matmul_constant_zero_apply dot_S1024x256_S256x512_S1024x512_1_0_0_1_n_n none a b (ix2 p q)).trans ?_
  rw [← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  congr 2
  · funext d
    match d with
    | ⟨0, _⟩ => exact Fin.ext (lhsA_0 _ _)
    | ⟨1, _⟩ => exact Fin.ext ((lhsA_1 _ _).trans hk)
  · funext d
    match d with
    | ⟨0, _⟩ => exact Fin.ext ((rhsA_0 _ _).trans hk)
    | ⟨1, _⟩ => exact Fin.ext (rhsA_1 _ _)

/-- One layer of the body at `(p, q)`: both operands rounded (the identity), the product, the logistic function. -/
theorem layerA_apply (a : FVec Ideal S1024x256 .f32) (b : FVec Ideal S256x512 .f32) (p : Fin 1024) (q : Fin 512) :
    logistic (matmul dot_S1024x256_S256x512_S1024x512_1_0_0_1_n_n none (truncf .bf16 a bitsLt_bf16_f32)
        (truncf .bf16 (shapeCast S256x512 b shapeCasts_S256x512_S256x512) bitsLt_bf16_f32)
        (constant (F := Ideal) S1024x512 .f32 0x00000000#32)) (ix2 p q)
      = rlayer (fun k => a (ix2 p k)) (fun i j => b (ix2 i j)) q := by
  rw [shapeCast_self]
  show Ideal.logistic (matmul dot_S1024x256_S256x512_S1024x512_1_0_0_1_n_n none (truncf .bf16 a bitsLt_bf16_f32) (truncf .bf16 b bitsLt_bf16_f32)
    (constant (F := Ideal) S1024x512 .f32 0x00000000#32) (ix2 p q)) = _
  rw [matmulA_apply]
  rfl

/-! ### The 512-deep contraction into 512 columns -/

theorem lhsB_0 (j : S1024x512.Idx) (k : dot_S1024x512_S512x512_S1024x512_1_0_0_1_n_n.contr.Idx) :
    (dot_S1024x512_S512x512_S1024x512_1_0_0_1_n_n.lhsIdx j k 0 : ℕ) = j 0 := by
  simp [DotDims.lhsIdx, dot_S1024x512_S512x512_S1024x512_1_0_0_1_n_n]; rfl
theorem lhsB_1 (j : S1024x512.Idx) (k : dot_S1024x512_S512x512_S1024x512_1_0_0_1_n_n.contr.Idx) :
    (dot_S1024x512_S512x512_S1024x512_1_0_0_1_n_n.lhsIdx j k 1 : ℕ) = k ⟨0, by decide⟩ := by
  simp [DotDims.lhsIdx, dot_S1024x512_S512x512_S1024x512_1_0_0_1_n_n]; rfl
theorem rhsB_0 (j : S1024x512.Idx) (k : dot_S1024x512_S512x512_S1024x512_1_0_0_1_n_n.contr.Idx) :
    (dot_S1024x512_S512x512_S1024x512_1_0_0_1_n_n.rhsIdx j k 0 : ℕ) = k ⟨0, by decide⟩ := by
  simp [DotDims.rhsIdx, dot_S1024x512_S512x512_S1024x512_1_0_0_1_n_n]; rfl
theorem rhsB_1 (j : S1024x512.Idx) (k : dot_S1024x512_S512x512_S1024x512_1_0_0_1_n_n.contr.Idx) :
    (dot_S1024x512_S512x512_S1024x512_1_0_0_1_n_n.rhsIdx j k 1 : ℕ) = j 1 := by
  simp [DotDims.rhsIdx, dot_S1024x512_S512x512_S1024x512_1_0_0_1_n_n]; rfl

/-- The product into a zero accumulator at `(p, q)`: row `p` of the left operand against column `q` of the right. -/
theorem matmulB_apply (a : FVec Ideal S1024x512 .bf16) (b : FVec Ideal S512x512 .bf16) (p : Fin 1024) (q : Fin 512) :
    matmul dot_S1024x512_S512x512_S1024x512_1_0_0_1_n_n none a b (constant (F := Ideal) S1024x512 .f32 0x00000000#32) (ix2 p q)
      = ∑ k : Fin 512, a (ix2 p k) * b (ix2 k q) := by
  refine (Ideal.matmul_constant_zero_apply dot_S1024x512_S512x512_S1024x512_1_0_0_1_n_n none a b (ix2 p q)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  congr 2
  · funext d
    match d with
    | ⟨0, _⟩ => exact Fin.ext (lhsB_0 _ _)
    | ⟨1, _⟩ => exact Fin.ext ((lhsB_1 _ _).trans hk)
  · funext d
    match d with
    | ⟨0, _⟩ => exact Fin.ext ((rhsB_0 _ _).trans hk)
    | ⟨1, _⟩ => exact Fin.ext (rhsB_1 _ _)

/-- One layer of the body at `(p, q)`: both operands rounded (the identity), the product, the logistic function. -/
theorem layerB_apply (a : FVec Ideal S1024x512 .f32) (b : FVec Ideal S512x512 .f32) (p : Fin 1024) (q : Fin 512) :
    logistic (matmul dot_S1024x512_S512x512_S1024x512_1_0_0_1_n_n none (truncf .bf16 a bitsLt_bf16_f32)
        (truncf .bf16 (shapeCast S512x512 b shapeCasts_S512x512_S512x512) bitsLt_bf16_f32)
        (constant (F := Ideal) S1024x512 .f32 0x00000000#32)) (ix2 p q)
      = rlayer (fun k => a (ix2 p k)) (fun i j => b (ix2 i j)) q := by
  rw [shapeCast_self]
  show Ideal.logistic (matmul dot_S1024x512_S512x512_S1024x512_1_0_0_1_n_n none (truncf .bf16 a bitsLt_bf16_f32) (truncf .bf16 b bitsLt_bf16_f32)
    (constant (F := Ideal) S1024x512 .f32 0x00000000#32) (ix2 p q)) = _
  rw [matmulB_apply]
  rfl

/-! ### The 512-deep contraction into 64 columns -/

theorem lhsC_0 (j : S1024x64.Idx) (k : dot_S1024x512_S512x64_S1024x64_1_0_0_1_n_n.contr.Idx) :
    (dot_S1024x512_S512x64_S1024x64_1_0_0_1_n_n.lhsIdx j k 0 : ℕ) = j 0 := by
  simp [DotDims.lhsIdx, dot_S1024x512_S512x64_S1024x64_1_0_0_1_n_n]; rfl
theorem lhsC_1 (j : S1024x64.Idx) (k : dot_S1024x512_S512x64_S1024x64_1_0_0_1_n_n.contr.Idx) :
    (dot_S1024x512_S512x64_S1024x64_1_0_0_1_n_n.lhsIdx j k 1 : ℕ) = k ⟨0, by decide⟩ := by
  simp [DotDims.lhsIdx, dot_S1024x512_S512x64_S1024x64_1_0_0_1_n_n]; rfl
theorem rhsC_0 (j : S1024x64.Idx) (k : dot_S1024x512_S512x64_S1024x64_1_0_0_1_n_n.contr.Idx) :
    (dot_S1024x512_S512x64_S1024x64_1_0_0_1_n_n.rhsIdx j k 0 : ℕ) = k ⟨0, by decide⟩ := by
  simp [DotDims.rhsIdx, dot_S1024x512_S512x64_S1024x64_1_0_0_1_n_n]; rfl
theorem rhsC_1 (j : S1024x64.Idx) (k : dot_S1024x512_S512x64_S1024x64_1_0_0_1_n_n.contr.Idx) :
    (dot_S1024x512_S512x64_S1024x64_1_0_0_1_n_n.rhsIdx j k 1 : ℕ) = j 1 := by
  simp [DotDims.rhsIdx, dot_S1024x512_S512x64_S1024x64_1_0_0_1_n_n]; rfl

/-- The product into a zero accumulator at `(p, q)`: row `p` of the left operand against column `q` of the right. -/
theorem matmulC_apply (a : FVec Ideal S1024x512 .bf16) (b : FVec Ideal S512x64 .bf16) (p : Fin 1024) (q : Fin 64) :
    matmul dot_S1024x512_S512x64_S1024x64_1_0_0_1_n_n none a b (constant (F := Ideal) S1024x64 .f32 0x00000000#32) (ix2 p q)
      = ∑ k : Fin 512, a (ix2 p k) * b (ix2 k q) := by
  refine (Ideal.matmul_constant_zero_apply dot_S1024x512_S512x64_S1024x64_1_0_0_1_n_n none a b (ix2 p q)).trans ?_
  rw [← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  congr 2
  · funext d
    match d with
    | ⟨0, _⟩ => exact Fin.ext (lhsC_0 _ _)
    | ⟨1, _⟩ => exact Fin.ext ((lhsC_1 _ _).trans hk)
  · funext d
    match d with
    | ⟨0, _⟩ => exact Fin.ext ((rhsC_0 _ _).trans hk)
    | ⟨1, _⟩ => exact Fin.ext (rhsC_1 _ _)

/-- One layer of the body at `(p, q)`: both operands rounded (the identity), the product, the logistic function. -/
theorem layerC_apply (a : FVec Ideal S1024x512 .f32) (b : FVec Ideal S512x64 .f32) (p : Fin 1024) (q : Fin 64) :
    logistic (matmul dot_S1024x512_S512x64_S1024x64_1_0_0_1_n_n none (truncf .bf16 a bitsLt_bf16_f32)
        (truncf .bf16 (shapeCast S512x64 b shapeCasts_S512x64_S512x64) bitsLt_bf16_f32)
        (constant (F := Ideal) S1024x64 .f32 0x00000000#32)) (ix2 p q)
      = rlayer (fun k => a (ix2 p k)) (fun i j => b (ix2 i j)) q := by
  rw [shapeCast_self]
  show Ideal.logistic (matmul dot_S1024x512_S512x64_S1024x64_1_0_0_1_n_n none (truncf .bf16 a bitsLt_bf16_f32) (truncf .bf16 b bitsLt_bf16_f32)
    (constant (F := Ideal) S1024x64 .f32 0x00000000#32) (ix2 p q)) = _
  rw [matmulC_apply]
  rfl

end Payload

open Payload in
/-- The payload at `(p, q)`. -/
theorem payload_apply (x0 : Vec Ideal S1024x256 .f32) (s1 : Vec Ideal S256x512 .f32) (s2 s3 s4 : Vec Ideal S512x512 .f32)
    (s5 : Vec Ideal S512x64 .f32) (p : Fin 1024) (q : Fin 64) :
    k0_pay1 (F := Ideal) x0 s1 s2 s3 s4 s5 (ix2 p q)
      = netRow (fun k => x0 (ix2 p k)) (fun i j => s1 (ix2 i j)) (fun i j => s2 (ix2 i j)) (fun i j => s3 (ix2 i j))
          (fun i j => s4 (ix2 i j)) (fun i j => s5 (ix2 i j)) q := by
  unfold k0_pay1 netRow
  refine (layerC_apply _ s5 p q).trans ?_
  refine congrArg (fun r => rlayer r (fun i j => s5 (ix2 i j)) q) (funext fun k4 => ?_)
  refine (layerB_apply _ s4 p k4).trans ?_
  refine congrArg (fun r => rlayer r (fun i j => s4 (ix2 i j)) k4) (funext fun k3 => ?_)
  refine (layerB_apply _ s3 p k3).trans ?_
  refine congrArg (fun r => rlayer r (fun i j => s3 (ix2 i j)) k3) (funext fun k2 => ?_)
  refine (layerB_apply _ s2 p k2).trans ?_
  refine congrArg (fun r => rlayer r (fun i j => s2 (ix2 i j)) k2) (funext fun k1 => ?_)
  exact layerA_apply x0 s1 p k1

end Cert.Neat

end
-- ==== Proof.KBlocks.lean ====
/-
  From the kernel's blocks to its result array. Grid point t stages rows [1024 t, 1024 t + 1024) of the input and the
  five matrices whole, and writes rows [1024 t, 1024 t + 1024) of the result; the two blocks cover the 2048 rows. So
  entry (b, j) of the result array is `netRow` of input row b over the five matrices as the region finds them.
-/
import proofs.«401231_j7215545057312_2_alg».proof.Proof.Gen.KernelIdeal.Value
import Idealize.ShloMosaic.Lib.Pipeline.Value
import Idealize.ShloMosaic.Lib.ValueIdx
import proofs.«401231_j7215545057312_2_alg».proof.Proof.Spec
import proofs.«401231_j7215545057312_2_alg».proof.Proof.KPayload

noncomputable section

namespace Cert.Neat

open Idealize.ShloMosaic Idealize.ShloMosaic.ValueIdx Cert.KernelIdeal Cert.KernelIdeal.Gen Idealize.ShloMosaic.TcCoe Idealize.SL.Sem

variable (m : (ℓ : Loc nD τ sig) → Buf (Elt Ideal) ℓ)

/-- Zero offsets on both axes, as a constant function. -/
theorem zero_off : (![0, 0] : Fin 2 → Nat) = fun _ => 0 := funext fun a => by fin_cases a <;> rfl

/-- The block index maps over the grid: the input's and the result's blocks sit at block row `t`, block column 0; each
    matrix is one block at (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The whole result array as one function of the arrays the region finds: row `y 0` of the input through the five
    layers, read at column `y 1`. -/
abbrev netArr (c : Dev nD) : S2048x64.Idx → EReal := fun y =>
  netRow (fun k => (V m c main_arg0 : S2048x256.Idx → EReal) (ix2 (y 0) k))
    (fun i j => (V m c main_v21 : S256x512.Idx → EReal) (ix2 i j))
    (fun i j => (V m c main_v43 : S512x512.Idx → EReal) (ix2 i j))
    (fun i j => (V m c main_v65 : S512x512.Idx → EReal) (ix2 i j))
    (fun i j => (V m c main_v87 : S512x512.Idx → EReal) (ix2 i j))
    (fun i j => (V m c main_v109 : S512x64.Idx → EReal) (ix2 i j)) (y 1)

/-- `netRow` depends on its row and matrices entry by entry. -/
theorem netRow_ext {xr xr' : Fin 256 → EReal} {s1 s1' : Fin 256 → Fin 512 → EReal} {s2 s2' s3 s3' s4 s4' : Fin 512 → Fin 512 → EReal}
    {s5 s5' : Fin 512 → Fin 64 → EReal} {q q' : Fin 64} (hx : ∀ k, xr k = xr' k) (h1 : ∀ i j, s1 i j = s1' i j)
    (h2 : ∀ i j, s2 i j = s2' i j) (h3 : ∀ i j, s3 i j = s3' i j) (h4 : ∀ i j, s4 i j = s4' i j)
    (h5 : ∀ i j, s5 i j = s5' i j) (hq : q.val = q'.val) :
    netRow xr s1 s2 s3 s4 s5 q = netRow xr' s1' s2' s3' s4' s5' q' := by
  obtain rfl : xr = xr' := funext hx
  obtain rfl : s1 = s1' := funext fun i => funext (h1 i)
  obtain rfl : s2 = s2' := funext fun i => funext (h2 i)
  obtain rfl : s3 = s3' := funext fun i => funext (h3 i)
  obtain rfl : s4 = s4' := funext fun i => funext (h4 i)
  obtain rfl : s5 = s5' := funext fun i => funext (h5 i)
  obtain rfl : q = q' := Fin.ext hq
  rfl

/-- The stored value at an entry of the block, by the entry's two coordinates. -/
theorem payload_at (x0 : Vec Ideal S1024x256 .f32) (s1 : Vec Ideal S256x512 .f32) (s2 s3 s4 : Vec Ideal S512x512 .f32)
    (s5 : Vec Ideal S512x64 .f32) (y : S1024x64.Idx) :
    k0_pay1 (F := Ideal) x0 s1 s2 s3 s4 s5 y
      = netRow (fun k => x0 (ix2 (y 0) k)) (fun i j => s1 (ix2 i j)) (fun i j => s2 (ix2 i j)) (fun i j => s3 (ix2 i j))
          (fun i j => s4 (ix2 i j)) (fun i j => s5 (ix2 i j)) (y 1) :=
  (congrArg (k0_pay1 (F := Ideal) x0 s1 s2 s3 s4 s5) (eq_ix2 y)).trans (payload_apply x0 s1 s2 s3 s4 s5 (y 0) (y 1))

/-- Point `t`'s block of the input is rows `1024 t …` of the input array. -/
theorem xblk_apply (c : Dev nD) (t : Fin cfg0.N) (z : S1024x256.Idx) (i : S2048x256.Idx)
    (h0 : (i 0).val = 1024 * t.val + (z 0).val) (h1 : (i 1).val = (z 1).val) :
    (iblk m c 0 t : Vec Ideal S1024x256 .f32) z = (V m c main_arg0 : S2048x256.Idx → EReal) i := by
  obtain ⟨e0, e1, -⟩ := index_facts t
  have h : ((cfg0.win 0).blk t).view.emb z = i := by
    funext a; apply Fin.ext
    match a with
    | ⟨0, _⟩ => show win0_0.index t (0 : Fin 2) * 1024 + 1 * (z 0).val = (i 0).val; omega
    | ⟨1, _⟩ => show win0_0.index t (1 : Fin 2) * 256 + 1 * (z 1).val = (i 1).val; omega
  show (V m c main_arg0 : S2048x256.Idx → EReal) (((cfg0.win 0).blk t).view.emb z) = _
  rw [h]

/-- The first matrix is staged whole at every point. -/
theorem w1blk_apply (c : Dev nD) (t : Fin cfg0.N) (z : S256x512.Idx) :
    (iblk m c 1 t : Vec Ideal S256x512 .f32) z = (V m c main_v21 : S256x512.Idx → EReal) z := by
  obtain ⟨-, -, e0, e1, -, -, -, -, -, -, -, -, -, -⟩ := index_facts t
  have h : ((cfg0.win 1).blk t).view.emb z = z := by
    funext a; apply Fin.ext
    match a with
    | ⟨0, _⟩ => show win0_1.index t (0 : Fin 2) * 256 + 1 * (z 0).val = (z 0).val; omega
    | ⟨1, _⟩ => show win0_1.index t (1 : Fin 2) * 512 + 1 * (z 1).val = (z 1).val; omega
  show (V m c main_v21 : S256x512.Idx → EReal) (((cfg0.win 1).blk t).view.emb z) = _
  rw [h]

/-- The second matrix is staged whole at every point. -/
theorem w2blk_apply (c : Dev nD) (t : Fin cfg0.N) (z : S512x512.Idx) :
    (iblk m c 2 t : Vec Ideal S512x512 .f32) z = (V m c main_v43 : S512x512.Idx → EReal) z := by
  obtain ⟨-, -, -, -, e0, e1, -, -, -, -, -, -, -, -⟩ := index_facts t
  have h : ((cfg0.win 2).blk t).view.emb z = z := by
    funext a; apply Fin.ext
    match a with
    | ⟨0, _⟩ => show win0_2.index t (0 : Fin 2) * 512 + 1 * (z 0).val = (z 0).val; omega
    | ⟨1, _⟩ => show win0_2.index t (1 : Fin 2) * 512 + 1 * (z 1).val = (z 1).val; omega
  show (V m c main_v43 : S512x512.Idx → EReal) (((cfg0.win 2).blk t).view.emb z) = _
  rw [h]

/-- The third matrix is staged whole at every point. -/
theorem w3blk_apply (c : Dev nD) (t : Fin cfg0.N) (z : S512x512.Idx) :
    (iblk m c 3 t : Vec Ideal S512x512 .f32) z = (V m c main_v65 : S512x512.Idx → EReal) z := by
  obtain ⟨-, -, -, -, -, -, e0, e1, -, -, -, -, -, -⟩ := index_facts t
  have h : ((cfg0.win 3).blk t).view.emb z = z := by
    funext a; apply Fin.ext
    match a with
    | ⟨0, _⟩ => show win0_3.index t (0 : Fin 2) * 512 + 1 * (z 0).val = (z 0).val; omega
    | ⟨1, _⟩ => show win0_3.index t (1 : Fin 2) * 512 + 1 * (z 1).val = (z 1).val; omega
  show (V m c main_v65 : S512x512.Idx → EReal) (((cfg0.win 3).blk t).view.emb z) = _
  rw [h]

/-- The fourth matrix is staged whole at every point. -/
theorem w4blk_apply (c : Dev nD) (t : Fin cfg0.N) (z : S512x512.Idx) :
    (iblk m c 4 t : Vec Ideal S512x512 .f32) z = (V m c main_v87 : S512x512.Idx → EReal) z := by
  obtain ⟨-, -, -, -, -, -, -, -, e0, e1, -, -, -, -⟩ := index_facts t
  have h : ((cfg0.win 4).blk t).view.emb z = z := by
    funext a; apply Fin.ext
    match a with
    | ⟨0, _⟩ => show win0_4.index t (0 : Fin 2) * 512 + 1 * (z 0).val = (z 0).val; omega
    | ⟨1, _⟩ => show win0_4.index t (1 : Fin 2) * 512 + 1 * (z 1).val = (z 1).val; omega
  show (V m c main_v87 : S512x512.Idx → EReal) (((cfg0.win 4).blk t).view.emb z) = _
  rw [h]

/-- The fifth matrix is staged whole at every point. -/
theorem w5blk_apply (c : Dev nD) (t : Fin cfg0.N) (z : S512x64.Idx) :
    (iblk m c 5 t : Vec Ideal S512x64 .f32) z = (V m c main_v109 : S512x64.Idx → EReal) z := by
  obtain ⟨-, -, -, -, -, -, -, -, -, -, e0, e1, -, -⟩ := index_facts t
  have h : ((cfg0.win 5).blk t).view.emb z = z := by
    funext a; apply Fin.ext
    match a with
    | ⟨0, _⟩ => show win0_5.index t (0 : Fin 2) * 512 + 1 * (z 0).val = (z 0).val; omega
    | ⟨1, _⟩ => show win0_5.index t (1 : Fin 2) * 64 + 1 * (z 1).val = (z 1).val; omega
  show (V m c main_v109 : S512x64.Idx → EReal) (((cfg0.win 5).blk t).view.emb z) = _
  rw [h]

/-- What point `t` stores at entry `y` of its block is the result function at row `1024 t + y 0`, column `y 1`. -/
theorem block_entry (c : Dev nD) (t : Fin cfg0.N) (y : S1024x64.Idx) (i : S2048x64.Idx)
    (h0 : (i 0).val = 1024 * t.val + (y 0).val) (h1 : (i 1).val = (y 1).val) :
    k0_pay1 (F := Ideal) (iblk m c 0 t) (iblk m c 1 t) (iblk m c 2 t) (iblk m c 3 t) (iblk m c 4 t) (iblk m c 5 t) y
      = netArr m c i := by
  refine (payload_at (iblk m c 0 t) (iblk m c 1 t) (iblk m c 2 t) (iblk m c 3 t) (iblk m c 4 t) (iblk m c 5 t) y).trans ?_
  exact netRow_ext (fun k => xblk_apply m c t _ _ h0 rfl) (fun i j => w1blk_apply m c t _) (fun i j => w2blk_apply m c t _)
    (fun i j => w3blk_apply m c t _) (fun i j => w4blk_apply m c t _) (fun i j => w5blk_apply m c t _) h1.symm

/-- What point `t` writes back is block `t` of the result function. -/
theorem flushed_eq (c : Dev nD) (t : Fin cfg0.N) :
    (dats m 0 c).flushed 6 t = ((cfg0.win 6).blk t).view.read (Elt Ideal) (netArr m c) := by
  rw [Value.flushed6]
  unfold out0_6
  rw [View.canon_unit_zero zero_off]
  simp only [View.ld_unit_zero (S := S1024x256) zero_off, View.ld_unit_zero (S := S256x512) zero_off,
    View.ld_unit_zero (S := S512x512) zero_off, View.ld_unit_zero (S := S512x64) zero_off]
  obtain ⟨-, -, -, -, -, -, -, -, -, -, -, -, e0, e1⟩ := index_facts t
  funext y
  refine block_entry m c t y (((cfg0.win 6).blk t).view.emb y) ?_ ?_
  · show win0_6.index t (0 : Fin 2) * 1024 + 1 * (y 0).val = 1024 * t.val + (y 0).val; omega
  · show win0_6.index t (1 : Fin 2) * 64 + 1 * (y 1).val = (y 1).val; omega

/-- An index of the result array is in point `t`'s block iff each coordinate is in the block's range on its axis. -/
theorem mem_blk (t : Fin cfg0.N) (i : S2048x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v110).slice (win0_6.rect t)).set ↔ _
  rw [View.set_slice_whole, Rect.mem_set_unit]
  exact Iff.rfl

/-- Row `r` of the result is written by point `r / 1024`: the two blocks cover the array. -/
theorem covered (i : S2048x64.Idx) :
    ∃ t : Fin cfg0.N, (cfg0.win 6).flush t = true ∧ i ∈ ((cfg0.win 6).blk t).view.set := by
  have hi0 : (i 0).val < 2048 := (i 0).isLt
  have hi1 : (i 1).val < 64 := (i 1).isLt
  have hN : grid0.N = 2 := N_0
  have ht : (i 0).val / 1024 < grid0.N := by rw [hN]; omega
  obtain ⟨-, -, -, -, -, -, -, -, -, -, -, -, e0, e1⟩ := index_facts ⟨(i 0).val / 1024, ht⟩
  refine ⟨⟨(i 0).val / 1024, ht⟩, flush0_6 _, ?_⟩
  rw [mem_blk]
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, ht⟩ (1 : Fin 2) * 64 ≤ (i 1).val ∧ (i 1).val < win0_6.index ⟨(i 0).val / 1024, ht⟩ (1 : Fin 2) * 64 + 64
    rw [e1]; omega

/-- The result array after the run is the result function. -/
theorem final_arr (c : Dev nD) : (dats m 0 c).arrAt 6 cfg0.N = netArr m c :=
  (dats m 0 c).arrAt_eq_of_cover 6 (netArr m c) (fun t _ => flushed_eq m c t) covered

/-- The result array after the run, entry by entry. -/
theorem kernel_array (c : Dev nD) (b : Fin 2048) (j : Fin 64) :
    ((dats m 0 c).arrAt 6 cfg0.N : S2048x64.Idx → EReal) (ix2 b j)
      = netRow (fun k => (V m c main_arg0 : S2048x256.Idx → EReal) (ix2 b k))
          (fun i j => (V m c main_v21 : S256x512.Idx → EReal) (ix2 i j))
          (fun i j => (V m c main_v43 : S512x512.Idx → EReal) (ix2 i j))
          (fun i j => (V m c main_v65 : S512x512.Idx → EReal) (ix2 i j))
          (fun i j => (V m c main_v87 : S512x512.Idx → EReal) (ix2 i j))
          (fun i j => (V m c main_v109 : S512x64.Idx → EReal) (ix2 i j)) j :=
  congrFun (final_arr m c) (ix2 b j)

end Cert.Neat

end
-- ==== Proof.LibDimsScatter.lean ====
/-
  Where an update lands, for the two accumulating scatters of this network.

  * `rowScatDims`: `out[:, idx] += upd` — updates `R × E`, one column word per `e`; update `(b, e)` lands at
    `(b, idx e)` when the word is inside `[0, C)`.
  * `pairScatDims`: `out[is, id] += upd` — updates of length `E`, a pair of words per `e`; update `e` lands at
    `(is e, id e)` when both words are inside the matrix.
-/
import Idealize.ShloMosaic.PureOps
import Idealize.ShloMosaic.Lib.ValueIdx

noncomputable section

namespace Cert.Neat

open Idealize.ShloMosaic Idealize.ShloMosaic.ValueIdx

abbrev rowScatDims (R C E : ℕ) (wf : ScatterDims.WF ⟨2, ![R, C]⟩ ⟨2, ![E, 1]⟩ ⟨2, ![R, E]⟩ [0] [1] [1] 1) :
    ScatterDims ⟨2, ![R, C]⟩ ⟨2, ![E, 1]⟩ ⟨2, ![R, E]⟩ where
  updateWindowDims := [0]
  insertedWindowDims := [1]
  scatterDimsToOperandDims := [1]
  indexVectorDim := 1
  wf := wf

/-- The row axis is not addressed by the words: its window starts at `0`. -/
theorem rowScat_start0 {R C E w : ℕ} (wf : ScatterDims.WF ⟨2, ![R, C]⟩ ⟨2, ![E, 1]⟩ ⟨2, ![R, E]⟩ [0] [1] [1] 1)
    (idx : IVec ⟨2, ![E, 1]⟩ w) (b : Fin R) (e : Fin E) :
    (rowScatDims R C E wf).start (ix2 b e) idx 0 = 0 := by
  unfold ScatterDims.start
  exact dif_neg (show (0 : Fin 2) ∉ ([1] : List (Fin 2)) by decide)

/-- The column axis's window starts at update column `e`'s word, read signed. -/
theorem rowScat_start1 {R C E w : ℕ} (wf : ScatterDims.WF ⟨2, ![R, C]⟩ ⟨2, ![E, 1]⟩ ⟨2, ![R, E]⟩ [0] [1] [1] 1)
    (idx : IVec ⟨2, ![E, 1]⟩ w) (b : Fin R) (e : Fin E) :
    (rowScatDims R C E wf).start (ix2 b e) idx 1 = (idx (ix2 e (0 : Fin 1))).toInt := by
  unfold ScatterDims.start
  rw [dif_pos (show (1 : Fin 2) ∈ (rowScatDims R C E wf).scatterDimsToOperandDims from List.mem_singleton.mpr rfl)]
  have hsi : (rowScatDims R C E wf).siIdx (ix2 b e) ⟨List.idxOf (1 : Fin 2) (rowScatDims R C E wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- The row axis is kept: the window coordinate on it is the update's row `b`. -/
theorem rowScat_window0 {R C E : ℕ} (wf : ScatterDims.WF ⟨2, ![R, C]⟩ ⟨2, ![E, 1]⟩ ⟨2, ![R, E]⟩ [0] [1] [1] 1)
    (b : Fin R) (e : Fin E) :
    (rowScatDims R C E wf).window (ix2 b e) 0 = b.val := by
  unfold ScatterDims.window
  rw [dif_pos (show (0 : Fin 2) ∈ (rowScatDims R C E wf).sKept from
    (show (0 : Fin 2) ∈ (List.finRange 2).filter (· ∉ ([1] : List (Fin 2))) by decide))]
  rfl

/-- The column axis is inserted: the window coordinate on it is `0`. -/
theorem rowScat_window1 {R C E : ℕ} (wf : ScatterDims.WF ⟨2, ![R, C]⟩ ⟨2, ![E, 1]⟩ ⟨2, ![R, E]⟩ [0] [1] [1] 1)
    (b : Fin R) (e : Fin E) :
    (rowScatDims R C E wf).window (ix2 b e) 1 = 0 := by
  unfold ScatterDims.window
  exact dif_neg (show (1 : Fin 2) ∉ (List.finRange 2).filter (· ∉ ([1] : List (Fin 2))) by decide)

/-- Update `(b, e)` lands at `(b', j)` exactly when `b = b'` and `e`'s word, read signed, is `j`. -/
theorem rowScat_resultIdx_eq_some_iff {R C E w : ℕ} (wf : ScatterDims.WF ⟨2, ![R, C]⟩ ⟨2, ![E, 1]⟩ ⟨2, ![R, E]⟩ [0] [1] [1] 1)
    (idx : IVec ⟨2, ![E, 1]⟩ w) (b b' : Fin R) (e : Fin E) (j : Fin C) :
    (rowScatDims R C E wf).resultIdx? (ix2 b e) idx = some (ix2 b' j)
      ↔ b = b' ∧ (idx (ix2 e (0 : Fin 1))).toInt = (j.val : ℤ) := by
  have h0s := rowScat_start0 wf idx b e
  have h1s := rowScat_start1 wf idx b e
  have h0w := rowScat_window0 wf b e
  have h1w := rowScat_window1 wf b e
  have hb := b.isLt
  have hb' := b'.isLt
  have hj := j.isLt
  unfold ScatterDims.resultIdx?
  split
  · rename_i h
    rw [Option.some.injEq]
    constructor
    · intro heq
      have e0 : ((rowScatDims R C E wf).start (ix2 b e) idx 0 + (rowScatDims R C E wf).window (ix2 b e) 0).toNat = b'.val :=
        congrArg (fun f => (f 0).val) heq
      have e1 : ((rowScatDims R C E wf).start (ix2 b e) idx 1 + (rowScatDims R C E wf).window (ix2 b e) 1).toNat = j.val :=
        congrArg (fun f => (f 1).val) heq
      have g1 := (h 1).1
      rw [h0s, h0w] at e0
      rw [h1s, h1w] at e1 g1
      refine ⟨Fin.ext ?_, ?_⟩ <;> omega
    · rintro ⟨rfl, hw⟩
      funext a
      match a with
      | ⟨0, _⟩ =>
        refine Fin.ext ?_
        show ((rowScatDims R C E wf).start (ix2 b e) idx 0 + (rowScatDims R C E wf).window (ix2 b e) 0).toNat = b.val
        rw [h0s, h0w]; omega
      | ⟨1, _⟩ =>
        refine Fin.ext ?_
        show ((rowScatDims R C E wf).start (ix2 b e) idx 1 + (rowScatDims R C E wf).window (ix2 b e) 1).toNat = j.val
        rw [h1s, h1w]; omega
  · rename_i h
    constructor
    · intro heq; cases heq
    · rintro ⟨rfl, hw⟩
      refine absurd ?_ h
      intro a
      match a with
      | ⟨0, _⟩ =>
        show 0 ≤ (rowScatDims R C E wf).start (ix2 b e) idx 0 + (rowScatDims R C E wf).window (ix2 b e) 0 ∧
          (rowScatDims R C E wf).start (ix2 b e) idx 0 + (rowScatDims R C E wf).window (ix2 b e) 0 < (R : ℤ)
        rw [h0s, h0w]; omega
      | ⟨1, _⟩ =>
        show 0 ≤ (rowScatDims R C E wf).start (ix2 b e) idx 1 + (rowScatDims R C E wf).window (ix2 b e) 1 ∧
          (rowScatDims R C E wf).start (ix2 b e) idx 1 + (rowScatDims R C E wf).window (ix2 b e) 1 < (C : ℤ)
        rw [h1s, h1w]; omega

abbrev pairScatDims (R C E : ℕ) (wf : ScatterDims.WF ⟨2, ![R, C]⟩ ⟨2, ![E, 2]⟩ ⟨1, ![E]⟩ [] [0, 1] [0, 1] 1) :
    ScatterDims ⟨2, ![R, C]⟩ ⟨2, ![E, 2]⟩ ⟨1, ![E]⟩ where
  updateWindowDims := []
  insertedWindowDims := [0, 1]
  scatterDimsToOperandDims := [0, 1]
  indexVectorDim := 1
  wf := wf

/-- The row axis's window starts at the first word of update `e`'s pair, read signed. -/
theorem pairScat_start0 {R C E w : ℕ} (wf : ScatterDims.WF ⟨2, ![R, C]⟩ ⟨2, ![E, 2]⟩ ⟨1, ![E]⟩ [] [0, 1] [0, 1] 1)
    (idx : IVec ⟨2, ![E, 2]⟩ w) (e : Fin E) :
    (pairScatDims R C E wf).start (ix1 e) idx 0 = (idx (ix2 e (0 : Fin 2))).toInt := by
  have hm : (0 : Fin 2) ∈ (pairScatDims R C E wf).scatterDimsToOperandDims :=
    show (0 : Fin 2) ∈ ([0, 1] : List (Fin 2)) by decide
  unfold ScatterDims.start
  rw [dif_pos hm]
  have hsi : (pairScatDims R C E wf).siIdx (ix1 e) ⟨List.idxOf (0 : Fin 2) (pairScatDims R C E wf).scatterDimsToOperandDims,
      List.idxOf_lt_length_iff.2 hm⟩ = ix2 e (0 : Fin 2) := by
    funext a; refine Fin.ext ?_
    match a with
    | ⟨0, _⟩ => rfl
    | ⟨1, _⟩ => rfl
  rw [hsi]

/-- The column axis's window starts at the second word of update `e`'s pair, read signed. -/
theorem pairScat_start1 {R C E w : ℕ} (wf : ScatterDims.WF ⟨2, ![R, C]⟩ ⟨2, ![E, 2]⟩ ⟨1, ![E]⟩ [] [0, 1] [0, 1] 1)
    (idx : IVec ⟨2, ![E, 2]⟩ w) (e : Fin E) :
    (pairScatDims R C E wf).start (ix1 e) idx 1 = (idx (ix2 e (1 : Fin 2))).toInt := by
  have hm : (1 : Fin 2) ∈ (pairScatDims R C E wf).scatterDimsToOperandDims :=
    show (1 : Fin 2) ∈ ([0, 1] : List (Fin 2)) by decide
  unfold ScatterDims.start
  rw [dif_pos hm]
  have hsi : (pairScatDims R C E wf).siIdx (ix1 e) ⟨List.idxOf (1 : Fin 2) (pairScatDims R C E wf).scatterDimsToOperandDims,
      List.idxOf_lt_length_iff.2 hm⟩ = ix2 e (1 : Fin 2) := by
    funext a; refine Fin.ext ?_
    match a with
    | ⟨0, _⟩ => rfl
    | ⟨1, _⟩ => rfl
  rw [hsi]

/-- Both axes are inserted: the window coordinate is `0` on each. -/
theorem pairScat_window {R C E : ℕ} (wf : ScatterDims.WF ⟨2, ![R, C]⟩ ⟨2, ![E, 2]⟩ ⟨1, ![E]⟩ [] [0, 1] [0, 1] 1)
    (e : Fin E) (a : Fin 2) :
    (pairScatDims R C E wf).window (ix1 e) a = 0 := by
  unfold ScatterDims.window
  refine dif_neg ?_
  show a ∉ (List.finRange 2).filter (· ∉ ([0, 1] : List (Fin 2)))
  revert a; decide

/-- Update `e` lands at `(i, j)` exactly when its two words, read signed, are `i` and `j`. -/
theorem pairScat_resultIdx_eq_some_iff {R C E w : ℕ} (wf : ScatterDims.WF ⟨2, ![R, C]⟩ ⟨2, ![E, 2]⟩ ⟨1, ![E]⟩ [] [0, 1] [0, 1] 1)
    (idx : IVec ⟨2, ![E, 2]⟩ w) (e : Fin E) (i : Fin R) (j : Fin C) :
    (pairScatDims R C E wf).resultIdx? (ix1 e) idx = some (ix2 i j)
      ↔ (idx (ix2 e (0 : Fin 2))).toInt = (i.val : ℤ) ∧ (idx (ix2 e (1 : Fin 2))).toInt = (j.val : ℤ) := by
  have h0s := pairScat_start0 wf idx e
  have h1s := pairScat_start1 wf idx e
  have h0w := pairScat_window wf e 0
  have h1w := pairScat_window wf e 1
  have hi := i.isLt
  have hj := j.isLt
  unfold ScatterDims.resultIdx?
  split
  · rename_i h
    rw [Option.some.injEq]
    constructor
    · intro heq
      have e0 : ((pairScatDims R C E wf).start (ix1 e) idx 0 + (pairScatDims R C E wf).window (ix1 e) 0).toNat = i.val :=
        congrArg (fun f => (f 0).val) heq
      have e1 : ((pairScatDims R C E wf).start (ix1 e) idx 1 + (pairScatDims R C E wf).window (ix1 e) 1).toNat = j.val :=
        congrArg (fun f => (f 1).val) heq
      have g0 := (h 0).1
      have g1 := (h 1).1
      rw [h0s, h0w] at e0 g0
      rw [h1s, h1w] at e1 g1
      constructor <;> omega
    · rintro ⟨hi', hj'⟩
      funext a
      match a with
      | ⟨0, _⟩ =>
        refine Fin.ext ?_
        show ((pairScatDims R C E wf).start (ix1 e) idx 0 + (pairScatDims R C E wf).window (ix1 e) 0).toNat = i.val
        rw [h0s, h0w]; omega
      | ⟨1, _⟩ =>
        refine Fin.ext ?_
        show ((pairScatDims R C E wf).start (ix1 e) idx 1 + (pairScatDims R C E wf).window (ix1 e) 1).toNat = j.val
        rw [h1s, h1w]; omega
  · rename_i h
    constructor
    · intro heq; cases heq
    · rintro ⟨hi', hj'⟩
      refine absurd ?_ h
      intro a
      match a with
      | ⟨0, _⟩ =>
        show 0 ≤ (pairScatDims R C E wf).start (ix1 e) idx 0 + (pairScatDims R C E wf).window (ix1 e) 0 ∧
          (pairScatDims R C E wf).start (ix1 e) idx 0 + (pairScatDims R C E wf).window (ix1 e) 0 < (R : ℤ)
        rw [h0s, h0w]; omega
      | ⟨1, _⟩ =>
        show 0 ≤ (pairScatDims R C E wf).start (ix1 e) idx 1 + (pairScatDims R C E wf).window (ix1 e) 1 ∧
          (pairScatDims R C E wf).start (ix1 e) idx 1 + (pairScatDims R C E wf).window (ix1 e) 1 < (C : ℤ)
        rw [h1s, h1w]; omega

end Cert.Neat

end
-- ==== Proof.LibDimsGather.lean ====
/-
  Gathering columns: `buf[:, idx]` for an `R × C` array and `E` column words. Result entry `(b, e)` is the array's
  entry in row `b` at column word `e`, read signed and clamped into `[0, C − 1]`.
-/
import Idealize.ShloMosaic.PureOps
import Idealize.ShloMosaic.Lib.ValueIdx

noncomputable section

namespace Cert.Neat

open Idealize.ShloMosaic Idealize.ShloMosaic.ValueIdx

/-- The dimension numbers of a column gather: result axis 0 is the offset axis (the whole of operand axis 0), operand
    axis 1 is collapsed and start-indexed, the index vector sits on axis 1 of the `E × 1` start indices. -/
abbrev colGatherDims (R C E : ℕ)
    (wf : GatherDims.WF ⟨2, ![R, C]⟩ ⟨2, ![E, 1]⟩ ⟨2, ![R, E]⟩ [0] [1] [] [1] [] 1 ![R, 1]) :
    GatherDims ⟨2, ![R, C]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- Axis 0 is not among the axes `[1]`. -/
private theorem colGather_zero_not_mem_one : (0 : Fin 2) ∉ ([1] : List (Fin 2)) := by decide

/-- The gather read at `(b, e)`. -/
theorem colGather_apply {α : Type} {R C E w : ℕ} (hC : 0 < C)
    (wf : GatherDims.WF ⟨2, ![R, C]⟩ ⟨2, ![E, 1]⟩ ⟨2, ![R, E]⟩ [0] [1] [] [1] [] 1 ![R, 1])
    (x : (⟨2, ![R, C]⟩ : Shape).Idx → α) (idx : IVec ⟨2, ![E, 1]⟩ w) (b : Fin R) (e : Fin E) :
    Host.gather (colGatherDims R C E wf) x idx (ix2 b e)
      = x (ix2 b ⟨min (idx (ix2 e (0 : Fin 1))).toInt.toNat (C - 1), by omega⟩) := by
  unfold Host.gather
  congr 1
  funext a
  refine Fin.ext ?_
  match a with
  | ⟨0, _⟩ =>
    -- operand axis 0 is kept whole: start 0, no batching coordinate, offset coordinate the result's coordinate on its
    -- offset axis 0, which is `b`
    show (colGatherDims R C E wf).start (ix2 b e) idx 0 + (colGatherDims R C E wf).batchCoord (ix2 b e) 0
      + (colGatherDims R C E wf).offCoord (ix2 b e) 0 = b.val
    have hk : (0 : Fin 2) ∈ (colGatherDims R C E wf).sKept :=
      (GatherDims.mem_sKept _ _).mpr ⟨colGather_zero_not_mem_one, List.not_mem_nil⟩
    rw [GatherDims.batchCoord_eq_zero _ _ _ List.not_mem_nil]
    unfold GatherDims.start GatherDims.offCoord
    rw [dif_neg (show (0 : Fin 2) ∉ (colGatherDims R C E wf).startIndexMap from colGather_zero_not_mem_one), dif_pos hk]
    simp only [Nat.add_zero, Nat.zero_add]
    rfl
  | ⟨1, _⟩ =>
    -- operand axis 1 is collapsed and start-indexed: no batching and no offset coordinate, start the column word at
    -- `(e, 0)` read signed and clamped into `[0, C − 1]` (the slice has size 1)
    show (colGatherDims R C E wf).start (ix2 b e) idx 1 + (colGatherDims R C E wf).batchCoord (ix2 b e) 1
      + (colGatherDims R C E wf).offCoord (ix2 b e) 1 = min (idx (ix2 e (0 : Fin 1))).toInt.toNat (C - 1)
    have hm : (1 : Fin 2) ∈ (colGatherDims R C E wf).startIndexMap := List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm]
    -- the start-indices index read for result index `(b, e)`: the batch coordinate `e` on axis 0, component 0 on the
    -- index vector's axis 1
    have hsi : (colGatherDims R C E wf).siIdx (ix2 b e) ⟨List.idxOf (1 : Fin 2) (colGatherDims R C E wf).startIndexMap,
        List.idxOf_lt_length_iff.2 hm⟩ = ix2 e (0 : Fin 1) := by
      funext c; refine Fin.ext ?_
      match c with
      | ⟨0, _⟩ => rfl
      | ⟨1, _⟩ => rfl
    rw [hsi]
    rfl

end Cert.Neat

end
-- ==== Proof.LayerRead.lean ====
/-
  The two accumulating scatters of the network and the index-word vectors, read at one entry.

  * The kernel's matrix: `zeros.at[is, id].add(w)` at `(i, j)` is the operand's entry plus `selMat is id w i j`.
  * The reference's pre-activation: `zeros.at[:, id].add(buf[:, is] * w)` at `(b, j)` is the operand's entry plus the sum,
    over the edges whose destination word is `j`, of row `b` of `buf` at the clamped source word times the weight.
  * The index-word vectors entry by entry: a slice of the edge list, a subtraction of the layer's first node id, the
    wrap of a negative word.
-/
import Idealize.ShloMosaic.PureOps
import Idealize.ShloMosaic.PureOps.Ideal
import Idealize.ShloMosaic.Lib.ValueIdx
import Idealize.ShloMosaic.Lib.ValueIdxRank1
import Idealize.ShloMosaic.Lib.Pipeline.Value
import proofs.«401231_j7215545057312_2_alg».proof.Proof.Spec
import proofs.«401231_j7215545057312_2_alg».proof.Proof.LibDimsGather
import proofs.«401231_j7215545057312_2_alg».proof.Proof.LibDimsScatter

noncomputable section

namespace Cert.Neat

open Idealize.ShloMosaic Idealize.ShloMosaic.ValueIdx

/-- A column-vector broadcast of a length-`E` vector reads entry `e` in row `e`. -/
private theorem bcastCol_apply {α : Type} {E : ℕ}
    (hb : (⟨1, ![E]⟩ : Shape).BroadcastsInDim ⟨2, ![E, 1]⟩ (![0] : Fin 1 → Fin 2))
    (v : (⟨1, ![E]⟩ : Shape).Idx → α) (e : Fin E) (c : Fin 1) :
    broadcastInDim ⟨2, ![E, 1]⟩ ![0] hb v (ix2 e c) = v (ix1 e) := by
  unfold broadcastInDim
  congr 1
  funext a
  match a with
  | ⟨0, _⟩ =>
    refine Fin.ext ?_
    split
    · rename_i h1
      have hE : E = 1 := h1
      have := e.isLt
      show 0 = e.val
      omega
    · rfl

/-- A row-vector broadcast of a length-`E` vector, repeated down `R` rows, reads entry `e` in column `e`. -/
private theorem bcastRow_apply {α : Type} {R E : ℕ}
    (hb1 : (⟨1, ![E]⟩ : Shape).BroadcastsInDim ⟨2, ![1, E]⟩ (![1] : Fin 1 → Fin 2))
    (hb2 : (⟨2, ![1, E]⟩ : Shape).BroadcastsInDim ⟨2, ![R, E]⟩ (![0, 1] : Fin 2 → Fin 2))
    (v : (⟨1, ![E]⟩ : Shape).Idx → α) (b : Fin R) (e : Fin E) :
    broadcastInDim ⟨2, ![R, E]⟩ ![0, 1] hb2 (broadcastInDim ⟨2, ![1, E]⟩ ![1] hb1 v) (ix2 b e) = v (ix1 e) := by
  unfold broadcastInDim
  congr 1
  funext a
  match a with
  | ⟨0, _⟩ =>
    refine Fin.ext ?_
    split
    · rename_i h1
      have hE : E = 1 := h1
      have := e.isLt
      show 0 = e.val
      omega
    · rename_i h1
      have hE : ¬ E = 1 := h1
      beta_reduce
      split
      · rename_i h2
        exact absurd h2 hE
      · rfl

/-- The kernel's selector-matrix scatter read at `(i, j)`. -/
theorem pairScatAdd_apply {R C E : ℕ}
    (wf : ScatterDims.WF ⟨2, ![R, C]⟩ ⟨2, ![E, 2]⟩ ⟨1, ![E]⟩ [] [0, 1] [0, 1] 1)
    (hb : (⟨1, ![E]⟩ : Shape).BroadcastsInDim ⟨2, ![E, 1]⟩ (![0] : Fin 1 → Fin 2))
    (hcat : Shape.Concatenates [(⟨2, ![E, 1]⟩ : Shape), ⟨2, ![E, 1]⟩] ⟨2, ![E, 2]⟩ 1)
    (z : FVec Ideal ⟨2, ![R, C]⟩ .f32) (is id : IVec ⟨1, ![E]⟩ 32) (wl : FVec Ideal ⟨1, ![E]⟩ .f32) (i : Fin R) (j : Fin C) :
    Host.scatterAdd (pairScatDims R C E wf) z
        (concatenate ⟨2, ![E, 2]⟩ 1 [⟨⟨2, ![E, 1]⟩, broadcastInDim ⟨2, ![E, 1]⟩ ![0] hb is⟩,
          ⟨⟨2, ![E, 1]⟩, broadcastInDim ⟨2, ![E, 1]⟩ ![0] hb id⟩] hcat)
        wl (ix2 i j)
      = z (ix2 i j) + selMat (fun e => is (ix1 e)) (fun e => id (ix1 e)) (fun e => wl (ix1 e)) i j := by
  -- the pair of words of update `e`
  have hw0 : ∀ e : Fin E, concatenate ⟨2, ![E, 2]⟩ 1 [⟨⟨2, ![E, 1]⟩, broadcastInDim ⟨2, ![E, 1]⟩ ![0] hb is⟩,
      ⟨⟨2, ![E, 1]⟩, broadcastInDim ⟨2, ![E, 1]⟩ ![0] hb id⟩] hcat (ix2 e (0 : Fin 2)) = is (ix1 e) := fun e => by
    rw [concatenate_pair_apply_left (s₁ := ⟨2, ![E, 1]⟩) (s₂ := ⟨2, ![E, 1]⟩) (t := ⟨2, ![E, 2]⟩) (1 : Fin 2) _ _ hcat
      (ix2 e (0 : Fin 2)) rfl (ix2 e (0 : Fin 1))
      (fun b => by match b with | ⟨0, _⟩ => rfl | ⟨1, _⟩ => rfl)]
    exact bcastCol_apply hb is e 0
  have hw1 : ∀ e : Fin E, concatenate ⟨2, ![E, 2]⟩ 1 [⟨⟨2, ![E, 1]⟩, broadcastInDim ⟨2, ![E, 1]⟩ ![0] hb is⟩,
      ⟨⟨2, ![E, 1]⟩, broadcastInDim ⟨2, ![E, 1]⟩ ![0] hb id⟩] hcat (ix2 e (1 : Fin 2)) = id (ix1 e) := fun e => by
    rw [concatenate_pair_apply_right (s₁ := ⟨2, ![E, 1]⟩) (s₂ := ⟨2, ![E, 1]⟩) (t := ⟨2, ![E, 2]⟩) (1 : Fin 2) _ _ hcat
      (ix2 e (1 : Fin 2)) rfl rfl (ix2 e (0 : Fin 1))
      (fun b hb' => by
        match b with
        | ⟨0, _⟩ => rfl
        | ⟨1, _⟩ => exact absurd rfl hb')
      rfl]
    exact bcastCol_apply hb id e 0
  show z (ix2 i j) + ∑ k ∈ Finset.univ.filter (fun k => (pairScatDims R C E wf).resultIdx? k _ = some (ix2 i j)), wl k = _
  congr 1
  unfold selMat
  refine Finset.sum_equiv idxEquiv1 (fun k => ?_) (fun k _ => ?_)
  · obtain ⟨e, rfl⟩ : ∃ e, k = ix1 e := ⟨k 0, eq_ix1 k⟩
    simp only [Finset.mem_filter, Finset.mem_univ, true_and]
    rw [pairScat_resultIdx_eq_some_iff, hw0, hw1]
    rfl
  · obtain ⟨e, rfl⟩ : ∃ e, k = ix1 e := ⟨k 0, eq_ix1 k⟩
    rfl

/-- Reading a row of `buf` at a clamped word depends on the word only. -/
private theorem clampRead_congr {R Cb : ℕ} (buf : (⟨2, ![R, Cb]⟩ : Shape).Idx → EReal) (b : Fin R) (x y : BitVec 32) (hxy : x = y)
    (p : min x.toInt.toNat (Cb - 1) < Cb) (q : min y.toInt.toNat (Cb - 1) < Cb) :
    buf (ix2 b ⟨min x.toInt.toNat (Cb - 1), p⟩) = buf (ix2 b ⟨min y.toInt.toNat (Cb - 1), q⟩) := by
  subst hxy; rfl

/-- The reference's accumulating scatter of gathered columns times weights, read at `(b, j)`. -/
theorem rowScatAdd_apply {R C E Cb : ℕ} (hCb : 0 < Cb)
    (wfS : ScatterDims.WF ⟨2, ![R, C]⟩ ⟨2, ![E, 1]⟩ ⟨2, ![R, E]⟩ [0] [1] [1] 1)
    (wfG : GatherDims.WF ⟨2, ![R, Cb]⟩ ⟨2, ![E, 1]⟩ ⟨2, ![R, E]⟩ [0] [1] [] [1] [] 1 ![R, 1])
    (hb : (⟨1, ![E]⟩ : Shape).BroadcastsInDim ⟨2, ![E, 1]⟩ (![0] : Fin 1 → Fin 2))
    (hb1 : (⟨1, ![E]⟩ : Shape).BroadcastsInDim ⟨2, ![1, E]⟩ (![1] : Fin 1 → Fin 2))
    (hb2 : (⟨2, ![1, E]⟩ : Shape).BroadcastsInDim ⟨2, ![R, E]⟩ (![0, 1] : Fin 2 → Fin 2))
    (z : FVec Ideal ⟨2, ![R, C]⟩ .f32) (buf : FVec Ideal ⟨2, ![R, Cb]⟩ .f32) (is id : IVec ⟨1, ![E]⟩ 32)
    (wl : FVec Ideal ⟨1, ![E]⟩ .f32) (b : Fin R) (j : Fin C) :
    Host.scatterAdd (rowScatDims R C E wfS) z (broadcastInDim ⟨2, ![E, 1]⟩ ![0] hb id)
        (mulf (Host.gather (colGatherDims R Cb E wfG) buf (broadcastInDim ⟨2, ![E, 1]⟩ ![0] hb is))
          (broadcastInDim ⟨2, ![R, E]⟩ ![0, 1] hb2 (broadcastInDim ⟨2, ![1, E]⟩ ![1] hb1 wl))) (ix2 b j)
      = z (ix2 b j) + ∑ e ∈ Finset.univ.filter (fun e : Fin E => (id (ix1 e)).toInt = (j.val : ℤ)),
          buf (ix2 b ⟨min (is (ix1 e)).toInt.toNat (Cb - 1), by omega⟩) * wl (ix1 e) := by
  show z (ix2 b j) + ∑ k ∈ Finset.univ.filter (fun k => (rowScatDims R C E wfS).resultIdx? k _ = some (ix2 b j)),
      mulf (Host.gather (colGatherDims R Cb E wfG) buf (broadcastInDim ⟨2, ![E, 1]⟩ ![0] hb is))
          (broadcastInDim ⟨2, ![R, E]⟩ ![0, 1] hb2 (broadcastInDim ⟨2, ![1, E]⟩ ![1] hb1 wl)) k = _
  congr 1
  -- update `(b', e)` lands at `(b, j)` exactly when `b' = b` and `e`'s destination word is `j`
  have hland : ∀ (b' : Fin R) (e : Fin E),
      (rowScatDims R C E wfS).resultIdx? (ix2 b' e) (broadcastInDim ⟨2, ![E, 1]⟩ ![0] hb id) = some (ix2 b j)
        ↔ b' = b ∧ (id (ix1 e)).toInt = (j.val : ℤ) := fun b' e => by
    rw [rowScat_resultIdx_eq_some_iff, bcastCol_apply hb id e 0]
  refine Finset.sum_nbij' (fun k => k 1) (fun e => ix2 b e) ?_ ?_ ?_ ?_ ?_
  · intro k hk
    obtain ⟨b', e, rfl⟩ : ∃ b' e, k = ix2 b' e := ⟨k 0, k 1, eq_ix2 k⟩
    exact Finset.mem_filter.mpr ⟨Finset.mem_univ _, ((hland b' e).mp (Finset.mem_filter.mp hk).2).2⟩
  · intro e he
    exact Finset.mem_filter.mpr ⟨Finset.mem_univ _, (hland b e).mpr ⟨rfl, (Finset.mem_filter.mp he).2⟩⟩
  · intro k hk
    obtain ⟨b', e, rfl⟩ : ∃ b' e, k = ix2 b' e := ⟨k 0, k 1, eq_ix2 k⟩
    obtain ⟨rfl, _⟩ := (hland b' e).mp (Finset.mem_filter.mp hk).2
    rfl
  · intro e _
    rfl
  · intro k hk
    obtain ⟨b', e, rfl⟩ : ∃ b' e, k = ix2 b' e := ⟨k 0, k 1, eq_ix2 k⟩
    obtain ⟨rfl, _⟩ := (hland b' e).mp (Finset.mem_filter.mp hk).2
    show Host.gather (colGatherDims R Cb E wfG) buf (broadcastInDim ⟨2, ![E, 1]⟩ ![0] hb is) (ix2 b' e)
        * broadcastInDim ⟨2, ![R, E]⟩ ![0, 1] hb2 (broadcastInDim ⟨2, ![1, E]⟩ ![1] hb1 wl) (ix2 b' e) = _
    rw [colGather_apply hCb wfG buf _ b' e, bcastRow_apply hb1 hb2 wl b' e]
    congr 1
    exact clampRead_congr buf b' _ _ (bcastCol_apply hb is e 0) _ _

/-- A slice of the edge list, entry by entry. -/
theorem slice1_apply {α : Type} {n E : ℕ} (e0 : ℕ) (hs : (⟨1, ![n]⟩ : Shape).Slices ![e0] ⟨1, ![E]⟩) (h : e0 + E ≤ n)
    (v : (⟨1, ![n]⟩ : Shape).Idx → α) (e : Fin E) :
    extractStridedSlice ⟨1, ![E]⟩ ![e0] v hs (ix1 e) = at1 v e0 h e := by
  unfold extractStridedSlice at1
  congr 1
  funext a
  match a with
  | ⟨0, _⟩ => rfl

/-- A vector of words less a splat constant, entry by entry. -/
theorem subSplat_apply {E : ℕ} (hb0 : (⟨0, ![]⟩ : Shape).BroadcastsInDim ⟨1, ![E]⟩ (![] : Fin 0 → Fin 1))
    (v : IVec ⟨1, ![E]⟩ 32) (off : BitVec 32) (e : Fin E) :
    subi v (broadcastInDim ⟨1, ![E]⟩ ![] hb0 (constantI ⟨0, ![]⟩ 32 off)) (ix1 e) = IntOp.subi (v (ix1 e)) off := rfl

/-- The wrap of negative words, entry by entry: the printed `select (v < 0) (v + n) v` is `wrapIx`. -/
theorem wrapVec_apply {E : ℕ} (hb0 : (⟨0, ![]⟩ : Shape).BroadcastsInDim ⟨1, ![E]⟩ (![] : Fin 0 → Fin 1))
    (v : IVec ⟨1, ![E]⟩ 32) (n : BitVec 32) (e : Fin E) :
    select (cmpi .slt v (broadcastInDim ⟨1, ![E]⟩ ![] hb0 (constantI ⟨0, ![]⟩ 32 0#32)))
        (addi v (broadcastInDim ⟨1, ![E]⟩ ![] hb0 (constantI ⟨0, ![]⟩ 32 n))) v (ix1 e)
      = wrapIx (v (ix1 e)) n := rfl

/-- The float word `0x3F800000` is one. -/
private theorem ofBits_one_f32 : Ideal.ofBits .f32 0x3F800000#32 = 1 := by
  simp [Ideal.ofBits, Ideal.ieee, -EReal.coe_mul]; norm_num

/-- A splat of the float zero word is zero at every entry (at the exact extended reals). -/
theorem zeroSplat_apply {s : Shape} (hb0 : (⟨0, ![]⟩ : Shape).BroadcastsInDim s (![] : Fin 0 → Fin s.rank)) (i : s.Idx) :
    (broadcastInDim s ![] hb0 (constant (F := Ideal) ⟨0, ![]⟩ .f32 0x00000000#32) : FVec Ideal s .f32) i = (0 : EReal) := by
  show Ideal.ofBits .f32 0x00000000#32 = 0
  simp [Ideal.ofBits, Ideal.ieee]

/-- The host's `1 / (1 + exp (−z))`, entry by entry, is the logistic function. -/
theorem hostSigmoid_apply {s : Shape} (hb0 : (⟨0, ![]⟩ : Shape).BroadcastsInDim s (![] : Fin 0 → Fin s.rank))
    (z : FVec Ideal s .f32) (i : s.Idx) :
    Host.divf (broadcastInDim s ![] hb0 (constant (F := Ideal) ⟨0, ![]⟩ .f32 0x3F800000#32))
        (addf (broadcastInDim s ![] hb0 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = Ideal.logistic (z i)
  rw [ofBits_one_f32]
  rfl

end Cert.Neat

end
-- ==== Proof.KHost.lean ====
/-
  The five selector matrices as the kernel's region finds them: each is the accumulating scatter of its layer's
  weights at the pairs (local source word, local destination word), into zeros — `S1` … `S5` of the launch's arrays.
-/
import proofs.«401231_j7215545057312_2_alg».proof.Proof.Gen.KernelIdeal.Frame
import Idealize.ShloMosaic.Lib.StableHlo.Run
import Idealize.ShloMosaic.Lib.ValueIdx
import proofs.«401231_j7215545057312_2_alg».proof.Proof.Spec
import proofs.«401231_j7215545057312_2_alg».proof.Proof.LibDimsScatter
import proofs.«401231_j7215545057312_2_alg».proof.Proof.LayerRead

noncomputable section

namespace Cert.Neat

open Idealize.ShloMosaic Idealize.ShloMosaic.ValueIdx Cert.KernelIdeal Cert.KernelIdeal.Gen Idealize.ShloMosaic.TcCoe Idealize.SL.Sem

variable (m : (ℓ : Loc nD τ sig) → Buf (Elt Ideal) ℓ)

/-- The weights, source ids and destination ids as launched on core `c`. -/
abbrev Warr (c : Dev nD) : S67584.Idx → EReal := m ((c : Thread nD τ).loc main_arg1)
abbrev SRCarr (c : Dev nD) : S67584.Idx → BitVec 32 := m ((c : Thread nD τ).loc main_arg2)
abbrev DSTarr (c : Dev nD) : S67584.Idx → BitVec 32 := m ((c : Thread nD τ).loc main_arg3)

namespace KHost

/-- The printed vector of a block's local index words: the block of the list less the layer's first node id, a negative
    word then counted from the end of an axis of length `n`. -/
abbrev wrapT {E : ℕ} (hb0 : (⟨0, ![]⟩ : Shape).BroadcastsInDim ⟨1, ![E]⟩ (![] : Fin 0 → Fin 1)) (e0 : ℕ)
    (hs : (⟨1, ![67584]⟩ : Shape).Slices ![e0] ⟨1, ![E]⟩) (v : (⟨1, ![67584]⟩ : Shape).Idx → BitVec 32) (off n : BitVec 32) :
    IVec ⟨1, ![E]⟩ 32 :=
  select
    (cmpi .slt
      (subi (extractStridedSlice ⟨1, ![E]⟩ ![e0] v hs) (broadcastInDim ⟨1, ![E]⟩ ![] hb0 (constantI ⟨0, ![]⟩ 32 off)))
      (broadcastInDim ⟨1, ![E]⟩ ![] hb0 (constantI ⟨0, ![]⟩ 32 0#32)))
    (addi
      (subi (extractStridedSlice ⟨1, ![E]⟩ ![e0] v hs) (broadcastInDim ⟨1, ![E]⟩ ![] hb0 (constantI ⟨0, ![]⟩ 32 off)))
      (broadcastInDim ⟨1, ![E]⟩ ![] hb0 (constantI ⟨0, ![]⟩ 32 n)))
    (subi (extractStridedSlice ⟨1, ![E]⟩ ![e0] v hs) (broadcastInDim ⟨1, ![E]⟩ ![] hb0 (constantI ⟨0, ![]⟩ 32 off)))

/-- Entry `e` of the printed vector of local words is `locIx` of the list. -/
theorem wrapT_apply {E : ℕ} (hb0 : (⟨0, ![]⟩ : Shape).BroadcastsInDim ⟨1, ![E]⟩ (![] : Fin 0 → Fin 1)) (e0 : ℕ)
    (hs : (⟨1, ![67584]⟩ : Shape).Slices ![e0] ⟨1, ![E]⟩) (h : e0 + E ≤ 67584)
    (v : (⟨1, ![67584]⟩ : Shape).Idx → BitVec 32) (off n : BitVec 32) (e : Fin E) :
    wrapT hb0 e0 hs v off n (ix1 e) = locIx v e0 h off n e := by
  unfold wrapT
  rw [wrapVec_apply, subSplat_apply, slice1_apply e0 hs h]
  rfl

/-- One layer's matrix over ANY launch arrays: the accumulating scatter, into zeros, of the block of weights at the
    pairs of local words is the selector matrix of that block. -/
theorem layer_apply {R C E : ℕ} (e0 : ℕ) (h : e0 + E ≤ 67584)
    (wf : ScatterDims.WF ⟨2, ![R, C]⟩ ⟨2, ![E, 2]⟩ ⟨1, ![E]⟩ [] [0, 1] [0, 1] 1)
    (hb : (⟨1, ![E]⟩ : Shape).BroadcastsInDim ⟨2, ![E, 1]⟩ (![0] : Fin 1 → Fin 2))
    (hcat : Shape.Concatenates [(⟨2, ![E, 1]⟩ : Shape), ⟨2, ![E, 1]⟩] ⟨2, ![E, 2]⟩ 1)
    (hb0 : (⟨0, ![]⟩ : Shape).BroadcastsInDim ⟨1, ![E]⟩ (![] : Fin 0 → Fin 1))
    (hbz : (⟨0, ![]⟩ : Shape).BroadcastsInDim ⟨2, ![R, C]⟩ (![] : Fin 0 → Fin 2))
    (hs : (⟨1, ![67584]⟩ : Shape).Slices ![e0] ⟨1, ![E]⟩)
    (w : (⟨1, ![67584]⟩ : Shape).Idx → EReal) (src dst : (⟨1, ![67584]⟩ : Shape).Idx → BitVec 32)
    (offS nS offD nDst : BitVec 32) (i : Fin R) (j : Fin C) :
    Host.scatterAdd (pairScatDims R C E wf)
        (broadcastInDim ⟨2, ![R, C]⟩ ![] hbz (constant (F := Ideal) ⟨0, ![]⟩ .f32 0x00000000#32))
        (concatenate ⟨2, ![E, 2]⟩ 1
          [⟨⟨2, ![E, 1]⟩, broadcastInDim ⟨2, ![E, 1]⟩ ![0] hb (wrapT hb0 e0 hs src offS nS)⟩,
            ⟨⟨2, ![E, 1]⟩, broadcastInDim ⟨2, ![E, 1]⟩ ![0] hb (wrapT hb0 e0 hs dst offD nDst)⟩]
          hcat)
        (extractStridedSlice ⟨1, ![E]⟩ ![e0] w hs) (ix2 i j)
      = selMat (locIx src e0 h offS nS) (locIx dst e0 h offD nDst) (at1 w e0 h) i j := by
  rw [pairScatAdd_apply, zeroSplat_apply, zero_add]
  have h1 : (fun e : Fin E => wrapT hb0 e0 hs src offS nS (ix1 e)) = locIx src e0 h offS nS :=
    funext fun e => wrapT_apply hb0 e0 hs h src offS nS e
  have h2 : (fun e : Fin E => wrapT hb0 e0 hs dst offD nDst (ix1 e)) = locIx dst e0 h offD nDst :=
    funext fun e => wrapT_apply hb0 e0 hs h dst offD nDst e
  have h3 : (fun e : Fin E => extractStridedSlice ⟨1, ![E]⟩ ![e0] w hs (ix1 e)) = at1 w e0 h :=
    funext fun e => slice1_apply e0 hs h w e
  rw [h1, h2, h3]

/-! ## The launch arrays are never written -/

theorem nowrite_arg1 : ∀ op ∈ (hostOps0 : List (HloOp τ sig (Elt Ideal))), Proc.devRef .tc main_arg1 ∉ op.writes :=
  List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide))
theorem nowrite_arg2 : ∀ op ∈ (hostOps0 : List (HloOp τ sig (Elt Ideal))), Proc.devRef .tc main_arg2 ∉ op.writes :=
  List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide))
theorem nowrite_arg3 : ∀ op ∈ (hostOps0 : List (HloOp τ sig (Elt Ideal))), Proc.devRef .tc main_arg3 ∉ op.writes :=
  List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide))

/-! ## The operations cut at a layer: those before it, its first twenty-five (the vectors of local words, the zeros, the
    block of weights), and the rest (the pairing, the scatter, and the later layers) -/

theorem V_split (o : ℕ) (c : Dev nD) (b : Ref sig .tc) :
    V m c b = StableHlo.after (List.drop 25 (List.drop o (hostOps0 : List (HloOp τ sig (Elt Ideal)))))
      (StableHlo.after (List.take 25 (List.drop o hostOps0))
        (StableHlo.after (List.take o hostOps0) (fun b => m (c, b)))) (Proc.devRef .tc b) := by
  show StableHlo.after hostOps0 _ _ = _
  rw [← StableHlo.after_append, ← StableHlo.after_append, List.take_append_drop, List.take_append_drop]

theorem pre_arg1 (o : ℕ) (c : Dev nD) :
    StableHlo.after (List.take o (hostOps0 : List (HloOp τ sig (Elt Ideal)))) (fun b => m (c, b)) (Proc.devRef .tc main_arg1)
      = m (c, Proc.devRef .tc main_arg1) :=
  StableHlo.after_of_forall_not_mem _ _ fun op hop => nowrite_arg1 op (List.mem_of_mem_take hop)
theorem pre_arg2 (o : ℕ) (c : Dev nD) :
    StableHlo.after (List.take o (hostOps0 : List (HloOp τ sig (Elt Ideal)))) (fun b => m (c, b)) (Proc.devRef .tc main_arg2)
      = m (c, Proc.devRef .tc main_arg2) :=
  StableHlo.after_of_forall_not_mem _ _ fun op hop => nowrite_arg2 op (List.mem_of_mem_take hop)
theorem pre_arg3 (o : ℕ) (c : Dev nD) :
    StableHlo.after (List.take o (hostOps0 : List (HloOp τ sig (Elt Ideal)))) (fun b => m (c, b)) (Proc.devRef .tc main_arg3)
      = m (c, Proc.devRef .tc main_arg3) :=
  StableHlo.after_of_forall_not_mem _ _ fun op hop => nowrite_arg3 op (List.mem_of_mem_take hop)

/-! ## Layer 1 -/

set_option maxRecDepth 8192 in
set_option maxHeartbeats 2000000 in
theorem A1_s (W : Valuation τ sig (Elt Ideal)) :
    (StableHlo.after (List.take 25 (List.drop 0 (hostOps0 : List (HloOp τ sig (Elt Ideal))))) W (Proc.devRef .tc main_v12) : S16384.Idx → BitVec 32)
      = wrapT Facts₀.bcast_S_S16384 0 Facts₀.slices_S67584_S16384_0 (W (Proc.devRef .tc main_arg2)) 0#32 256#32 := by
  dsimp only [Gen.hostOps0, List.drop, List.take]
  after_results_simp <;> rfl
set_option maxRecDepth 8192 in
set_option maxHeartbeats 2000000 in
theorem A1_d (W : Valuation τ sig (Elt Ideal)) :
    (StableHlo.after (List.take 25 (List.drop 0 (hostOps0 : List (HloOp τ sig (Elt Ideal))))) W (Proc.devRef .tc main_v17) : S16384.Idx → BitVec 32)
      = wrapT Facts₀.bcast_S_S16384 0 Facts₀.slices_S67584_S16384_0 (W (Proc.devRef .tc main_arg3)) 256#32 512#32 := by
  dsimp only [Gen.hostOps0, List.drop, List.take]
  after_results_simp <;> rfl
set_option maxRecDepth 8192 in
set_option maxHeartbeats 2000000 in
theorem A1_z (W : Valuation τ sig (Elt Ideal)) :
    (StableHlo.after (List.take 25 (List.drop 0 (hostOps0 : List (HloOp τ sig (Elt Ideal))))) W (Proc.devRef .tc main_v7) : S256x512.Idx → EReal)
      = broadcastInDim S256x512 ![] Facts₀.bcast_S_S256x512 (constant (F := Ideal) S_ .f32 0x00000000#32) := by
  dsimp only [Gen.hostOps0, List.drop, List.take]
  after_results_simp <;> rfl
set_option maxRecDepth 8192 in
set_option maxHeartbeats 2000000 in
theorem A1_w (W : Valuation τ sig (Elt Ideal)) :
    (StableHlo.after (List.take 25 (List.drop 0 (hostOps0 : List (HloOp τ sig (Elt Ideal))))) W (Proc.devRef .tc main_v6) : S16384.Idx → EReal)
      = extractStridedSlice S16384 ![0] (W (Proc.devRef .tc main_arg1)) Facts₀.slices_S67584_S16384_0 := by
  dsimp only [Gen.hostOps0, List.drop, List.take]
  after_results_simp <;> rfl
set_option maxRecDepth 8192 in
set_option maxHeartbeats 2000000 in
theorem B1 (W : Valuation τ sig (Elt Ideal)) :
    (StableHlo.after (List.drop 25 (List.drop 0 (hostOps0 : List (HloOp τ sig (Elt Ideal))))) W (Proc.devRef .tc main_v21) : S256x512.Idx → EReal)
      = (Host.scatterAdd (F := Ideal) (φ := .f32) scatter_S256x512_S16384x2_S16384_n_01_01_1 (W (Proc.devRef .tc main_v7))
          (concatenate S16384x2 1
            [⟨S16384x1, broadcastInDim S16384x1 ![0] Facts₀.bcast_S16384_S16384x1_0 (W (Proc.devRef .tc main_v12) : S16384.Idx → BitVec 32)⟩,
              ⟨S16384x1, broadcastInDim S16384x1 ![0] Facts₀.bcast_S16384_S16384x1_0 (W (Proc.devRef .tc main_v17) : S16384.Idx → BitVec 32)⟩]
            Facts₀.concatenates_S16384x1_S16384x1_S16384x2_d1)
          (W (Proc.devRef .tc main_v6)) : S256x512.Idx → EReal) := by
  dsimp only [Gen.hostOps0, List.drop, List.take]
  after_results_simp
  repeat (first | rw [StableHlo.unary_result] | (rw [StableHlo.unary_result_ne]; rotate_left; decide))

/-! ## Layer 2 -/

set_option maxRecDepth 8192 in
set_option maxHeartbeats 2000000 in
theorem A2_s (W : Valuation τ sig (Elt Ideal)) :
    (StableHlo.after (List.take 25 (List.drop 29 (hostOps0 : List (HloOp τ sig (Elt Ideal))))) W (Proc.devRef .tc main_v34) : S16384.Idx → BitVec 32)
      = wrapT Facts₀.bcast_S_S16384 16384 Facts₀.slices_S67584_S16384_16384 (W (Proc.devRef .tc main_arg2)) 256#32 512#32 := by
  dsimp only [Gen.hostOps0, List.drop, List.take]
  after_results_simp <;> rfl
set_option maxRecDepth 8192 in
set_option maxHeartbeats 2000000 in
theorem A2_d (W : Valuation τ sig (Elt Ideal)) :
    (StableHlo.after (List.take 25 (List.drop 29 (hostOps0 : List (HloOp τ sig (Elt Ideal))))) W (Proc.devRef .tc main_v39) : S16384.Idx → BitVec 32)
      = wrapT Facts₀.bcast_S_S16384 16384 Facts₀.slices_S67584_S16384_16384 (W (Proc.devRef .tc main_arg3)) 768#32 512#32 := by
  dsimp only [Gen.hostOps0, List.drop, List.take]
  after_results_simp <;> rfl
set_option maxRecDepth 8192 in
set_option maxHeartbeats 2000000 in
theorem A2_z (W : Valuation τ sig (Elt Ideal)) :
    (StableHlo.after (List.take 25 (List.drop 29 (hostOps0 : List (HloOp τ sig (Elt Ideal))))) W (Proc.devRef .tc main_v29) : S512x512.Idx → EReal)
      = broadcastInDim S512x512 ![] Facts₀.bcast_S_S512x512 (constant (F := Ideal) S_ .f32 0x00000000#32) := by
  dsimp only [Gen.hostOps0, List.drop, List.take]
  after_results_simp <;> rfl
set_option maxRecDepth 8192 in
set_option maxHeartbeats 2000000 in
theorem A2_w (W : Valuation τ sig (Elt Ideal)) :
    (StableHlo.after (List.take 25 (List.drop 29 (hostOps0 : List (HloOp τ sig (Elt Ideal))))) W (Proc.devRef .tc main_v28) : S16384.Idx → EReal)
      = extractStridedSlice S16384 ![16384] (W (Proc.devRef .tc main_arg1)) Facts₀.slices_S67584_S16384_16384 := by
  dsimp only [Gen.hostOps0, List.drop, List.take]
  after_results_simp <;> rfl
set_option maxRecDepth 8192 in
set_option maxHeartbeats 2000000 in
theorem B2 (W : Valuation τ sig (Elt Ideal)) :
    (StableHlo.after (List.drop 25 (List.drop 29 (hostOps0 : List (HloOp τ sig (Elt Ideal))))) W (Proc.devRef .tc main_v43) : S512x512.Idx → EReal)
      = (Host.scatterAdd (F := Ideal) (φ := .f32) scatter_S512x512_S16384x2_S16384_n_01_01_1 (W (Proc.devRef .tc main_v29))
          (concatenate S16384x2 1
            [⟨S16384x1, broadcastInDim S16384x1 ![0] Facts₀.bcast_S16384_S16384x1_0 (W (Proc.devRef .tc main_v34) : S16384.Idx → BitVec 32)⟩,
              ⟨S16384x1, broadcastInDim S16384x1 ![0] Facts₀.bcast_S16384_S16384x1_0 (W (Proc.devRef .tc main_v39) : S16384.Idx → BitVec 32)⟩]
            Facts₀.concatenates_S16384x1_S16384x1_S16384x2_d1)
          (W (Proc.devRef .tc main_v28)) : S512x512.Idx → EReal) := by
  dsimp only [Gen.hostOps0, List.drop, List.take]
  after_results_simp
  repeat (first | rw [StableHlo.unary_result] | (rw [StableHlo.unary_result_ne]; rotate_left; decide))

/-! ## Layer 3 -/

set_option maxRecDepth 8192 in
set_option maxHeartbeats 2000000 in
theorem A3_s (W : Valuation τ sig (Elt Ideal)) :
    (StableHlo.after (List.take 25 (List.drop 58 (hostOps0 : List (HloOp τ sig (Elt Ideal))))) W (Proc.devRef .tc main_v56) : S16384.Idx → BitVec 32)
      = wrapT Facts₀.bcast_S_S16384 32768 Facts₀.slices_S67584_S16384_32768 (W (Proc.devRef .tc main_arg2)) 768#32 512#32 := by
  dsimp only [Gen.hostOps0, List.drop, List.take]
  after_results_simp <;> rfl
set_option maxRecDepth 8192 in
set_option maxHeartbeats 2000000 in
theorem A3_d (W : Valuation τ sig (Elt Ideal)) :
    (StableHlo.after (List.take 25 (List.drop 58 (hostOps0 : List (HloOp τ sig (Elt Ideal))))) W (Proc.devRef .tc main_v61) : S16384.Idx → BitVec 32)
      = wrapT Facts₀.bcast_S_S16384 32768 Facts₀.slices_S67584_S16384_32768 (W (Proc.devRef .tc main_arg3)) 1280#32 512#32 := by
  dsimp only [Gen.hostOps0, List.drop, List.take]
  after_results_simp <;> rfl
set_option maxRecDepth 8192 in
set_option maxHeartbeats 2000000 in
theorem A3_z (W : Valuation τ sig (Elt Ideal)) :
    (StableHlo.after (List.take 25 (List.drop 58 (hostOps0 : List (HloOp τ sig (Elt Ideal))))) W (Proc.devRef .tc main_v51) : S512x512.Idx → EReal)
      = broadcastInDim S512x512 ![] Facts₀.bcast_S_S512x512 (constant (F := Ideal) S_ .f32 0x00000000#32) := by
  dsimp only [Gen.hostOps0, List.drop, List.take]
  after_results_simp <;> rfl
set_option maxRecDepth 8192 in
set_option maxHeartbeats 2000000 in
theorem A3_w (W : Valuation τ sig (Elt Ideal)) :
    (StableHlo.after (List.take 25 (List.drop 58 (hostOps0 : List (HloOp τ sig (Elt Ideal))))) W (Proc.devRef .tc main_v50) : S16384.Idx → EReal)
      = extractStridedSlice S16384 ![32768] (W (Proc.devRef .tc main_arg1)) Facts₀.slices_S67584_S16384_32768 := by
  dsimp only [Gen.hostOps0, List.drop, List.take]
  after_results_simp <;> rfl
set_option maxRecDepth 8192 in
set_option maxHeartbeats 2000000 in
theorem B3 (W : Valuation τ sig (Elt Ideal)) :
    (StableHlo.after (List.drop 25 (List.drop 58 (hostOps0 : List (HloOp τ sig (Elt Ideal))))) W (Proc.devRef .tc main_v65) : S512x512.Idx → EReal)
      = (Host.scatterAdd (F := Ideal) (φ := .f32) scatter_S512x512_S16384x2_S16384_n_01_01_1 (W (Proc.devRef .tc main_v51))
          (concatenate S16384x2 1
            [⟨S16384x1, broadcastInDim S16384x1 ![0] Facts₀.bcast_S16384_S16384x1_0 (W (Proc.devRef .tc main_v56) : S16384.Idx → BitVec 32)⟩,
              ⟨S16384x1, broadcastInDim S16384x1 ![0] Facts₀.bcast_S16384_S16384x1_0 (W (Proc.devRef .tc main_v61) : S16384.Idx → BitVec 32)⟩]
            Facts₀.concatenates_S16384x1_S16384x1_S16384x2_d1)
          (W (Proc.devRef .tc main_v50)) : S512x512.Idx → EReal) := by
  dsimp only [Gen.hostOps0, List.drop, List.take]
  after_results_simp
  repeat (first | rw [StableHlo.unary_result] | (rw [StableHlo.unary_result_ne]; rotate_left; decide))

/-! ## Layer 4 -/

set_option maxRecDepth 8192 in
set_option maxHeartbeats 2000000 in
theorem A4_s (W : Valuation τ sig (Elt Ideal)) :
    (StableHlo.after (List.take 25 (List.drop 87 (hostOps0 : List (HloOp τ sig (Elt Ideal))))) W (Proc.devRef .tc main_v78) : S16384.Idx → BitVec 32)
      = wrapT Facts₀.bcast_S_S16384 49152 Facts₀.slices_S67584_S16384_49152 (W (Proc.devRef .tc main_arg2)) 1280#32 512#32 := by
  dsimp only [Gen.hostOps0, List.drop, List.take]
  after_results_simp <;> rfl
set_option maxRecDepth 8192 in
set_option maxHeartbeats 2000000 in
theorem A4_d (W : Valuation τ sig (Elt Ideal)) :
    (StableHlo.after (List.take 25 (List.drop 87 (hostOps0 : List (HloOp τ sig (Elt Ideal))))) W (Proc.devRef .tc main_v83) : S16384.Idx → BitVec 32)
      = wrapT Facts₀.bcast_S_S16384 49152 Facts₀.slices_S67584_S16384_49152 (W (Proc.devRef .tc main_arg3)) 1792#32 512#32 := by
  dsimp only [Gen.hostOps0, List.drop, List.take]
  after_results_simp <;> rfl
set_option maxRecDepth 8192 in
set_option maxHeartbeats 2000000 in
theorem A4_z (W : Valuation τ sig (Elt Ideal)) :
    (StableHlo.after (List.take 25 (List.drop 87 (hostOps0 : List (HloOp τ sig (Elt Ideal))))) W (Proc.devRef .tc main_v73) : S512x512.Idx → EReal)
      = broadcastInDim S512x512 ![] Facts₀.bcast_S_S512x512 (constant (F := Ideal) S_ .f32 0x00000000#32) := by
  dsimp only [Gen.hostOps0, List.drop, List.take]
  after_results_simp <;> rfl
set_option maxRecDepth 8192 in
set_option maxHeartbeats 2000000 in
theorem A4_w (W : Valuation τ sig (Elt Ideal)) :
    (StableHlo.after (List.take 25 (List.drop 87 (hostOps0 : List (HloOp τ sig (Elt Ideal))))) W (Proc.devRef .tc main_v72) : S16384.Idx → EReal)
      = extractStridedSlice S16384 ![49152] (W (Proc.devRef .tc main_arg1)) Facts₀.slices_S67584_S16384_49152 := by
  dsimp only [Gen.hostOps0, List.drop, List.take]
  after_results_simp <;> rfl
set_option maxRecDepth 8192 in
set_option maxHeartbeats 2000000 in
theorem B4 (W : Valuation τ sig (Elt Ideal)) :
    (StableHlo.after (List.drop 25 (List.drop 87 (hostOps0 : List (HloOp τ sig (Elt Ideal))))) W (Proc.devRef .tc main_v87) : S512x512.Idx → EReal)
      = (Host.scatterAdd (F := Ideal) (φ := .f32) scatter_S512x512_S16384x2_S16384_n_01_01_1 (W (Proc.devRef .tc main_v73))
          (concatenate S16384x2 1
            [⟨S16384x1, broadcastInDim S16384x1 ![0] Facts₀.bcast_S16384_S16384x1_0 (W (Proc.devRef .tc main_v78) : S16384.Idx → BitVec 32)⟩,
              ⟨S16384x1, broadcastInDim S16384x1 ![0] Facts₀.bcast_S16384_S16384x1_0 (W (Proc.devRef .tc main_v83) : S16384.Idx → BitVec 32)⟩]
            Facts₀.concatenates_S16384x1_S16384x1_S16384x2_d1)
          (W (Proc.devRef .tc main_v72)) : S512x512.Idx → EReal) := by
  dsimp only [Gen.hostOps0, List.drop, List.take]
  after_results_simp
  repeat (first | rw [StableHlo.unary_result] | (rw [StableHlo.unary_result_ne]; rotate_left; decide))

/-! ## Layer 5 -/

set_option maxRecDepth 8192 in
set_option maxHeartbeats 2000000 in
theorem A5_s (W : Valuation τ sig (Elt Ideal)) :
    (StableHlo.after (List.take 25 (List.drop 116 (hostOps0 : List (HloOp τ sig (Elt Ideal))))) W (Proc.devRef .tc main_v100) : S2048.Idx → BitVec 32)
      = wrapT Facts₀.bcast_S_S2048 65536 Facts₀.slices_S67584_S2048_65536 (W (Proc.devRef .tc main_arg2)) 1792#32 512#32 := by
  dsimp only [Gen.hostOps0, List.drop, List.take]
  after_results_simp <;> rfl
set_option maxRecDepth 8192 in
set_option maxHeartbeats 2000000 in
theorem A5_d (W : Valuation τ sig (Elt Ideal)) :
    (StableHlo.after (List.take 25 (List.drop 116 (hostOps0 : List (HloOp τ sig (Elt Ideal))))) W (Proc.devRef .tc main_v105) : S2048.Idx → BitVec 32)
      = wrapT Facts₀.bcast_S_S2048 65536 Facts₀.slices_S67584_S2048_65536 (W (Proc.devRef .tc main_arg3)) 2304#32 64#32 := by
  dsimp only [Gen.hostOps0, List.drop, List.take]
  after_results_simp <;> rfl
set_option maxRecDepth 8192 in
set_option maxHeartbeats 2000000 in
theorem A5_z (W : Valuation τ sig (Elt Ideal)) :
    (StableHlo.after (List.take 25 (List.drop 116 (hostOps0 : List (HloOp τ sig (Elt Ideal))))) W (Proc.devRef .tc main_v95) : S512x64.Idx → EReal)
      = broadcastInDim S512x64 ![] Facts₀.bcast_S_S512x64 (constant (F := Ideal) S_ .f32 0x00000000#32) := by
  dsimp only [Gen.hostOps0, List.drop, List.take]
  after_results_simp <;> rfl
set_option maxRecDepth 8192 in
set_option maxHeartbeats 2000000 in
theorem A5_w (W : Valuation τ sig (Elt Ideal)) :
    (StableHlo.after (List.take 25 (List.drop 116 (hostOps0 : List (HloOp τ sig (Elt Ideal))))) W (Proc.devRef .tc main_v94) : S2048.Idx → EReal)
      = extractStridedSlice S2048 ![65536] (W (Proc.devRef .tc main_arg1)) Facts₀.slices_S67584_S2048_65536 := by
  dsimp only [Gen.hostOps0, List.drop, List.take]
  after_results_simp <;> rfl
set_option maxRecDepth 8192 in
set_option maxHeartbeats 2000000 in
theorem B5 (W : Valuation τ sig (Elt Ideal)) :
    (StableHlo.after (List.drop 25 (List.drop 116 (hostOps0 : List (HloOp τ sig (Elt Ideal))))) W (Proc.devRef .tc main_v109) : S512x64.Idx → EReal)
      = (Host.scatterAdd (F := Ideal) (φ := .f32) scatter_S512x64_S2048x2_S2048_n_01_01_1 (W (Proc.devRef .tc main_v95))
          (concatenate S2048x2 1
            [⟨S2048x1, broadcastInDim S2048x1 ![0] Facts₀.bcast_S2048_S2048x1_0 (W (Proc.devRef .tc main_v100) : S2048.Idx → BitVec 32)⟩,
              ⟨S2048x1, broadcastInDim S2048x1 ![0] Facts₀.bcast_S2048_S2048x1_0 (W (Proc.devRef .tc main_v105) : S2048.Idx → BitVec 32)⟩]
            Facts₀.concatenates_S2048x1_S2048x1_S2048x2_d1)
          (W (Proc.devRef .tc main_v94)) : S512x64.Idx → EReal) := by
  dsimp only [Gen.hostOps0, List.drop, List.take]
  after_results_simp
  repeat (first | rw [StableHlo.unary_result] | (rw [StableHlo.unary_result_ne]; rotate_left; decide))

end KHost

open KHost

/-! ## The five matrices -/

theorem S1_host (c : Dev nD) (i : Fin 256) (j : Fin 512) :
    (V m c main_v21 : S256x512.Idx → EReal) (ix2 i j) = S1 (Warr m c) (SRCarr m c) (DSTarr m c) i j := by
  rw [V_split m 0 c main_v21, B1, A1_s, A1_d, A1_z, A1_w, pre_arg1, pre_arg2, pre_arg3]
  exact layer_apply (R := 256) (C := 512) (E := 16384) 0 hE1 Facts₀.scatter_S256x512_S16384x2_S16384_n_01_01_1_wf
    Facts₀.bcast_S16384_S16384x1_0 Facts₀.concatenates_S16384x1_S16384x1_S16384x2_d1 Facts₀.bcast_S_S16384 Facts₀.bcast_S_S256x512
    Facts₀.slices_S67584_S16384_0 (Warr m c) (SRCarr m c) (DSTarr m c) 0#32 256#32 256#32 512#32 i j
theorem S2_host (c : Dev nD) (i : Fin 512) (j : Fin 512) :
    (V m c main_v43 : S512x512.Idx → EReal) (ix2 i j) = S2 (Warr m c) (SRCarr m c) (DSTarr m c) i j := by
  rw [V_split m 29 c main_v43, B2, A2_s, A2_d, A2_z, A2_w, pre_arg1, pre_arg2, pre_arg3]
  exact layer_apply (R := 512) (C := 512) (E := 16384) 16384 hE2 Facts₀.scatter_S512x512_S16384x2_S16384_n_01_01_1_wf
    Facts₀.bcast_S16384_S16384x1_0 Facts₀.concatenates_S16384x1_S16384x1_S16384x2_d1 Facts₀.bcast_S_S16384 Facts₀.bcast_S_S512x512
    Facts₀.slices_S67584_S16384_16384 (Warr m c) (SRCarr m c) (DSTarr m c) 256#32 512#32 768#32 512#32 i j
theorem S3_host (c : Dev nD) (i : Fin 512) (j : Fin 512) :
    (V m c main_v65 : S512x512.Idx → EReal) (ix2 i j) = S3 (Warr m c) (SRCarr m c) (DSTarr m c) i j := by
  rw [V_split m 58 c main_v65, B3, A3_s, A3_d, A3_z, A3_w, pre_arg1, pre_arg2, pre_arg3]
  exact layer_apply (R := 512) (C := 512) (E := 16384) 32768 hE3 Facts₀.scatter_S512x512_S16384x2_S16384_n_01_01_1_wf
    Facts₀.bcast_S16384_S16384x1_0 Facts₀.concatenates_S16384x1_S16384x1_S16384x2_d1 Facts₀.bcast_S_S16384 Facts₀.bcast_S_S512x512
    Facts₀.slices_S67584_S16384_32768 (Warr m c) (SRCarr m c) (DSTarr m c) 768#32 512#32 1280#32 512#32 i j
theorem S4_host (c : Dev nD) (i : Fin 512) (j : Fin 512) :
    (V m c main_v87 : S512x512.Idx → EReal) (ix2 i j) = S4 (Warr m c) (SRCarr m c) (DSTarr m c) i j := by
  rw [V_split m 87 c main_v87, B4, A4_s, A4_d, A4_z, A4_w, pre_arg1, pre_arg2, pre_arg3]
  exact layer_apply (R := 512) (C := 512) (E := 16384) 49152 hE4 Facts₀.scatter_S512x512_S16384x2_S16384_n_01_01_1_wf
    Facts₀.bcast_S16384_S16384x1_0 Facts₀.concatenates_S16384x1_S16384x1_S16384x2_d1 Facts₀.bcast_S_S16384 Facts₀.bcast_S_S512x512
    Facts₀.slices_S67584_S16384_49152 (Warr m c) (SRCarr m c) (DSTarr m c) 1280#32 512#32 1792#32 512#32 i j
theorem S5_host (c : Dev nD) (i : Fin 512) (j : Fin 64) :
    (V m c main_v109 : S512x64.Idx → EReal) (ix2 i j) = S5 (Warr m c) (SRCarr m c) (DSTarr m c) i j := by
  rw [V_split m 116 c main_v109, B5, A5_s, A5_d, A5_z, A5_w, pre_arg1, pre_arg2, pre_arg3]
  exact layer_apply (R := 512) (C := 64) (E := 2048) 65536 hE5 Facts₀.scatter_S512x64_S2048x2_S2048_n_01_01_1_wf
    Facts₀.bcast_S2048_S2048x1_0 Facts₀.concatenates_S2048x1_S2048x1_S2048x2_d1 Facts₀.bcast_S_S2048 Facts₀.bcast_S_S512x64
    Facts₀.slices_S67584_S2048_65536 (Warr m c) (SRCarr m c) (DSTarr m c) 1792#32 512#32 2304#32 64#32 i j

end Cert.Neat

end
-- ==== Proof.LibScatterSet.lean ====
/-
  A scatter whose body keeps the update ("replace"), read at one index.

  The scatter is a left fold over the update indices; an update index `j` lands at `resultIdx? j` or nowhere. If exactly
  one update index lands on `i`, the result at `i` is that update; if none does, it is the operand's entry.
  The special case used here: a block of `C'` columns written into columns `[off, off + C')` of an `R × C` array.
-/
import Idealize.ShloMosaic.PureOps
import Idealize.ShloMosaic.Lib.ValueIdx

noncomputable section

namespace Cert.Neat

open Idealize.ShloMosaic Idealize.ShloMosaic.ValueIdx

/-- The fold over an arbitrary list of update numbers, read at `i`, when no member of the list lands on `i`: the entry
    at `i` is never replaced. -/
private theorem foldl_replace_miss {α : Type} {s si u : Shape} {w : ℕ} (d : ScatterDims s si u) (idx : IVec si w)
    (upd : u.Idx → α) (i : s.Idx) (x : s.Idx → α) (l : List (Fin u.numel))
    (h : ∀ n ∈ l, d.resultIdx? (u.rowMajor.symm n) idx ≠ some i) :
    l.foldl (fun r n =>
      match d.resultIdx? (u.rowMajor.symm n) idx with
      | some i0 => fun i' => if i' = i0 then (fun (_ : α) (v : α) => v) (r i0) (upd (u.rowMajor.symm n)) else r i'
      | none => r) x i = x i := by
  induction l using List.reverseRecOn with
  | nil => rfl
  | append_singleton l n ih =>
    rw [List.foldl_append, List.foldl_cons, List.foldl_nil]
    have hn := h n (by simp)
    have ih' := ih (fun m hm => h m (by simp [hm]))
    generalize d.resultIdx? (u.rowMajor.symm n) idx = o at hn ⊢
    cases o with
    | none => exact ih'
    | some i0 =>
      have hne : i ≠ i0 := fun e => hn (e ▸ rfl)
      show (if i = i0 then _ else _) = _
      rw [if_neg hne]; exact ih'

/-- The same fold when the member `n0` of the list lands on `i` and is the only member that does: after the last step
    that lands on `i` (a step of `n0`) the entry is `n0`'s update, and no later step touches it. -/
private theorem foldl_replace_hit {α : Type} {s si u : Shape} {w : ℕ} (d : ScatterDims s si u) (idx : IVec si w)
    (upd : u.Idx → α) (i : s.Idx) (x : s.Idx → α) (n0 : Fin u.numel) (l : List (Fin u.numel)) (hmem : n0 ∈ l)
    (h0 : d.resultIdx? (u.rowMajor.symm n0) idx = some i)
    (h : ∀ n ∈ l, d.resultIdx? (u.rowMajor.symm n) idx = some i → n = n0) :
    l.foldl (fun r n =>
      match d.resultIdx? (u.rowMajor.symm n) idx with
      | some i0 => fun i' => if i' = i0 then (fun (_ : α) (v : α) => v) (r i0) (upd (u.rowMajor.symm n)) else r i'
      | none => r) x i = upd (u.rowMajor.symm n0) := by
  induction l using List.reverseRecOn with
  | nil => exact absurd hmem (List.not_mem_nil)
  | append_singleton l n ih =>
    rw [List.foldl_append, List.foldl_cons, List.foldl_nil]
    by_cases hn : d.resultIdx? (u.rowMajor.symm n) idx = some i
    · have hnn : n = n0 := h n (by simp) hn
      subst hnn
      rw [hn]
      show (if i = i then _ else _) = _
      rw [if_pos rfl]
    · have hne : n0 ≠ n := fun e => hn (e ▸ h0)
      have hmem' : n0 ∈ l := by
        rcases List.mem_append.1 hmem with hm | hm
        · exact hm
        · exact absurd (List.mem_singleton.1 hm) hne
      have ih' := ih hmem' (fun m hm => h m (by simp [hm]))
      generalize d.resultIdx? (u.rowMajor.symm n) idx = o at hn ⊢
      cases o with
      | none => exact ih'
      | some i0 =>
        have hne' : i ≠ i0 := fun e => hn (e ▸ rfl)
        show (if i = i0 then _ else _) = _
        rw [if_neg hne']; exact ih'

/-- The one update index that lands on `i` decides the result there. -/
theorem scatter_replace_hit {α : Type} {s si u : Shape} {w : ℕ} (d : ScatterDims s si u) (x : s.Idx → α) (idx : IVec si w)
    (upd : u.Idx → α) (j : u.Idx) (i : s.Idx) (hj : d.resultIdx? j idx = some i)
    (huniq : ∀ j', d.resultIdx? j' idx = some i → j' = j) :
    Host.scatter d (fun _ v => v) x idx upd i = upd j := by
  have h0 : d.resultIdx? (u.rowMajor.symm (u.rowMajor j)) idx = some i := by rw [Equiv.symm_apply_apply]; exact hj
  have key := foldl_replace_hit d idx upd i x (u.rowMajor j) (List.finRange u.numel) (List.mem_finRange _) h0
    (fun n _ hn => by
      have := huniq _ hn
      rw [← this, Equiv.apply_symm_apply])
  rw [Equiv.symm_apply_apply] at key
  exact key

/-- Where no update index lands, the operand's entry stays. -/
theorem scatter_replace_miss {α : Type} {s si u : Shape} {w : ℕ} (d : ScatterDims s si u) (x : s.Idx → α) (idx : IVec si w)
    (upd : u.Idx → α) (i : s.Idx) (h : ∀ j, d.resultIdx? j idx ≠ some i) :
    Host.scatter d (fun _ v => v) x idx upd i = x i :=
  foldl_replace_miss d idx upd i x (List.finRange u.numel) (fun n _ => h _)

/-- The dimension numbers of "write an `R × C'` block at column `idx[0]` of an `R × C` array": both update axes are
    window axes, the one scatter index is the start on axis 1. -/
abbrev colSetDims (R C C' : ℕ) (wf : ScatterDims.WF ⟨2, ![R, C]⟩ ⟨1, ![1]⟩ ⟨2, ![R, C']⟩ [0, 1] [] [1] 0) :
    ScatterDims ⟨2, ![R, C]⟩ ⟨1, ![1]⟩ ⟨2, ![R, C']⟩ where
  updateWindowDims := [0, 1]
  insertedWindowDims := []
  scatterDimsToOperandDims := [1]
  indexVectorDim := 0
  wf := wf

/-- Update index `(b, j)` lands at `(b, off + j)`. -/
theorem colSet_resultIdx {R C C' w : ℕ} (wf : ScatterDims.WF ⟨2, ![R, C]⟩ ⟨1, ![1]⟩ ⟨2, ![R, C']⟩ [0, 1] [] [1] 0)
    (idx : IVec ⟨1, ![1]⟩ w) (off : ℕ) (hidx : (idx (ix1 (0 : Fin 1))).toInt = (off : ℤ)) (hfit : off + C' ≤ C)
    (b : Fin R) (j : Fin C') :
    (colSetDims R C C' wf).resultIdx? (ix2 b j) idx = some (ix2 b ⟨off + j.val, by have := j.isLt; omega⟩) := by
  -- axis 0 is not named by the map: its start is 0
  have hs0 : ∀ h, (colSetDims R C C' wf).start (ix2 b j) idx ⟨0, h⟩ = 0 := by
    intro h
    unfold ScatterDims.start
    rw [dif_neg (fun hm => Nat.zero_ne_one (congrArg Fin.val (List.mem_singleton.1 hm)))]
  -- axis 1 is the map's component 0, read at the one scatter index
  have hs1 : ∀ h, (colSetDims R C C' wf).start (ix2 b j) idx ⟨1, h⟩ = (off : ℤ) := by
    intro h
    unfold ScatterDims.start
    have hm : (⟨1, h⟩ : Fin 2) ∈ (colSetDims R C C' wf).scatterDimsToOperandDims := List.mem_singleton.mpr rfl
    rw [dif_pos hm]
    have hsi : (colSetDims R C C' wf).siIdx (ix2 b j)
        ⟨List.idxOf (⟨1, h⟩ : Fin 2) (colSetDims R C C' wf).scatterDimsToOperandDims, List.idxOf_lt_length_iff.2 hm⟩
        = ix1 (0 : Fin 1) := by
      funext a; refine Fin.ext ?_
      match a with
      | ⟨0, _⟩ => rfl
    rw [hsi]; exact hidx
  -- both operand axes are kept, and the window axes go to them in order
  have hw0 : ∀ h, (colSetDims R C C' wf).window (ix2 b j) ⟨0, h⟩ = b.val := by
    intro h
    have hm : (⟨0, h⟩ : Fin 2) ∈ (colSetDims R C C' wf).sKept :=
      List.mem_filter.2 ⟨List.mem_finRange _, decide_eq_true List.not_mem_nil⟩
    unfold ScatterDims.window
    rw [dif_pos hm]
    rfl
  have hw1 : ∀ h, (colSetDims R C C' wf).window (ix2 b j) ⟨1, h⟩ = j.val := by
    intro h
    have hm : (⟨1, h⟩ : Fin 2) ∈ (colSetDims R C C' wf).sKept :=
      List.mem_filter.2 ⟨List.mem_finRange _, decide_eq_true List.not_mem_nil⟩
    unfold ScatterDims.window
    rw [dif_pos hm]
    rfl
  have hb := b.isLt
  have hjl := j.isLt
  have hall : ∀ a, 0 ≤ (colSetDims R C C' wf).start (ix2 b j) idx a + (colSetDims R C C' wf).window (ix2 b j) a ∧
      (colSetDims R C C' wf).start (ix2 b j) idx a + (colSetDims R C C' wf).window (ix2 b j) a
        < (⟨2, ![R, C]⟩ : Shape).size a := by
    intro a
    match a with
    | ⟨0, h⟩ =>
      rw [hs0 h, hw0 h]
      show (0 : ℤ) ≤ 0 + (b.val : ℤ) ∧ (0 : ℤ) + (b.val : ℤ) < (R : ℤ)
      omega
    | ⟨1, h⟩ =>
      rw [hs1 h, hw1 h]
      show (0 : ℤ) ≤ (off : ℤ) + (j.val : ℤ) ∧ (off : ℤ) + (j.val : ℤ) < (C : ℤ)
      omega
  unfold ScatterDims.resultIdx?
  rw [dif_pos hall]
  congr 1
  funext a
  refine Fin.ext ?_
  match a with
  | ⟨0, h⟩ =>
    show ((colSetDims R C C' wf).start (ix2 b j) idx ⟨0, h⟩ + (colSetDims R C C' wf).window (ix2 b j) ⟨0, h⟩).toNat = b.val
    rw [hs0 h, hw0 h]; omega
  | ⟨1, h⟩ =>
    show ((colSetDims R C C' wf).start (ix2 b j) idx ⟨1, h⟩ + (colSetDims R C C' wf).window (ix2 b j) ⟨1, h⟩).toNat = off + j.val
    rw [hs1 h, hw1 h]; omega

/-- The array after the block write: the block in columns `[off, off + C')`, the operand elsewhere. -/
theorem colSet_apply {α : Type} {R C C' w : ℕ} (wf : ScatterDims.WF ⟨2, ![R, C]⟩ ⟨1, ![1]⟩ ⟨2, ![R, C']⟩ [0, 1] [] [1] 0)
    (x : (⟨2, ![R, C]⟩ : Shape).Idx → α) (idx : IVec ⟨1, ![1]⟩ w) (off : ℕ)
    (hidx : (idx (ix1 (0 : Fin 1))).toInt = (off : ℤ)) (hfit : off + C' ≤ C)
    (upd : (⟨2, ![R, C']⟩ : Shape).Idx → α) (b : Fin R) (col : Fin C) :
    Host.scatter (colSetDims R C C' wf) (fun _ v => v) x idx upd (ix2 b col)
      = if h : off ≤ col.val ∧ col.val < off + C' then upd (ix2 b ⟨col.val - off, by omega⟩) else x (ix2 b col) := by
  by_cases hc : off ≤ col.val ∧ col.val < off + C'
  · -- column `col` is written by update `(b, col - off)` and by no other: the landing index determines the update index
    rw [dif_pos hc]
    have hlt : col.val - off < C' := by omega
    refine scatter_replace_hit (colSetDims R C C' wf) x idx upd (ix2 b ⟨col.val - off, hlt⟩) (ix2 b col) ?_ ?_
    · rw [colSet_resultIdx wf idx off hidx hfit b ⟨col.val - off, hlt⟩]
      refine congrArg some (congrArg (ix2 b) (Fin.ext ?_))
      show off + (col.val - off) = col.val
      omega
    · intro j' hj'
      obtain ⟨b', jj, rfl⟩ : ∃ b' jj, j' = ix2 b' jj := ⟨j' 0, j' 1, eq_ix2 j'⟩
      rw [colSet_resultIdx wf idx off hidx hfit b' jj] at hj'
      have he := Option.some.inj hj'
      have h0 : b' = b := congrFun he 0
      have h1 : off + jj.val = col.val := congrArg Fin.val (congrFun he 1)
      subst h0
      refine congrArg (ix2 b') (Fin.ext ?_)
      show jj.val = col.val - off
      omega
  · -- every update lands in a column of `[off, off + C')`
    rw [dif_neg hc]
    refine scatter_replace_miss (colSetDims R C C' wf) x idx upd (ix2 b col) ?_
    intro j' hj'
    obtain ⟨b', jj, rfl⟩ : ∃ b' jj, j' = ix2 b' jj := ⟨j' 0, j' 1, eq_ix2 j'⟩
    rw [colSet_resultIdx wf idx off hidx hfit b' jj] at hj'
    have he := Option.some.inj hj'
    have h1 : off + jj.val = col.val := congrArg Fin.val (congrFun he 1)
    have hjj := jj.isLt
    exact hc (by omega)

end Cert.Neat

end
-- ==== Proof.RefLayer.lean ====
/-
  One layer of the reference, as it is written into the activation buffer, read at one entry of the buffer.

  The layer gathers the source columns of the previous buffer, multiplies by the weights, accumulates by destination
  word into a zero matrix, applies `1 / (1 + exp (−·))`, and writes the result into the layer's own columns
  `[offD, offD + OUT)` of the buffer. Row `b` of the new buffer is `rowNext` of row `b` of the old one.
-/
import Idealize.ShloMosaic.PureOps
import Idealize.ShloMosaic.PureOps.Ideal
import Idealize.ShloMosaic.Lib.ValueIdx
import proofs.«401231_j7215545057312_2_alg».proof.Proof.Spec
import proofs.«401231_j7215545057312_2_alg».proof.Proof.LibDimsGather
import proofs.«401231_j7215545057312_2_alg».proof.Proof.LibDimsScatter
import proofs.«401231_j7215545057312_2_alg».proof.Proof.LibScatterSet
import proofs.«401231_j7215545057312_2_alg».proof.Proof.LayerRead

noncomputable section

namespace Cert.Neat

open Idealize.ShloMosaic Idealize.ShloMosaic.ValueIdx

/-- The layer's activations (before they are written into the buffer) at `(b, j)`: `elayer` of row `b`. -/
theorem refAct_apply {R OUT E Cb : ℕ} (hCb : 0 < Cb)
    (wfS : ScatterDims.WF ⟨2, ![R, OUT]⟩ ⟨2, ![E, 1]⟩ ⟨2, ![R, E]⟩ [0] [1] [1] 1)
    (wfG : GatherDims.WF ⟨2, ![R, Cb]⟩ ⟨2, ![E, 1]⟩ ⟨2, ![R, E]⟩ [0] [1] [] [1] [] 1 ![R, 1])
    (hb : (⟨1, ![E]⟩ : Shape).BroadcastsInDim ⟨2, ![E, 1]⟩ (![0] : Fin 1 → Fin 2))
    (hb1 : (⟨1, ![E]⟩ : Shape).BroadcastsInDim ⟨2, ![1, E]⟩ (![1] : Fin 1 → Fin 2))
    (hb2 : (⟨2, ![1, E]⟩ : Shape).BroadcastsInDim ⟨2, ![R, E]⟩ (![0, 1] : Fin 2 → Fin 2))
    (hbo : (⟨0, ![]⟩ : Shape).BroadcastsInDim ⟨2, ![R, OUT]⟩ (![] : Fin 0 → Fin 2))
    (buf : FVec Ideal ⟨2, ![R, Cb]⟩ .f32) (is id : IVec ⟨1, ![E]⟩ 32) (wl : FVec Ideal ⟨1, ![E]⟩ .f32)
    (b : Fin R) (j : Fin OUT) :
    Host.divf (broadcastInDim ⟨2, ![R, OUT]⟩ ![] hbo (constant (F := Ideal) ⟨0, ![]⟩ .f32 0x3F800000#32))
        (addf (broadcastInDim ⟨2, ![R, OUT]⟩ ![] hbo (constant (F := Ideal) ⟨0, ![]⟩ .f32 0x3F800000#32))
          (Host.exp (Host.negf (Host.scatterAdd (rowScatDims R OUT E wfS)
            (broadcastInDim ⟨2, ![R, OUT]⟩ ![] hbo (constant (F := Ideal) ⟨0, ![]⟩ .f32 0x00000000#32))
            (broadcastInDim ⟨2, ![E, 1]⟩ ![0] hb id)
            (mulf (Host.gather (colGatherDims R Cb E wfG) buf (broadcastInDim ⟨2, ![E, 1]⟩ ![0] hb is))
              (broadcastInDim ⟨2, ![R, E]⟩ ![0, 1] hb2 (broadcastInDim ⟨2, ![1, E]⟩ ![1] hb1 wl))))))) (ix2 b j)
      = elayer hCb (fun col => buf (ix2 b col)) (fun e => is (ix1 e)) (fun e => id (ix1 e)) (fun e => wl (ix1 e)) j := by
  -- the outer `1 / (1 + exp (−z))` is the logistic function of the pre-activation `z` at `(b, j)`
  rw [hostSigmoid_apply (s := ⟨2, ![R, OUT]⟩) hbo]
  -- the pre-activation is the zero matrix's entry plus the sum over the edges whose destination word is `j`
  rw [rowScatAdd_apply hCb wfS wfG hb hb1 hb2]
  rw [zeroSplat_apply (s := ⟨2, ![R, OUT]⟩) hbo, zero_add]
  -- what is left is the definition of the layer on row `b`
  rfl

/-- The buffer after the layer's activations `act` are written into columns `[offD, offD + OUT)`: entry `(b, col)`. -/
theorem refWrite_apply {R OUT : ℕ} (wfW : ScatterDims.WF ⟨2, ![R, 2368]⟩ ⟨1, ![1]⟩ ⟨2, ![R, OUT]⟩ [0, 1] [] [1] 0)
    (hb1 : (⟨0, ![]⟩ : Shape).BroadcastsInDim ⟨1, ![1]⟩ (![] : Fin 0 → Fin 1))
    (buf : FVec Ideal ⟨2, ![R, 2368]⟩ .f32) (act : FVec Ideal ⟨2, ![R, OUT]⟩ .f32) (offD : ℕ) (hoff : offD + OUT ≤ 2368)
    (b : Fin R) (col : Fin 2368) :
    Host.scatter (colSetDims R 2368 OUT wfW) (fun _ v => v) buf
        (broadcastInDim ⟨1, ![1]⟩ ![] hb1 (constantI ⟨0, ![]⟩ 32 (BitVec.ofNat 32 offD))) act (ix2 b col)
      = if h : offD ≤ col.val ∧ col.val < offD + OUT then act (ix2 b ⟨col.val - offD, by omega⟩) else buf (ix2 b col) := by
  -- the one scatter index is the splat of the word of `offD`, and `offD < 2 ^ 31` reads back as itself
  have hidx : ((broadcastInDim ⟨1, ![1]⟩ ![] hb1 (constantI ⟨0, ![]⟩ 32 (BitVec.ofNat 32 offD)) : IVec ⟨1, ![1]⟩ 32)
      (ix1 (0 : Fin 1))).toInt = (offD : ℤ) := by
    show (BitVec.ofNat 32 offD).toInt = (offD : ℤ)
    rw [BitVec.toInt_ofNat', Int.bmod_def]
    omega
  exact colSet_apply wfW buf _ offD hidx hoff act b col

end Cert.Neat

end
-- ==== Proof.RefChain.lean ====
/-
  The reference's run, read as mathematics: its result array at (b, j) is `netR` of the launch's arrays — the
  activation buffer starts as the input in columns [0, 256) of zeros; each of the first four layers writes its
  activations into its own columns; the last layer's activations are written and sliced back out.
-/
import proofs.«401231_j7215545057312_2_alg».proof.Proof.Gen.ReferenceIdeal.Run
import Idealize.ShloMosaic.Lib.ValueIdx
import proofs.«401231_j7215545057312_2_alg».proof.Proof.Spec
import proofs.«401231_j7215545057312_2_alg».proof.Proof.LibDimsGather
import proofs.«401231_j7215545057312_2_alg».proof.Proof.LibDimsScatter
import proofs.«401231_j7215545057312_2_alg».proof.Proof.LibScatterSet
import proofs.«401231_j7215545057312_2_alg».proof.Proof.LayerRead
import proofs.«401231_j7215545057312_2_alg».proof.Proof.RefLayer

noncomputable section

namespace Cert.Neat

open Idealize.ShloMosaic Idealize.ShloMosaic.ValueIdx Cert.ReferenceIdeal Cert.ReferenceIdeal.Gen Idealize.ShloMosaic.TcCoe Idealize.SL.Sem

/-- The buffer before the first layer, read at row `b`, column `col`. -/
theorem refBuf0_apply (V0 : Valuation τ sig (Elt Ideal)) (b : Fin 2048) (col : Fin 2368) :
    (Value.res_main_v2 V0 : S2048x2368.Idx → EReal) (ix2 b col) = row0 (V0 (Proc.devRef .tc main_arg0)) b col := by
  unfold Value.res_main_v2 row0
  refine (colSet_apply scatter_S2048x2368_S1_S2048x256_01_n_1_0_wf _ _ 0 (by decide) (by decide) _ b col).trans ?_
  by_cases h : col.val < 256
  · rw [dif_pos h, dif_pos (show 0 ≤ col.val ∧ col.val < 0 + 256 by omega)]
    rfl
  · rw [dif_neg h, dif_neg (show ¬ (0 ≤ col.val ∧ col.val < 0 + 256) by omega)]
    exact zeroSplat_apply _ _

/-- `elayer` depends on its row and its three edge vectors entry by entry. -/
private theorem elayer_congr {C OUT E : ℕ} (hC : 0 < C) {row row' : Fin C → EReal} {is is' id id' : Fin E → BitVec 32}
    {wl wl' : Fin E → EReal} (h1 : ∀ c, row c = row' c) (h2 : ∀ e, is e = is' e) (h3 : ∀ e, id e = id' e)
    (h4 : ∀ e, wl e = wl' e) (j : Fin OUT) :
    elayer hC row is id wl j = elayer hC row' is' id' wl' j := by
  rw [funext h1, funext h2, funext h3, funext h4]

/-- One layer of the reference on the whole activation buffer, read at row `b`, column `col`: the layer's block of the
    edge list starts at `e0`, its destination words are the node ids less `offD` wrapped into `n`, its source words the
    node ids wrapped into the 2368 columns, and its activations are written into columns `[offD, offD + OUT)`. -/
theorem refStep_apply {OUT E : ℕ} (e0 : ℕ) (hE : e0 + E ≤ 67584)
    (wfW : ScatterDims.WF ⟨2, ![2048, 2368]⟩ ⟨1, ![1]⟩ ⟨2, ![2048, OUT]⟩ [0, 1] [] [1] 0)
    (hw1 : (⟨0, ![]⟩ : Shape).BroadcastsInDim ⟨1, ![1]⟩ (![] : Fin 0 → Fin 1))
    (wfS : ScatterDims.WF ⟨2, ![2048, OUT]⟩ ⟨2, ![E, 1]⟩ ⟨2, ![2048, E]⟩ [0] [1] [1] 1)
    (wfG : GatherDims.WF ⟨2, ![2048, 2368]⟩ ⟨2, ![E, 1]⟩ ⟨2, ![2048, E]⟩ [0] [1] [] [1] [] 1 ![2048, 1])
    (hb : (⟨1, ![E]⟩ : Shape).BroadcastsInDim ⟨2, ![E, 1]⟩ (![0] : Fin 1 → Fin 2))
    (hb1 : (⟨1, ![E]⟩ : Shape).BroadcastsInDim ⟨2, ![1, E]⟩ (![1] : Fin 1 → Fin 2))
    (hb2 : (⟨2, ![1, E]⟩ : Shape).BroadcastsInDim ⟨2, ![2048, E]⟩ (![0, 1] : Fin 2 → Fin 2))
    (hbo : (⟨0, ![]⟩ : Shape).BroadcastsInDim ⟨2, ![2048, OUT]⟩ (![] : Fin 0 → Fin 2))
    (hb0 : (⟨0, ![]⟩ : Shape).BroadcastsInDim ⟨1, ![E]⟩ (![] : Fin 0 → Fin 1))
    (hs : (⟨1, ![67584]⟩ : Shape).Slices ![e0] ⟨1, ![E]⟩)
    (buf : FVec Ideal ⟨2, ![2048, 2368]⟩ .f32) (w : FVec Ideal ⟨1, ![67584]⟩ .f32) (src dst : IVec ⟨1, ![67584]⟩ 32)
    (prev : Fin 2048 → Fin 2368 → EReal) (hprev : ∀ b col, buf (ix2 b col) = prev b col)
    (offD : ℕ) (hoff : offD + OUT ≤ 2368) (n : BitVec 32) (b : Fin 2048) (col : Fin 2368) :
    Host.scatter (colSetDims 2048 2368 OUT wfW) (fun _ v => v) buf
        (broadcastInDim ⟨1, ![1]⟩ ![] hw1 (constantI ⟨0, ![]⟩ 32 (BitVec.ofNat 32 offD)))
        (Host.divf (broadcastInDim ⟨2, ![2048, OUT]⟩ ![] hbo (constant (F := Ideal) ⟨0, ![]⟩ .f32 0x3F800000#32))
          (addf (broadcastInDim ⟨2, ![2048, OUT]⟩ ![] hbo (constant (F := Ideal) ⟨0, ![]⟩ .f32 0x3F800000#32))
            (Host.exp (Host.negf (Host.scatterAdd (rowScatDims 2048 OUT E wfS)
              (broadcastInDim ⟨2, ![2048, OUT]⟩ ![] hbo (constant (F := Ideal) ⟨0, ![]⟩ .f32 0x00000000#32))
              (broadcastInDim ⟨2, ![E, 1]⟩ ![0] hb
                (select (cmpi .slt (subi (extractStridedSlice ⟨1, ![E]⟩ ![e0] dst hs) (broadcastInDim ⟨1, ![E]⟩ ![] hb0 (constantI ⟨0, ![]⟩ 32 (BitVec.ofNat 32 offD))))
                    (broadcastInDim ⟨1, ![E]⟩ ![] hb0 (constantI ⟨0, ![]⟩ 32 0#32)))
                  (addi (subi (extractStridedSlice ⟨1, ![E]⟩ ![e0] dst hs) (broadcastInDim ⟨1, ![E]⟩ ![] hb0 (constantI ⟨0, ![]⟩ 32 (BitVec.ofNat 32 offD))))
                    (broadcastInDim ⟨1, ![E]⟩ ![] hb0 (constantI ⟨0, ![]⟩ 32 n)))
                  (subi (extractStridedSlice ⟨1, ![E]⟩ ![e0] dst hs) (broadcastInDim ⟨1, ![E]⟩ ![] hb0 (constantI ⟨0, ![]⟩ 32 (BitVec.ofNat 32 offD))))))
              (mulf (Host.gather (colGatherDims 2048 2368 E wfG) buf
                  (broadcastInDim ⟨2, ![E, 1]⟩ ![0] hb
                    (select (cmpi .slt (extractStridedSlice ⟨1, ![E]⟩ ![e0] src hs) (broadcastInDim ⟨1, ![E]⟩ ![] hb0 (constantI ⟨0, ![]⟩ 32 0#32)))
                      (addi (extractStridedSlice ⟨1, ![E]⟩ ![e0] src hs) (broadcastInDim ⟨1, ![E]⟩ ![] hb0 (constantI ⟨0, ![]⟩ 32 2368#32)))
                      (extractStridedSlice ⟨1, ![E]⟩ ![e0] src hs))))
                (broadcastInDim ⟨2, ![2048, E]⟩ ![0, 1] hb2 (broadcastInDim ⟨2, ![1, E]⟩ ![1] hb1 (extractStridedSlice ⟨1, ![E]⟩ ![e0] w hs))))))))) (ix2 b col)
      = rowNext (OUT := OUT) offD (prev b) (globIx src e0 hE) (locIx dst e0 hE (BitVec.ofNat 32 offD) n) (at1 w e0 hE) col := by
  refine (refWrite_apply wfW hw1 buf _ offD hoff b col).trans ?_
  unfold rowNext
  by_cases h : offD ≤ col.val ∧ col.val < offD + OUT
  · rw [dif_pos h, dif_pos h]
    refine (refAct_apply (by decide : 0 < 2368) wfS wfG hb hb1 hb2 hbo buf _ _ _ b _).trans ?_
    refine elayer_congr _ (fun c => hprev b c) (fun e => ?_) (fun e => ?_) (fun e => ?_) _
    · rw [wrapVec_apply, slice1_apply e0 hs hE]; rfl
    · rw [wrapVec_apply, subSplat_apply, slice1_apply e0 hs hE]; rfl
    · exact slice1_apply e0 hs hE w e
  · rw [dif_neg h, dif_neg h]
    exact hprev b col

/-- The buffer after layer 1, read at row `b`, column `col`. -/
theorem refBuf1_apply (V0 : Valuation τ sig (Elt Ideal)) (b : Fin 2048) (col : Fin 2368) :
    (Value.res_main_v33 V0 : S2048x2368.Idx → EReal) (ix2 b col)
      = row1 (V0 (Proc.devRef .tc main_arg0)) (V0 (Proc.devRef .tc main_arg1)) (V0 (Proc.devRef .tc main_arg2)) (V0 (Proc.devRef .tc main_arg3)) b col := by
  unfold Value.res_main_v33 row1
  exact refStep_apply 0 hE1 scatter_S2048x2368_S1_S2048x512_01_n_1_0_wf bcast_S_S1
    scatter_S2048x512_S16384x1_S2048x16384_0_1_1_1_wf gather_S2048x2368_S16384x1_S2048x16384_0_1_n_n_1_1_20481_wf
    bcast_S16384_S16384x1_0 bcast_S16384_S1x16384_1 bcast_S1x16384_S2048x16384_0_1 bcast_S_S2048x512 bcast_S_S16384
    slices_S67584_S16384_0 (Value.res_main_v2 V0) (V0 (Proc.devRef .tc main_arg1)) (V0 (Proc.devRef .tc main_arg2)) (V0 (Proc.devRef .tc main_arg3))
    (row0 (V0 (Proc.devRef .tc main_arg0))) (refBuf0_apply V0) 256 (by decide) 512#32 b col

/-- The buffer after layer 2, read at row `b`, column `col`. -/
theorem refBuf2_apply (V0 : Valuation τ sig (Elt Ideal)) (b : Fin 2048) (col : Fin 2368) :
    (Value.res_main_v64 V0 : S2048x2368.Idx → EReal) (ix2 b col)
      = row2 (V0 (Proc.devRef .tc main_arg0)) (V0 (Proc.devRef .tc main_arg1)) (V0 (Proc.devRef .tc main_arg2)) (V0 (Proc.devRef .tc main_arg3)) b col := by
  unfold Value.res_main_v64 row2
  exact refStep_apply 16384 hE2 scatter_S2048x2368_S1_S2048x512_01_n_1_0_wf bcast_S_S1
    scatter_S2048x512_S16384x1_S2048x16384_0_1_1_1_wf gather_S2048x2368_S16384x1_S2048x16384_0_1_n_n_1_1_20481_wf
    bcast_S16384_S16384x1_0 bcast_S16384_S1x16384_1 bcast_S1x16384_S2048x16384_0_1 bcast_S_S2048x512 bcast_S_S16384
    slices_S67584_S16384_16384 (Value.res_main_v33 V0) (V0 (Proc.devRef .tc main_arg1)) (V0 (Proc.devRef .tc main_arg2)) (V0 (Proc.devRef .tc main_arg3))
    (row1 (V0 (Proc.devRef .tc main_arg0)) (V0 (Proc.devRef .tc main_arg1)) (V0 (Proc.devRef .tc main_arg2)) (V0 (Proc.devRef .tc main_arg3))) (refBuf1_apply V0) 768 (by decide) 512#32 b col

/-- The buffer after layer 3, read at row `b`, column `col`. -/
theorem refBuf3_apply (V0 : Valuation τ sig (Elt Ideal)) (b : Fin 2048) (col : Fin 2368) :
    (Value.res_main_v95 V0 : S2048x2368.Idx → EReal) (ix2 b col)
      = row3 (V0 (Proc.devRef .tc main_arg0)) (V0 (Proc.devRef .tc main_arg1)) (V0 (Proc.devRef .tc main_arg2)) (V0 (Proc.devRef .tc main_arg3)) b col := by
  unfold Value.res_main_v95 row3
  exact refStep_apply 32768 hE3 scatter_S2048x2368_S1_S2048x512_01_n_1_0_wf bcast_S_S1
    scatter_S2048x512_S16384x1_S2048x16384_0_1_1_1_wf gather_S2048x2368_S16384x1_S2048x16384_0_1_n_n_1_1_20481_wf
    bcast_S16384_S16384x1_0 bcast_S16384_S1x16384_1 bcast_S1x16384_S2048x16384_0_1 bcast_S_S2048x512 bcast_S_S16384
    slices_S67584_S16384_32768 (Value.res_main_v64 V0) (V0 (Proc.devRef .tc main_arg1)) (V0 (Proc.devRef .tc main_arg2)) (V0 (Proc.devRef .tc main_arg3))
    (row2 (V0 (Proc.devRef .tc main_arg0)) (V0 (Proc.devRef .tc main_arg1)) (V0 (Proc.devRef .tc main_arg2)) (V0 (Proc.devRef .tc main_arg3))) (refBuf2_apply V0) 1280 (by decide) 512#32 b col

/-- The buffer after layer 4, read at row `b`, column `col`. -/
theorem refBuf4_apply (V0 : Valuation τ sig (Elt Ideal)) (b : Fin 2048) (col : Fin 2368) :
    (Value.res_main_v126 V0 : S2048x2368.Idx → EReal) (ix2 b col)
      = row4 (V0 (Proc.devRef .tc main_arg0)) (V0 (Proc.devRef .tc main_arg1)) (V0 (Proc.devRef .tc main_arg2)) (V0 (Proc.devRef .tc main_arg3)) b col := by
  unfold Value.res_main_v126 row4
  exact refStep_apply 49152 hE4 scatter_S2048x2368_S1_S2048x512_01_n_1_0_wf bcast_S_S1
    scatter_S2048x512_S16384x1_S2048x16384_0_1_1_1_wf gather_S2048x2368_S16384x1_S2048x16384_0_1_n_n_1_1_20481_wf
    bcast_S16384_S16384x1_0 bcast_S16384_S1x16384_1 bcast_S1x16384_S2048x16384_0_1 bcast_S_S2048x512 bcast_S_S16384
    slices_S67584_S16384_49152 (Value.res_main_v95 V0) (V0 (Proc.devRef .tc main_arg1)) (V0 (Proc.devRef .tc main_arg2)) (V0 (Proc.devRef .tc main_arg3))
    (row3 (V0 (Proc.devRef .tc main_arg0)) (V0 (Proc.devRef .tc main_arg1)) (V0 (Proc.devRef .tc main_arg2)) (V0 (Proc.devRef .tc main_arg3))) (refBuf3_apply V0) 1792 (by decide) 512#32 b col

/-- A block of columns of a two-dimensional array, read at row `b`, column `j` of the block. -/
private theorem colSlice_apply {α : Type} {R C C' : ℕ} (off : ℕ) (hs : (⟨2, ![R, C]⟩ : Shape).Slices ![0, off] ⟨2, ![R, C']⟩)
    (h : off + C' ≤ C) (x : (⟨2, ![R, C]⟩ : Shape).Idx → α) (b : Fin R) (j : Fin C') :
    extractStridedSlice ⟨2, ![R, C']⟩ ![0, off] x hs (ix2 b j) = x (ix2 b ⟨off + j.val, by have := j.isLt; omega⟩) := by
  unfold extractStridedSlice
  refine congrArg x (funext fun a => Fin.ext ?_)
  match a with
  | ⟨0, _⟩ => exact Nat.zero_add _
  | ⟨1, _⟩ => rfl

/-- Every weakly fair execution of the reference ends with its result array at `netR` of the launch's arrays, row by
    row, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v158)
        = (fun y : S2048x64.Idx => netR (m ((c.tc : Thread nD τ).loc main_arg0)) (m ((c.tc : Thread nD τ).loc main_arg1))
            (m ((c.tc : Thread nD τ).loc main_arg2)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Cert.ReferenceIdeal.Value.run (F := Ideal) m ρ)
  funext y
  obtain ⟨b, j, rfl⟩ : ∃ b j, y = ix2 b j := ⟨y 0, y 1, eq_ix2 y⟩
  -- the result is the last buffer's columns [2304, 2368)
  refine (colSlice_apply 2304 slices_S2048x2368_S2048x64_0_2304 (by decide) _ b j).trans ?_
  -- the last buffer is layer 5 written over the buffer the first four layers left
  refine (refStep_apply 65536 hE5 scatter_S2048x2368_S1_S2048x64_01_n_1_0_wf bcast_S_S1
    scatter_S2048x64_S2048x1_S2048x2048_0_1_1_1_wf gather_S2048x2368_S2048x1_S2048x2048_0_1_n_n_1_1_20481_wf
    bcast_S2048_S2048x1_0 bcast_S2048_S1x2048_1 bcast_S1x2048_S2048x2048_0_1 bcast_S_S2048x64 bcast_S_S2048
    slices_S67584_S2048_65536 (Value.res_main_v126 (StableHlo.launchContents m c))
    (m ((c.tc : Thread nD τ).loc main_arg1)) (m ((c.tc : Thread nD τ).loc main_arg2)) (m ((c.tc : Thread nD τ).loc main_arg3))
    (row4 (m ((c.tc : Thread nD τ).loc main_arg0)) (m ((c.tc : Thread nD τ).loc main_arg1))
      (m ((c.tc : Thread nD τ).loc main_arg2)) (m ((c.tc : Thread nD τ).loc main_arg3)))
    (refBuf4_apply (StableHlo.launchContents m c)) 2304 (by decide) 64#32 b _).trans ?_
  -- column 2304 + j of the new row is output j of the last layer
  unfold rowNext netR
  have hj := j.isLt
  rw [dif_pos (show 2304 ≤ 2304 + j.val ∧ 2304 + j.val < 2304 + 64 by omega)]
  refine congrArg _ (Fin.ext ?_)
  show 2304 + j.val - 2304 = j.val
  omega

end Cert.Neat

end
-- ==== Proof.Algebra.lean ====
/-
  The one algebraic law that joins the two programs: a sum over source nodes of `aₖ` times the selector-matrix entry
  is the sum over the edges of `a (source e) · w e`. It regroups a double sum by the fibres of `e ↦ source e`, and
  distributes `aₖ` over a sum; on the extended reals that needs every factor to be a real number.
-/
import Idealize.ShloMosaic.PureOps.Ideal
import Idealize.ShloMosaic.Lib.ValueIdx

noncomputable section

namespace Cert.Neat

open Idealize.ShloMosaic Idealize.ShloMosaic.ValueIdx

/-- The logistic function takes real values only (0 at −∞, 1 at +∞). -/
theorem logistic_real (z : EReal) : ∃ r : ℝ, Ideal.logistic z = (r : EReal) := by
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The coercion of a finite real sum is the sum of the coercions. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Regrouping by fibres over the reals: `∑ₖ aₖ · ∑ { wₑ | f e = k, p e } = ∑ { a (f e) · wₑ | p e }`. -/
theorem fiber_sum_real {K E : Type} [Fintype K] [Fintype E] [DecidableEq K] (a : K → ℝ) (wv : E → ℝ)
    (f : E → K) (p : E → Prop) [DecidablePred p] :
    ∑ k, a k * ∑ e ∈ Finset.univ.filter (fun e => f e = k ∧ p e), wv e
      = ∑ e ∈ Finset.univ.filter p, a (f e) * wv e := by
  rw [← Finset.sum_fiberwise (Finset.univ.filter p) f (fun e => a (f e) * wv e)]
  refine Finset.sum_congr rfl fun k _ => ?_
  rw [Finset.mul_sum, Finset.filter_filter]
  refine Finset.sum_congr (Finset.filter_congr fun e _ => and_comm) fun e he => ?_
  rw [(Finset.mem_filter.mp he).2.2]

/-- Regrouping by fibres, with real factors, on the extended reals. -/
theorem fiber_sum {K E : Type} [Fintype K] [Fintype E] [DecidableEq K] (a : K → EReal) (wv : E → EReal)
    (ha : ∀ k, ∃ r : ℝ, a k = (r : EReal)) (hw : ∀ e, ∃ r : ℝ, wv e = (r : EReal))
    (f : E → K) (p : E → Prop) [DecidablePred p] :
    ∑ k, a k * ∑ e ∈ Finset.univ.filter (fun e => f e = k ∧ p e), wv e
      = ∑ e ∈ Finset.univ.filter p, a (f e) * wv e := by
  choose a' ha' using ha
  choose w' hw' using hw
  have hl : ∀ k, a k * ∑ e ∈ Finset.univ.filter (fun e => f e = k ∧ p e), wv e
      = ((a' k * ∑ e ∈ Finset.univ.filter (fun e => f e = k ∧ p e), w' e : ℝ) : EReal) := by
    intro k
    rw [EReal.coe_mul, coe_finset_sum, ha' k]
    exact congrArg _ (Finset.sum_congr rfl fun e _ => hw' e)
  have hr : ∀ e, a (f e) * wv e = ((a' (f e) * w' e : ℝ) : EReal) := by
    intro e; rw [EReal.coe_mul, ha' (f e), hw' e]
  rw [Finset.sum_congr rfl fun k _ => hl k, Finset.sum_congr rfl fun e _ => hr e, ← coe_finset_sum, ← coe_finset_sum,
    fiber_sum_real]

end Cert.Neat

end
-- ==== Proof.Bridge.lean ====
/-
  The two programs compute one function of the inputs, row by row, when every input and weight is real and every
  edge's source lies in the previous layer: layer by layer the kernel's `σ (∑ₖ aₖ · S k j)` is the reference's
  `σ (∑ₑ row (source e) · w e)`, by regrouping the edges by their source (`fiber_sum`); the activations are real
  because the logistic function is.
-/
import Idealize.ShloMosaic.PureOps.Ideal
import Idealize.ShloMosaic.Lib.ValueIdx
import proofs.«401231_j7215545057312_2_alg».proof.Proof.Spec
import proofs.«401231_j7215545057312_2_alg».proof.Proof.Algebra

noncomputable section

namespace Cert.Neat

open Idealize.ShloMosaic Idealize.ShloMosaic.ValueIdx

/-- A non-negative word is read as itself. -/
theorem wrapIx_of_nonneg (v n : BitVec 32) (h : 0 ≤ v.toInt) : wrapIx v n = v := by
  unfold wrapIx Scalar.select IntOp.cmpi
  have hs : v.slt 0#32 = false := by
    simp only [BitVec.slt, BitVec.toInt_zero, decide_eq_false_iff_not, not_lt]
    exact h
  simp [hs]

/-- A node id at or above the layer's first node id, less that id, is the local index. -/
theorem subi_toInt (s : BitVec 32) (off : ℕ) (hoff : off < 2147483648) (h0 : (off : ℤ) ≤ s.toInt) :
    (IntOp.subi s (BitVec.ofNat 32 off)).toInt = s.toInt - off := by
  unfold IntOp.subi
  have h1 := BitVec.toInt_lt (x := s)
  have h2 := BitVec.le_toInt (x := s)
  rw [BitVec.toInt_sub, BitVec.toInt_ofNat']
  norm_num [Int.bmod_def] at h1 h2 ⊢
  omega

/-- ONE LAYER. With real activations `a` sitting in columns `[offS, offS + IN)` of the row `prev`, real weights, and every
    source id inside `[offS, offS + IN)`: the matrix form over the local indices is the edge form over the row. -/
theorem layer_eq {IN OUT E : ℕ} (offS : ℕ) (hfit : offS + IN ≤ 2368) (prev : Fin 2368 → EReal) (a : Fin IN → EReal)
    (ha : ∀ k, ∃ r : ℝ, a k = (r : EReal))
    (hprev : ∀ k : Fin IN, prev ⟨offS + k.val, by have := k.isLt; omega⟩ = a k)
    (sw dw : Fin E → BitVec 32) (wl : Fin E → EReal) (hw : ∀ e, ∃ r : ℝ, wl e = (r : EReal))
    (hs : ∀ e, (offS : ℤ) ≤ (sw e).toInt ∧ (sw e).toInt < (offS : ℤ) + IN) :
    rlayer (OUT := OUT) a (selMat (fun e => wrapIx (IntOp.subi (sw e) (BitVec.ofNat 32 offS)) (BitVec.ofNat 32 IN)) dw wl)
      = elayer (C := 2368) (by decide) prev (fun e => wrapIx (sw e) 2368#32) dw wl := by
  funext j
  unfold rlayer elayer selMat
  congr 1
  -- the local source of an edge, as an index of the layer's input
  let f : Fin E → Fin IN := fun e => ⟨((sw e).toInt - offS).toNat, by have := hs e; omega⟩
  have hloc : ∀ e, (wrapIx (IntOp.subi (sw e) (BitVec.ofNat 32 offS)) (BitVec.ofNat 32 IN)).toInt = (sw e).toInt - offS := by
    intro e
    have h := hs e
    have hsub := subi_toInt (sw e) offS (by omega) h.1
    rw [wrapIx_of_nonneg _ _ (by rw [hsub]; omega), hsub]
  have hk : ∀ e (k : Fin IN),
      ((wrapIx (IntOp.subi (sw e) (BitVec.ofNat 32 offS)) (BitVec.ofNat 32 IN)).toInt = (k.val : ℤ)) ↔ f e = k := by
    intro e k
    have h := hs e
    rw [hloc e, Fin.ext_iff]
    show _ ↔ ((sw e).toInt - offS).toNat = k.val
    omega
  have hL : ∀ k : Fin IN,
      ∑ e ∈ Finset.univ.filter (fun e : Fin E =>
        (wrapIx (IntOp.subi (sw e) (BitVec.ofNat 32 offS)) (BitVec.ofNat 32 IN)).toInt = (k.val : ℤ) ∧ (dw e).toInt = (j.val : ℤ)), wl e
      = ∑ e ∈ Finset.univ.filter (fun e : Fin E => f e = k ∧ (dw e).toInt = (j.val : ℤ)), wl e := by
    intro k
    refine Finset.sum_congr (Finset.filter_congr fun e _ => ?_) fun _ _ => rfl
    rw [hk e k]
  rw [Finset.sum_congr rfl fun k _ => congrArg (a k * ·) (hL k)]
  rw [fiber_sum a wl ha hw f (fun e => (dw e).toInt = (j.val : ℤ))]
  refine Finset.sum_congr rfl fun e _ => ?_
  congr 1
  rw [← hprev (f e)]
  congr 1
  apply Fin.ext
  have h := hs e
  show offS + ((sw e).toInt - offS).toNat = min (wrapIx (sw e) 2368#32).toInt.toNat (2368 - 1)
  rw [wrapIx_of_nonneg _ _ (by omega)]
  omega

/-- A row after a layer holds the layer's outputs in the layer's own columns. -/
theorem rowNext_own {OUT E : ℕ} (offD : ℕ) (hfit : offD + OUT ≤ 2368) (prev : Fin 2368 → EReal)
    (is id : Fin E → BitVec 32) (wl : Fin E → EReal) (k : Fin OUT) :
    rowNext (OUT := OUT) offD prev is id wl ⟨offD + k.val, by have := k.isLt; omega⟩
      = elayer (C := 2368) (OUT := OUT) (by decide) prev is id wl k := by
  unfold rowNext
  have hk := k.isLt
  rw [dif_pos ⟨by show offD ≤ offD + k.val; omega, by show offD + k.val < offD + OUT; omega⟩]
  congr 1
  apply Fin.ext
  show offD + k.val - offD = k.val
  omega

/-- The output of a dense layer is real. -/
theorem rlayer_real {IN OUT : ℕ} (a : Fin IN → EReal) (S : Fin IN → Fin OUT → EReal) (j : Fin OUT) :
    ∃ r : ℝ, rlayer a S j = (r : EReal) := logistic_real _

theorem netK_eq_netR (x : (⟨2, ![2048, 256]⟩ : Shape).Idx → EReal) (w : (⟨1, ![67584]⟩ : Shape).Idx → EReal)
    (src dst : (⟨1, ![67584]⟩ : Shape).Idx → BitVec 32)
    (hx : ∀ i, ∃ r : ℝ, x i = (r : EReal)) (hw : ∀ i, ∃ r : ℝ, w i = (r : EReal))
    (h1 : ∀ e : Fin 16384, (0 : ℤ) ≤ (at1 src 0 hE1 e).toInt ∧ (at1 src 0 hE1 e).toInt < 256)
    (h2 : ∀ e : Fin 16384, (256 : ℤ) ≤ (at1 src 16384 hE2 e).toInt ∧ (at1 src 16384 hE2 e).toInt < 768)
    (h3 : ∀ e : Fin 16384, (768 : ℤ) ≤ (at1 src 32768 hE3 e).toInt ∧ (at1 src 32768 hE3 e).toInt < 1280)
    (h4 : ∀ e : Fin 16384, (1280 : ℤ) ≤ (at1 src 49152 hE4 e).toInt ∧ (at1 src 49152 hE4 e).toInt < 1792)
    (h5 : ∀ e : Fin 2048, (1792 : ℤ) ≤ (at1 src 65536 hE5 e).toInt ∧ (at1 src 65536 hE5 e).toInt < 2304)
    (b : Fin 2048) : netK x w src dst b = netR x w src dst b := by
  -- the weights of every block are real
  have hw' : ∀ (e0 : ℕ) {E : ℕ} (h : e0 + E ≤ 67584) (e : Fin E), ∃ r : ℝ, at1 w e0 h e = (r : EReal) :=
    fun e0 _ h e => hw _
  -- layer 1 off the input row
  have e1 : rlayer (fun k => x (ix2 b k)) (S1 w src dst)
      = elayer (C := 2368) (by decide) (row0 x b) (globIx src 0 hE1) (locIx dst 0 hE1 256#32 512#32) (at1 w 0 hE1) :=
    layer_eq (IN := 256) (OUT := 512) 0 (by decide) (row0 x b) (fun k => x (ix2 b k)) (fun k => hx _)
      (fun k => by
        unfold row0
        have hk := k.isLt
        rw [dif_pos (by show 0 + k.val < 256; omega)]
        exact congrArg x (congrArg (ix2 b) (Fin.ext (by show 0 + k.val = k.val; omega))))
      (at1 src 0 hE1) (locIx dst 0 hE1 256#32 512#32) (at1 w 0 hE1) (hw' 0 hE1)
      (fun e => by have := h1 e; exact ⟨by simpa using this.1, by simpa using this.2⟩)
  -- layers 2 to 5 off the row the previous layer left
  have e2 : rlayer (rlayer (fun k => x (ix2 b k)) (S1 w src dst)) (S2 w src dst)
      = elayer (C := 2368) (by decide) (row1 x w src dst b) (globIx src 16384 hE2) (locIx dst 16384 hE2 768#32 512#32) (at1 w 16384 hE2) :=
    layer_eq (IN := 512) (OUT := 512) 256 (by decide) (row1 x w src dst b) _ (fun k => rlayer_real _ _ k)
      (fun k => by rw [e1]; exact rowNext_own (OUT := 512) 256 (by decide) _ _ _ _ k)
      (at1 src 16384 hE2) (locIx dst 16384 hE2 768#32 512#32) (at1 w 16384 hE2) (hw' 16384 hE2)
      (fun e => by have := h2 e; exact ⟨by simpa using this.1, by simpa using this.2⟩)
  have e3 : rlayer (rlayer (rlayer (fun k => x (ix2 b k)) (S1 w src dst)) (S2 w src dst)) (S3 w src dst)
      = elayer (C := 2368) (by decide) (row2 x w src dst b) (globIx src 32768 hE3) (locIx dst 32768 hE3 1280#32 512#32) (at1 w 32768 hE3) :=
    layer_eq (IN := 512) (OUT := 512) 768 (by decide) (row2 x w src dst b) _ (fun k => rlayer_real _ _ k)
      (fun k => by rw [e2]; exact rowNext_own (OUT := 512) 768 (by decide) _ _ _ _ k)
      (at1 src 32768 hE3) (locIx dst 32768 hE3 1280#32 512#32) (at1 w 32768 hE3) (hw' 32768 hE3)
      (fun e => by have := h3 e; exact ⟨by simpa using this.1, by simpa using this.2⟩)
  have e4 : rlayer (rlayer (rlayer (rlayer (fun k => x (ix2 b k)) (S1 w src dst)) (S2 w src dst)) (S3 w src dst)) (S4 w src dst)
      = elayer (C := 2368) (by decide) (row3 x w src dst b) (globIx src 49152 hE4) (locIx dst 49152 hE4 1792#32 512#32) (at1 w 49152 hE4) :=
    layer_eq (IN := 512) (OUT := 512) 1280 (by decide) (row3 x w src dst b) _ (fun k => rlayer_real _ _ k)
      (fun k => by rw [e3]; exact rowNext_own (OUT := 512) 1280 (by decide) _ _ _ _ k)
      (at1 src 49152 hE4) (locIx dst 49152 hE4 1792#32 512#32) (at1 w 49152 hE4) (hw' 49152 hE4)
      (fun e => by have := h4 e; exact ⟨by simpa using this.1, by simpa using this.2⟩)
  show rlayer (rlayer (rlayer (rlayer (rlayer (fun k => x (ix2 b k)) (S1 w src dst)) (S2 w src dst)) (S3 w src dst)) (S4 w src dst)) (S5 w src dst)
      = elayer (C := 2368) (by decide) (row4 x w src dst b) (globIx src 65536 hE5) (locIx dst 65536 hE5 2304#32 64#32) (at1 w 65536 hE5)
  exact layer_eq (IN := 512) (OUT := 64) 1792 (by decide) (row4 x w src dst b) _ (fun k => rlayer_real _ _ k)
      (fun k => by rw [e4]; exact rowNext_own (OUT := 512) 1792 (by decide) _ _ _ _ k)
      (at1 src 65536 hE5) (locIx dst 65536 hE5 2304#32 64#32) (at1 w 65536 hE5) (hw' 65536 hE5)
      (fun e => by have := h5 e; exact ⟨by simpa using this.1, by simpa using this.2⟩)

end Cert.Neat

end
-- ==== Proof.lean ====
/-
  A five-layer feed-forward network over a fixed layered graph: 256 inputs, four hidden layers of 512 nodes, 64 outputs;
  every non-input node sums 32 weighted incoming edges from the previous layer and applies the logistic function.

  The kernel first turns each layer's edges into a dense `IN × OUT` selector matrix (a weight is added at
  (local source, local destination)) and then runs five matrix products with the logistic function, two blocks of 1024
  batch rows; rounding the operands to bf16 is the identity on the exact reals. The reference keeps all 2368 node
  activations of a batch row in one buffer and, layer by layer, gathers the source columns, multiplies by the weights,
  accumulates by destination, applies `1 / (1 + exp (−·))` and writes the layer's columns.

  Both are the same function of real inputs and weights when every edge's source lies in the previous layer's node range
  (the precondition): `∑ₖ aₖ · ∑ { wₑ | source e = k, dest e = j } = ∑ { a (source e) · wₑ | dest e = j }`, a
  regrouping of a finite sum of products of real numbers (Proof/Algebra.lean, Proof/Bridge.lean). The kernel's result
  array is read off its generated frame run (Proof/KPayload.lean, KBlocks.lean, KHost.lean), the reference's off its
  generated run (Proof/RefLayer.lean, RefChain.lean); the precondition is decoded in Proof/PreFacts.lean.
  The three frames are the generated ones; the idealization rewrote nothing, so `preserves` is trivial.
-/
import proofs.«401231_j7215545057312_2_alg».proof.Defs
import proofs.«401231_j7215545057312_2_alg».proof.Proof.Gen.Kernel
import proofs.«401231_j7215545057312_2_alg».proof.Proof.Gen.Kernel.Frame
import proofs.«401231_j7215545057312_2_alg».proof.Proof.Gen.KernelIdeal
import proofs.«401231_j7215545057312_2_alg».proof.Proof.Gen.KernelIdeal.Frame
import proofs.«401231_j7215545057312_2_alg».proof.Proof.Gen.KernelIdeal.Value
import proofs.«401231_j7215545057312_2_alg».proof.Proof.Gen.ReferenceIdeal
import proofs.«401231_j7215545057312_2_alg».proof.Proof.Gen.ReferenceIdeal.Run
import proofs.«401231_j7215545057312_2_alg».proof.Proof.Gen.Pre_finite_inputs
import proofs.«401231_j7215545057312_2_alg».proof.Proof.Spec
import proofs.«401231_j7215545057312_2_alg».proof.Proof.PreFacts
import proofs.«401231_j7215545057312_2_alg».proof.Proof.KBlocks
import proofs.«401231_j7215545057312_2_alg».proof.Proof.KHost
import proofs.«401231_j7215545057312_2_alg».proof.Proof.RefChain
import proofs.«401231_j7215545057312_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx Cert.Neat

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

section KernelValue

open Cert.KernelIdeal Cert.KernelIdeal.Gen

/-- Every weakly fair execution of the idealized kernel ends with its result array at `netK` of the launch's arrays, row
    by row: the blocks' rows are `netRow` over the matrices the region finds, and those are the edges' selector matrices. -/
theorem kernel_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110)
        = (fun y : S2048x64.Idx => netK (m ((c.tc : Thread nD τ).loc main_arg0)) (m ((c.tc : Thread nD τ).loc main_arg1))
            (m ((c.tc : Thread nD τ).loc main_arg2)) (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun y => ?_), (h c).2⟩)
    (Cert.KernelIdeal.Value.run_blocks (F := Ideal) m ρ)
  obtain ⟨b, j, rfl⟩ : ∃ (b : Fin 2048) (j : Fin 64), y = ix2 b j := ⟨y 0, y 1, eq_ix2 y⟩
  refine (kernel_array m c b j).trans ?_
  have hx : (fun k => (V m c main_arg0 : S2048x256.Idx → EReal) (ix2 b k))
      = fun k => (m ((c.tc : Thread nD τ).loc main_arg0) : S2048x256.Idx → EReal) (ix2 b k) :=
    funext fun k => congrFun (V_main_arg0 m c) (ix2 b k)
  have e1 : (fun i j => (V m c main_v21 : S256x512.Idx → EReal) (ix2 i j)) = S1 (Warr m c) (SRCarr m c) (DSTarr m c) :=
    funext fun i => funext fun j => S1_host m c i j
  have e2 : (fun i j => (V m c main_v43 : S512x512.Idx → EReal) (ix2 i j)) = S2 (Warr m c) (SRCarr m c) (DSTarr m c) :=
    funext fun i => funext fun j => S2_host m c i j
  have e3 : (fun i j => (V m c main_v65 : S512x512.Idx → EReal) (ix2 i j)) = S3 (Warr m c) (SRCarr m c) (DSTarr m c) :=
    funext fun i => funext fun j => S3_host m c i j
  have e4 : (fun i j => (V m c main_v87 : S512x512.Idx → EReal) (ix2 i j)) = S4 (Warr m c) (SRCarr m c) (DSTarr m c) :=
    funext fun i => funext fun j => S4_host m c i j
  have e5 : (fun i j => (V m c main_v109 : S512x64.Idx → EReal) (ix2 i j)) = S5 (Warr m c) (SRCarr m c) (DSTarr m c) :=
    funext fun i => funext fun j => S5_host m c i j
  rw [hx, e1, e2, e3, e4, e5]
  rfl

end KernelValue

/-- The idealized kernel and the idealized reference, from memories agreeing on the arguments, both run and end with
    one result: the kernel's `netK` is the reference's `netR` of real inputs and weights with every edge's source in the
    previous layer (`netK_eq_netR`), which is what the precondition says (`pre_facts`). -/
theorem algebraic : Cert.algebraic_KernelIdeal_ReferenceIdeal := by
  intro m ρ m' ρ' hpre hagree
  refine ⟨_, kernel_value m ρ, ?_⟩
  refine (θ_run Cert.ReferenceIdeal.defs _ _).mono (fun r h c => ⟨(h c).1.trans ?_, (h c).2⟩) (ref_run m' ρ')
  obtain ⟨hx, hw, h1, h2, h3, h4, h5⟩ := pre_facts _ _ _ _ (hpre c)
  rw [(hagree c).1, (hagree c).2.1, (hagree c).2.2.1, (hagree c).2.2.2]
  funext y
  exact (congrFun (netK_eq_netR _ _ _ _ hx hw h1 h2 h3 h4 h5 (y 0)) (y 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
